-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32000x2048 : Shape := ⟨2, ![32000, 2048]⟩
abbrev S8x512x2048 : Shape := ⟨3, ![8, 512, 2048]⟩
abbrev S8x512 : Shape := ⟨2, ![8, 512]⟩
abbrev S32000 : Shape := ⟨1, ![32000]⟩
abbrev S_ : Shape := ⟨0, ![]⟩

class Facts : Prop where
  bcast_S_S32000x2048 : S_.BroadcastsInDim S32000x2048 (![] : Fin 0 → Fin S32000x2048.rank)
  reducesTo_S32000x2048_S_d0_1 : S32000x2048.ReducesTo [0, 1] S_
  h_S_ : 0 < S_.numel
  bcast_S_S8x512x2048 : S_.BroadcastsInDim S8x512x2048 (![] : Fin 0 → Fin S8x512x2048.rank)
  reducesTo_S8x512x2048_S_d0_1_2 : S8x512x2048.ReducesTo [0, 1, 2] S_
  bcast_S_S32000 : S_.BroadcastsInDim S32000 (![] : Fin 0 → Fin S32000.rank)
  reducesTo_S32000_S_d0 : S32000.ReducesTo [0] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg2 : IVec S8x512 32) (main_v13 : IVec S_ 1) (main_v15 : IVec S8x512 1) (main_c_5 : IVec S_ 32) : IVec S_ 1 :=
  let main_v16 : IVec S8x512 32 := broadcastInDim S8x512 ![] bcast_S_S8x512 main_c_5
  let main_v17 : IVec S8x512 1 := cmpi .sge main_arg2 main_v16
  let main_c_6 : IVec S_ 32 := constantI S_ 32 32000#32
  let main_v18 : IVec S8x512 32 := broadcastInDim S8x512 ![] bcast_S_S8x512 main_c_6
  let main_v19 : IVec S8x512 1 := cmpi .slt main_arg2 main_v18
  let main_v20 : IVec S8x512 1 := andi main_v17 main_v19
  let main_v21 : IVec S8x512 1 := ori main_v15 main_v20
  let main_c_7 : IVec S_ 1 := constantI S_ 1 1#1
  let main_v22 : IVec S_ 1 := (fun x v => Host.reduce IntOp.andi x v reducesTo_S8x512_S_d0_1 h_S_) main_v21 main_c_7
  let main_v23 : IVec S_ 1 := andi main_v13 main_v22
  main_v23

def fn {F : FTy → Type} [FloatOps F] (main_arg0 : FVec F S32000x2048 .f32) (main_arg1 : FVec F S8x512x2048 .f32) (main_arg2 : IVec S8x512 32) (main_arg3 : FVec F S32000 .f32) : IVec S_ 1 :=
  let main_v0 : FVec F S32000x2048 .f32 := Host.absf main_arg0
  let main_cst : FVec F S_ .f32 := constant S_ .f32 0x7F800000#32
  let main_v1 : FVec F S32000x2048 .f32 := broadcastInDim S32000x2048 ![] bcast_S_S32000x2048 main_cst
  let main_v2 : IVec S32000x2048 1 := cmpf .olt main_v0 main_v1
  let main_c : IVec S_ 1 := constantI S_ 1 1#1
  let main_v3 : IVec S_ 1 := (fun x v => Host.reduce IntOp.andi x v reducesTo_S32000x2048_S_d0_1 h_S_) main_v2 main_c
  let main_v4 : FVec F S8x512x2048 .f32 := Host.absf main_arg1
  let main_cst_0 : FVec F S_ .f32 := constant S_ .f32 0x7F800000#32
  let main_v5 : FVec F S8x512x2048 .f32 := broadcastInDim S8x512x2048 ![] bcast_S_S8x512x2048 main_cst_0
  let main_v6 : IVec S8x512x2048 1 := cmpf .olt main_v4 main_v5
  let main_c_1 : IVec S_ 1 := constantI S_ 1 1#1
  let main_v7 : IVec S_ 1 := (fun x v => Host.reduce IntOp.andi x v reducesTo_S8x512x2048_S_d0_1_2 h_S_) main_v6 main_c_1
  let main_v8 : IVec S_ 1 := andi main_v3 main_v7
  let main_v9 : FVec F S32000 .f32 := Host.absf main_arg3
  let main_cst_2 : FVec F S_ .f32 := constant S_ .f32 0x7F800000#32
  let main_v10 : FVec F S32000 .f32 := broadcastInDim S32000 ![] bcast_S_S32000 main_cst_2
  let main_v11 : IVec S32000 1 := cmpf .olt main_v9 main_v10
  let main_c_3 : IVec S_ 1 := constantI S_ 1 1#1
  let main_v12 : IVec S_ 1 := (fun x v => Host.reduce IntOp.andi x v reducesTo_S32000_S_d0 h_S_) main_v11 main_c_3
  let main_v13 : IVec S_ 1 := andi main_v8 main_v12
  let main_c_4 : IVec S_ 32 := constantI S_ 32 4294967196#32
  let main_v14 : IVec S8x512 32 := broadcastInDim S8x512 ![] bcast_S_S8x512 main_c_4
  let main_v15 : IVec S8x512 1 := cmpi .eq main_arg2 main_v14
  let main_c_5 : IVec S_ 32 := constantI S_ 32 0#32
  fn_part1 (F := F) main_arg2 main_v13 main_v15 main_c_5
-- ==== Kernel.lean ====
abbrev S32000x2048 : Shape := ⟨2, ![32000, 2048]⟩
abbrev S8x512x2048 : Shape := ⟨3, ![8, 512, 2048]⟩
abbrev S8x512 : Shape := ⟨2, ![8, 512]⟩
abbrev S32000 : Shape := ⟨1, ![32000]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S256x2048 : Shape := ⟨2, ![256, 2048]⟩
abbrev S256 : Shape := ⟨1, ![256]⟩
abbrev S4096x256 : Shape := ⟨2, ![4096, 256]⟩
abbrev S1x256 : Shape := ⟨2, ![1, 256]⟩
abbrev S8 : Shape := ⟨1, ![8]⟩
abbrev S4 : Shape := ⟨1, ![4]⟩
abbrev S4x512 : Shape := ⟨2, ![4, 512]⟩

abbrev nBuf : Space → Nat
  | .hbm => 59
  | .vmem => 10
  | .smem => 0
  | _ => 0

abbrev bufTy : (tb : Table) → Fin (tcTables nBuf tb) → BufTy
  | .hbm, ⟨0, _⟩ => ⟨S32000x2048, .f32⟩
  | .hbm, ⟨1, _⟩ => ⟨S8x512x2048, .f32⟩
  | .hbm, ⟨2, _⟩ => ⟨S8x512, .i32⟩
  | .hbm, ⟨3, _⟩ => ⟨S32000, .f32⟩
  | .hbm, ⟨4, _⟩ => ⟨S4096x2048, .f32⟩
  | .hbm, ⟨5, _⟩ => ⟨S4096x2048, .bf16⟩
  | .hbm, ⟨6, _⟩ => ⟨S_, .i32⟩
  | .hbm, ⟨7, _⟩ => ⟨S8x512, .i32⟩
  | .hbm, ⟨8, _⟩ => ⟨S8x512, .i1⟩
  | .hbm, ⟨9, _⟩ => ⟨S_, .i32⟩
  | .hbm, ⟨10, _⟩ => ⟨S_, .i32⟩
  | .hbm, ⟨11, _⟩ => ⟨S8x512, .i32⟩
  | .hbm, ⟨12, _⟩ => ⟨S8x512, .i32⟩
  | .hbm, ⟨13, _⟩ => ⟨S4096, .i32⟩
  | .hbm, ⟨14, _⟩ => ⟨S4096x1, .f32⟩
  | .hbm, ⟨15, _⟩ => ⟨S8x512, .f32⟩
  | .hbm, ⟨16, _⟩ => ⟨S8x512, .f32⟩
  | .hbm, ⟨17, _⟩ => ⟨S8x512, .f32⟩
  | .hbm, ⟨18, _⟩ => ⟨S_, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S4, .f32⟩
  | .hbm, ⟨24, _⟩ => ⟨S4, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S4, .f32⟩
  | .hbm, ⟨35, _⟩ => ⟨S4, .i1⟩
  | .hbm, ⟨36, _⟩ => ⟨S4, .f32⟩
  | .hbm, ⟨37, _⟩ => ⟨S4, .f32⟩
  | .hbm, ⟨38, _⟩ => ⟨S4, .f32⟩
  | .hbm, ⟨39, _⟩ => ⟨S4, .f32⟩
  | .hbm, ⟨40, _⟩ => ⟨S4, .f32⟩
  | .hbm, ⟨41, _⟩ => ⟨S4, .f32⟩
  | .hbm, ⟨42, _⟩ => ⟨S4, .f32⟩
  | .hbm, ⟨43, _⟩ => ⟨S4, .f32⟩
  | .hbm, ⟨44, _⟩ => ⟨S4, .f32⟩
  | .hbm, ⟨45, _⟩ => ⟨S4, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S4x512, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S4x512, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S4096x2048, .bf16⟩
  | .local _ .vmem, ⟨1, _⟩ => ⟨S256x2048, .f32⟩
  | .local _ .vmem, ⟨2, _⟩ => ⟨S256x2048, .f32⟩
  | .local _ .vmem, ⟨3, _⟩ => ⟨S256, .f32⟩
  | .local _ .vmem, ⟨4, _⟩ => ⟨S256, .f32⟩
  | .local _ .vmem, ⟨5, _⟩ => ⟨S4096, .i32⟩
  | .local _ .vmem, ⟨6, _⟩ => ⟨S4096x1, .f32⟩
  | .local _ .vmem, ⟨7, _⟩ => ⟨S4096x1, .f32⟩
  | .local _ .vmem, ⟨8, _⟩ => ⟨S4096x1, .f32⟩
  | .local _ .vmem, ⟨9, _⟩ => ⟨S4096x1, .f32⟩
  | _, _ => ⟨S32000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_call1_v0 : Ref sig .tc := ⟨.hbm, 29, rfl⟩
abbrev main_call1_call0_cst : Ref sig .tc := ⟨.hbm, 30, rfl⟩
abbrev main_call1_call0_v0 : Ref sig .tc := ⟨.hbm, 31, rfl⟩
abbrev main_call1_call0_v1 : Ref sig .tc := ⟨.hbm, 32, rfl⟩
abbrev main_call1_call0_v2 : Ref sig .tc := ⟨.hbm, 33, rfl⟩
abbrev main_call1_call0_v3 : Ref sig .tc := ⟨.hbm, 34, rfl⟩
abbrev main_call1_call0_v4 : Ref sig .tc := ⟨.hbm, 35, rfl⟩
abbrev main_call1_call0_v5 : Ref sig .tc := ⟨.hbm, 36, rfl⟩
abbrev main_call1_call0_v6 : Ref sig .tc := ⟨.hbm, 37, rfl⟩
abbrev main_call1_call0_v7 : Ref sig .tc := ⟨.hbm, 38, rfl⟩
abbrev main_call1_call0_v8 : Ref sig .tc := ⟨.hbm, 39, rfl⟩
abbrev main_call1_call0_v9 : Ref sig .tc := ⟨.hbm, 40, rfl⟩
abbrev main_call1_call0_v10 : Ref sig .tc := ⟨.hbm, 41, rfl⟩
abbrev main_call1_call0_v11 : Ref sig .tc := ⟨.hbm, 42, rfl⟩
abbrev main_call1_v1 : Ref sig .tc := ⟨.hbm, 43, rfl⟩
abbrev main_v18 : Ref sig .tc := ⟨.hbm, 44, rfl⟩
abbrev main_v19 : Ref sig .tc := ⟨.hbm, 45, rfl⟩
abbrev main_cst_3 : Ref sig .tc := ⟨.hbm, 46, rfl⟩
abbrev main_v20 : Ref sig .tc := ⟨.hbm, 47, rfl⟩
abbrev main_cst_4 : Ref sig .tc := ⟨.hbm, 48, rfl⟩
abbrev main_v21 : Ref sig .tc := ⟨.hbm, 49, rfl⟩
abbrev main_v22 : Ref sig .tc := ⟨.hbm, 50, rfl⟩
abbrev main_cst_5 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_6 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![125], ![false]⟩

def k0_cond2 (i : grid0.Coords) : BitVec 1 :=
  let arg0 : BitVec 32 := BitVec.ofNat 32 (i 0).val
  let c124_i32 : BitVec 32 := 124#32
  let v50 : BitVec 1 := Scalar.cmpi .eq arg0 c124_i32
  let v51 : BitVec 32 := Scalar.extui v50
  let c0_i32_22 : BitVec 32 := 0#32
  let v52 : BitVec 1 := Scalar.cmpi .ne v51 c0_i32_22
  v52

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S8x512x2048_S4096x2048 : S8x512x2048.ShapeCasts S4096x2048
  bitsLt_bf16_f32 : FTy.bits .bf16 < FTy.bits .f32
  bcast_S_S8x512 : S_.BroadcastsInDim S8x512 (![] : Fin 0 → Fin S8x512.rank)
  shapeCasts_S8x512_S4096 : S8x512.ShapeCasts S4096
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S256x2048_S256x2048_0_0 : ∀ a, (![0, 0] : Fin 2 → Nat) a + S256x2048.size a ≤ S256x2048.size a
  h_S256x2048 : 0 < S256x2048.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  iota_S4096x256_d1_w32 : S4096x256.Iotas .tc 32 [1]
  inb_S4096_S4096_0 : ∀ a, (![0] : Fin 1 → Nat) a + S4096.size a ≤ S4096.size a
  h_S4096 : 0 < S4096.numel
  shapeCasts_S4096_S4096 : S4096.ShapeCasts S4096
  shapeCasts_S4096_S4096x1 : S4096.ShapeCasts S4096x1
  broadcasts_S4096x1_S4096x256 : S4096x1.Broadcasts S4096x256
  reduces_S4096x256_S4096 : S4096x256.Reduces [1] S4096
  shapeCasts_S4096x1_S8x512 : S4096x1.ShapeCasts S8x512
  reducesTo_S8x512_S8_d1 : S8x512.ReducesTo [1] S8
  h_S_ : 0 < S_.numel
  slices_S8_S4_0 : S8.Slices ![0] S4
  slices_S8_S4_4 : S8.Slices ![4] S4
  bcast_S_S4 : S_.BroadcastsInDim S4 (![] : Fin 0 → Fin S4.rank)
  reducesTo_S4_S_d0 : S4.ReducesTo [0] S_
  slices_S8x512_S4x512_0_0 : S8x512.Slices ![0, 0] S4x512
  reducesTo_S4x512_S_d0_1 : S4x512.ReducesTo [0, 1] S_
  dot_S4096x2048_S256x2048_S4096x256_1_1_0_0_n_n_wf : DotDims.WF S4096x2048 S256x2048 S4096x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x2048.size a ≤ S4096x2048.size a
  hwx0_0 : ∀ i : grid0.Coords, EltTy.bits .bf16 = 32 ∨ (Rect.block (s := S4096x2048) S4096x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S32000x2048.size a
  hwx0_1 : ∀ i : grid0.Coords, EltTy.bits .f32 = 32 ∨ (Rect.block (s := S32000x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S32000.size a
  hwx0_2 : ∀ i : grid0.Coords, EltTy.bits .f32 = 32 ∨ (Rect.block (s := S32000) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .i32 = 32 ∨ (Rect.block (s := S4096) S4096.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S4096x1.size a
  hwx0_4 : ∀ i : grid0.Coords, EltTy.bits .f32 = 32 ∨ (Rect.block (s := S4096x1) S4096x1.size (cc0_transform_4 i) (hinb0_4 i)).WholeWords (EltTy.packing .f32)

variable [Facts₀]

def dot_S4096x2048_S256x2048_S4096x256_1_1_0_0_n_n : DotDims S4096x2048 S256x2048 S4096x256 where
  lhsContracting := [1]
  rhsContracting := [1]
  lhsNonContracting := [0]
  rhsNonContracting := [0]
  lhsBatch := []
  rhsBatch := []
  wf := dot_S4096x2048_S256x2048_S4096x256_1_1_0_0_n_n_wf

abbrev win0_0 : Pipeline.Window sig grid0 :=
  Pipeline.Window.ofSpec (Memref.whole main_v1) S4096x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4096x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32000x2048 : Shape := ⟨2, ![32000, 2048]⟩
abbrev S8x512x2048 : Shape := ⟨3, ![8, 512, 2048]⟩
abbrev S8x512 : Shape := ⟨2, ![8, 512]⟩
abbrev S32000 : Shape := ⟨1, ![32000]⟩
abbrev S8x512x32000 : Shape := ⟨3, ![8, 512, 32000]⟩
abbrev S1x1x32000 : Shape := ⟨3, ![1, 1, 32000]⟩
abbrev S_ : Shape := ⟨0, ![]⟩
abbrev S8x512x1 : Shape := ⟨3, ![8, 512, 1]⟩
abbrev S8x512x1x1 : Shape := ⟨4, ![8, 512, 1, 1]⟩
abbrev S1 : Shape := ⟨1, ![1]⟩
abbrev S1x1x1x1 : Shape := ⟨4, ![1, 1, 1, 1]⟩
abbrev S8 : Shape := ⟨1, ![8]⟩
abbrev S4 : Shape := ⟨1, ![4]⟩
abbrev S4x512 : Shape := ⟨2, ![4, 512]⟩

abbrev nBuf : Space → Nat
  | .hbm => 101
  | .vmem => 0
  | .smem => 0
  | _ => 0

abbrev bufTy : (tb : Table) → Fin (tcTables nBuf tb) → BufTy
  | .hbm, ⟨0, _⟩ => ⟨S32000x2048, .f32⟩
  | .hbm, ⟨1, _⟩ => ⟨S8x512x2048, .f32⟩
  | .hbm, ⟨2, _⟩ => ⟨S8x512, .i32⟩
  | .hbm, ⟨3, _⟩ => ⟨S32000, .f32⟩
  | .hbm, ⟨4, _⟩ => ⟨S8x512x32000, .f32⟩
  | .hbm, ⟨5, _⟩ => ⟨S1x1x32000, .f32⟩
  | .hbm, ⟨6, _⟩ => ⟨S8x512x32000, .f32⟩
  | .hbm, ⟨7, _⟩ => ⟨S8x512x32000, .f32⟩
  | .hbm, ⟨8, _⟩ => ⟨S_, .f32⟩
  | .hbm, ⟨9, _⟩ => ⟨S8x512, .f32⟩
  | .hbm, ⟨10, _⟩ => ⟨S_, .f32⟩
  | .hbm, ⟨11, _⟩ => ⟨S8x512, .f32⟩
  | .hbm, ⟨12, _⟩ => ⟨S8x512, .f32⟩
  | .hbm, ⟨13, _⟩ => ⟨S8x512x1, .f32⟩
  | .hbm, ⟨14, _⟩ => ⟨S8x512x32000, .f32⟩
  | .hbm, ⟨15, _⟩ => ⟨S8x512x32000, .f32⟩
  | .hbm, ⟨16, _⟩ => ⟨S8x512x32000, .f32⟩
  | .hbm, ⟨17, _⟩ => ⟨S_, .f32⟩
  | .hbm, ⟨18, _⟩ => ⟨S8x512, .f32⟩
  | .hbm, ⟨19, _⟩ => ⟨S8x512x1, .f32⟩
  | .hbm, ⟨20, _⟩ => ⟨S8x512x1, .f32⟩
  | .hbm, ⟨21, _⟩ => ⟨S8x512x32000, .f32⟩
  | .hbm, ⟨22, _⟩ => ⟨S8x512x32000, .f32⟩
  | .hbm, ⟨23, _⟩ => ⟨S_, .i32⟩
  | .hbm, ⟨24, _⟩ => ⟨S8x512, .i32⟩
  | .hbm, ⟨25, _⟩ => ⟨S8x512, .i1⟩
  | .hbm, ⟨26, _⟩ => ⟨S_, .i32⟩
  | .hbm, ⟨27, _⟩ => ⟨S_, .i32⟩
  | .hbm, ⟨28, _⟩ => ⟨S8x512, .i32⟩
  | .hbm, ⟨29, _⟩ => ⟨S8x512, .i32⟩
  | .hbm, ⟨30, _⟩ => ⟨S8x512x1, .i32⟩
  | .hbm, ⟨31, _⟩ => ⟨S_, .i32⟩
  | .hbm, ⟨32, _⟩ => ⟨S8x512x1, .i32⟩
  | .hbm, ⟨33, _⟩ => ⟨S8x512x1, .i1⟩
  | .hbm, ⟨34, _⟩ => ⟨S_, .i32⟩
  | .hbm, ⟨35, _⟩ => ⟨S8x512x1, .i32⟩
  | .hbm, ⟨36, _⟩ => ⟨S8x512x1, .i32⟩
  | .hbm, ⟨37, _⟩ => ⟨S8x512x1, .i32⟩
  | .hbm, ⟨38, _⟩ => ⟨S8x512x1x1, .i32⟩
  | .hbm, ⟨39, _⟩ => ⟨S1, .i32⟩
  | .hbm, ⟨40, _⟩ => ⟨S_, .i32⟩
  | .hbm, ⟨41, _⟩ => ⟨S8x512x1x1, .i32⟩
  | .hbm, ⟨42, _⟩ => ⟨S8x512x1x1, .i1⟩
  | .hbm, ⟨43, _⟩ => ⟨S1x1x1x1, .i32⟩
  | .hbm, ⟨44, _⟩ => ⟨S8x512x1x1, .i32⟩
  | .hbm, ⟨45, _⟩ => ⟨S8x512x1x1, .i1⟩
  | .hbm, ⟨46, _⟩ => ⟨S8x512x1x1, .i1⟩
  | .hbm, ⟨47, _⟩ => ⟨S_, .i1⟩
  | .hbm, ⟨48, _⟩ => ⟨S8x512x1, .i1⟩
  | .hbm, ⟨49, _⟩ => ⟨S8x512x1, .f32⟩
  | .hbm, ⟨50, _⟩ => ⟨S_, .f32⟩
  | .hbm, ⟨51, _⟩ => ⟨S8x512x1, .f32⟩
  | .hbm, ⟨52, _⟩ => ⟨S8x512x1, .f32⟩
  | .hbm, ⟨53, _⟩ => ⟨S8x512, .f32⟩
  | .hbm, ⟨54, _⟩ => ⟨S8x512, .f32⟩
  | .hbm, ⟨55, _⟩ => ⟨S8x512, .f32⟩
  | .hbm, ⟨56, _⟩ => ⟨S_, .f32⟩
  | .hbm, ⟨57, _⟩ => ⟨S8, .f32⟩
  | .hbm, ⟨58, _⟩ => ⟨S8x512, .i32⟩
  | .hbm, ⟨59, _⟩ => ⟨S_, .i32⟩
  | .hbm, ⟨60, _⟩ => ⟨S8, .i32⟩
  | .hbm, ⟨61, _⟩ => ⟨S8, .f32⟩
  | .hbm, ⟨62, _⟩ => ⟨S8, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S_, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S_, .f32⟩
  | .hbm, ⟨71, _⟩ => ⟨S4, .f32⟩
  | .hbm, ⟨72, _⟩ => ⟨S4, .f32⟩
  | .hbm, ⟨73, _⟩ => ⟨S4, .f32⟩
  | .hbm, ⟨74, _⟩ => ⟨S4, .f32⟩
  | .hbm, ⟨75, _⟩ => ⟨S4, .i1⟩
  | .hbm, ⟨76, _⟩ => ⟨S4, .f32⟩
  | .hbm, ⟨77, _⟩ => ⟨S4, .f32⟩
  | .hbm, ⟨78, _⟩ => ⟨S4, .f32⟩
  | .hbm, ⟨79, _⟩ => ⟨S4, .f32⟩
  | .hbm, ⟨80, _⟩ => ⟨S4, .f32⟩
  | .hbm, ⟨81, _⟩ => ⟨S4, .f32⟩
  | .hbm, ⟨82, _⟩ => ⟨S4, .f32⟩
  | .hbm, ⟨83, _⟩ => ⟨S4, .f32⟩
  | .hbm, ⟨84, _⟩ => ⟨S4, .f32⟩
  | .hbm, ⟨85, _⟩ => ⟨S4, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S4x512, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S4x512, .i1⟩
  | .hbm, ⟨95, _⟩ => ⟨S4x512, .i32⟩
  | .hbm, ⟨96, _⟩ => ⟨S_, .i32⟩
  | .hbm, ⟨97, _⟩ => ⟨S_, .i32⟩
  | .hbm, ⟨98, _⟩ => ⟨S_, .f32⟩
  | .hbm, ⟨99, _⟩ => ⟨S_, .f32⟩
  | .hbm, ⟨100, _⟩ => ⟨S_, .f32⟩
  | _, _ => ⟨S32000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_v7 : Ref sig .tc := ⟨.hbm, 29, rfl⟩
abbrev main_v8 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_cst : Ref sig .tc := ⟨.hbm, 50, rfl⟩
abbrev main_call2_v14 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_cst : Ref sig .tc := ⟨.hbm, 56, rfl⟩
abbrev main_v13 : Ref sig .tc := ⟨.hbm, 57, rfl⟩
abbrev main_v14 : Ref sig .tc := ⟨.hbm, 58, rfl⟩
abbrev main_c_1 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_cst_2 : Ref sig .tc := ⟨.hbm, 66, rfl⟩
abbrev main_v21 : Ref sig .tc := ⟨.hbm, 67, rfl⟩
abbrev main_v22 : Ref sig .tc := ⟨.hbm, 68, rfl⟩
abbrev main_call3_v0 : Ref sig .tc := ⟨.hbm, 69, rfl⟩
abbrev main_call3_call0_cst : Ref sig .tc := ⟨.hbm, 70, rfl⟩
abbrev main_call3_call0_v0 : Ref sig .tc := ⟨.hbm, 71, rfl⟩
abbrev main_call3_call0_v1 : Ref sig .tc := ⟨.hbm, 72, rfl⟩
abbrev main_call3_call0_v2 : Ref sig .tc := ⟨.hbm, 73, rfl⟩
abbrev main_call3_call0_v3 : Ref sig .tc := ⟨.hbm, 74, rfl⟩
abbrev main_call3_call0_v4 : Ref sig .tc := ⟨.hbm, 75, rfl⟩
abbrev main_call3_call0_v5 : Ref sig .tc := ⟨.hbm, 76, rfl⟩
abbrev main_call3_call0_v6 : Ref sig .tc := ⟨.hbm, 77, rfl⟩
abbrev main_call3_call0_v7 : Ref sig .tc := ⟨.hbm, 78, rfl⟩
abbrev main_call3_call0_v8 : Ref sig .tc := ⟨.hbm, 79, rfl⟩
abbrev main_call3_call0_v9 : Ref sig .tc := ⟨.hbm, 80, rfl⟩
abbrev main_call3_call0_v10 : Ref sig .tc := ⟨.hbm, 81, rfl⟩
abbrev main_call3_call0_v11 : Ref sig .tc := ⟨.hbm, 82, rfl⟩
abbrev main_call3_v1 : Ref sig .tc := ⟨.hbm, 83, rfl⟩
abbrev main_v23 : Ref sig .tc := ⟨.hbm, 84, rfl⟩
abbrev main_v24 : Ref sig .tc := ⟨.hbm, 85, rfl⟩
abbrev main_cst_3 : Ref sig .tc := ⟨.hbm, 86, rfl⟩
abbrev main_v25 : Ref sig .tc := ⟨.hbm, 87, rfl⟩
abbrev main_cst_4 : Ref sig .tc := ⟨.hbm, 88, rfl⟩
abbrev main_v26 : Ref sig .tc := ⟨.hbm, 89, rfl⟩
abbrev main_v27 : Ref sig .tc := ⟨.hbm, 90, rfl⟩
abbrev main_cst_5 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_c_6 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩

abbrev nD : Nat := 1
abbrev τ : Topo := Topo.v7x

variable {F : FTy → Type} [FloatOps F]

class Facts₀ : Prop where
  bcast_S32000_S1x1x32000_2 : S32000.BroadcastsInDim S1x1x32000 (![2] : Fin 1 → Fin S1x1x32000.rank)
  bcast_S1x1x32000_S8x512x32000_0_1_2 : S1x1x32000.BroadcastsInDim S8x512x32000 (![0, 1, 2] : Fin 3 → Fin S8x512x32000.rank)
  reducesTo_S8x512x32000_S8x512_d2 : S8x512x32000.ReducesTo [2] S8x512
  h_S_ : 0 < S_.numel
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x32000_0_1_2 : S8x512x1.BroadcastsInDim S8x512x32000 (![0, 1, 2] : Fin 3 → Fin S8x512x32000.rank)
  bcast_S_S8x512x1 : S_.BroadcastsInDim S8x512x1 (![] : Fin 0 → Fin S8x512x1.rank)
  shapeCasts_S8x512x1_S8x512x1x1 : S8x512x1.ShapeCasts S8x512x1x1
  bcast_S_S8x512x1x1 : S_.BroadcastsInDim S8x512x1x1 (![] : Fin 0 → Fin S8x512x1x1.rank)
  bcast_S1_S1x1x1x1_3 : S1.BroadcastsInDim S1x1x1x1 (![3] : Fin 1 → Fin S1x1x1x1.rank)
  bcast_S1x1x1x1_S8x512x1x1_0_1_2_3 : S1x1x1x1.BroadcastsInDim S8x512x1x1 (![0, 1, 2, 3] : Fin 4 → Fin S8x512x1x1.rank)
  reducesTo_S8x512x1x1_S8x512x1_d3 : S8x512x1x1.ReducesTo [3] S8x512x1
  shapeCasts_S8x512x1_S8x512 : S8x512x1.ShapeCasts S8x512
  reducesTo_S8x512_S8_d1 : S8x512.ReducesTo [1] S8
  natLt_1_32 : 1 < 32
  slices_S8_S4_0 : S8.Slices ![0] S4
  slices_S8_S4_4 : S8.Slices ![4] S4
  bcast_S_S4 : S_.BroadcastsInDim S4 (![] : Fin 0 → Fin S4.rank)
  reducesTo_S4_S_d0 : S4.ReducesTo [0] S_
  slices_S8x512_S4x512_0_0 : S8x512.Slices ![0, 0] S4x512
  reducesTo_S4x512_S_d0_1 : S4x512.ReducesTo [0, 1] S_
  dot_S8x512x2048_S32000x2048_S8x512x32000_2_1_01_0_n_n_wf : DotDims.WF S8x512x2048 S32000x2048 S8x512x32000 [2] [1] [0, 1] [0] [] []
  gather_S8x512x32000_S8x512x1x1_S8x512x1_n_2_01_01_2_3_111_wf : GatherDims.WF S8x512x32000 S8x512x1x1 S8x512x1 [] [2] [0, 1] [2] [0, 1] 3 ![1, 1, 1]

variable [Facts₀]

def dot_S8x512x2048_S32000x2048_S8x512x32000_2_1_01_0_n_n : DotDims S8x512x2048 S32000x2048 S8x512x32000 where
  lhsContracting := [2]
  rhsContracting := [1]
  lhsNonContracting := [0, 1]
  rhsNonContracting := [0]
  lhsBatch := []
  rhsBatch := []
  wf := dot_S8x512x2048_S32000x2048_S8x512x32000_2_1_01_0_n_n_wf
def gather_S8x512x32000_S8x512x1x1_S8x512x1_n_2_01_01_2_3_111 : GatherDims S8x512x32000 S8x512x1x1 S8x512x1 where
  offsetDims := []
  collapsedSliceDims := [2]
  operandBatchingDims := [0, 1]
  startIndicesBatchingDims := [0, 1]
  startIndexMap := [2]
  indexVectorDim := 3
  sliceSizes := ![1, 1, 1]
  wf := gather_S8x512x32000_S8x512x1x1_S8x512x1_n_2_01_01_2_3_111_wf

class Facts : Prop extends Facts₀ where

variable [Facts]
-- ==== Proof.Spec.lean ====
/-
  The mathematics both programs compute, over the extended reals.

  A token (b, t) has logits  x j = (0 + ∑ h, X[b,t,h] · W[j,h]) + B[j]  over the 32000 classes, and a label
  (the target, or class 0 where the target is the ignore index -100).  Both programs end, for that token, at
      x lab - M - log (∑ j, exp (x j - M)),       M = the largest logit,
  the reference in one pass over the row, the kernel by an online recurrence over 125 chunks of 256 classes
  that carries the running maximum, the running sum rescaled to it, and the running maximum of the
  logits whose class is the label.
-/
import Idealize.ShloMosaic.PureOps.Ideal
import Idealize.ShloMosaic.Lib.ValueIdx

noncomputable section

open scoped BigOperators

namespace Cert.Spec

open Idealize.ShloMosaic Idealize.ShloMosaic.ValueIdx

abbrev SW : Shape := ⟨2, ![32000, 2048]⟩
abbrev SX : Shape := ⟨3, ![8, 512, 2048]⟩
abbrev ST : Shape := ⟨2, ![8, 512]⟩
abbrev SB : Shape := ⟨1, ![32000]⟩

/-- The logit of token (b, t) for class j: the row of X against the row of W, plus the class's bias. -/
def logit (W : SW.Idx → EReal) (X : SX.Idx → EReal) (B : SB.Idx → EReal) (b : Fin 8) (t : Fin 512) (j : Fin 32000) : EReal :=
  (0 + ∑ h : Fin 2048, X (ix3 b t h) * W (ix2 j h)) + B (ix1 j)

/-- The label of token (b, t): its target, or 0 where the target is the ignore index -100. -/
def label (T : ST.Idx → BitVec 32) (b : Fin 8) (t : Fin 512) : BitVec 32 :=
  if T (ix2 b t) = 4294967196#32 then 0#32 else T (ix2 b t)

/-- A row read at a natural number: the entry when the number is a class, -∞ otherwise. -/
def pick (x : Fin 32000 → EReal) (n : ℕ) : EReal := if h : n < 32000 then x ⟨n, h⟩ else ⊥

/-- The largest entry of a row. -/
def rowMax (x : Fin 32000 → EReal) : EReal := Finset.univ.fold max ⊥ x

/-- The log-probability of class n under the softmax of the row x. -/
def tokLogp (x : Fin 32000 → EReal) (n : ℕ) : EReal :=
  (pick x n - rowMax x) - Ideal.log (∑ j : Fin 32000, Ideal.exp (x j - rowMax x))

/-- The log-probability of token (b, t)'s label. -/
def logpAt (W : SW.Idx → EReal) (X : SX.Idx → EReal) (T : ST.Idx → BitVec 32) (B : SB.Idx → EReal) (b : Fin 8) (t : Fin 512) : EReal :=
  tokLogp (logit W X B b t) (label T b t).toNat

/-- Every token's log-probability of its label, as an 8 × 512 array. -/
def logpArr (W : SW.Idx → EReal) (X : SX.Idx → EReal) (T : ST.Idx → BitVec 32) (B : SB.Idx → EReal) : ST.Idx → EReal :=
  fun i => logpAt W X T B ⟨(i 0).val, idx2_lt0 i⟩ ⟨(i 1).val, idx2_lt1 i⟩

theorem logpArr_ix2 (W : SW.Idx → EReal) (X : SX.Idx → EReal) (T : ST.Idx → BitVec 32) (B : SB.Idx → EReal) (b : Fin 8) (t : Fin 512) :
    logpArr W X T B (ix2 b t) = logpAt W X T B b t := rfl

/-! ## The online recurrence -/

/-- Chunk k of a row: its 256 classes 256 k, …, 256 k + 255. -/
def chunk (x : Fin 32000 → EReal) (k : ℕ) (q : Fin 256) : EReal := pick x (256 * k + q.val)

/-- One chunk's update of the triple (running maximum, running sum, running label maximum). -/
def stepRow (x : Fin 32000 → EReal) (n : ℕ) (k : ℕ) (s : EReal × EReal × EReal) : EReal × EReal × EReal :=
  (max s.1 (Finset.univ.fold max ⊥ (chunk x k)),
   Ideal.exp (s.1 - max s.1 (Finset.univ.fold max ⊥ (chunk x k))) * s.2.1
     + ∑ q : Fin 256, Ideal.exp (chunk x k q - max s.1 (Finset.univ.fold max ⊥ (chunk x k))),
   max s.2.2 (Finset.univ.fold max ⊥ fun q : Fin 256 => if 256 * k + q.val = n then chunk x k q else ⊥))

/-- The triple after the first k chunks, from (-∞, 0, -∞). -/
def stateRow (x : Fin 32000 → EReal) (n : ℕ) : ℕ → EReal × EReal × EReal
  | 0 => (⊥, 0, ⊥)
  | k + 1 => stepRow x n k (stateRow x n k)

end Cert.Spec

end
-- ==== Proof.PreFacts.lean ====
/-
  What the precondition says, entry by entry: every float input is a real number, and every target is
  the ignore index -100 or a class 0 ≤ target < 32000 — so every label (the target, or 0 where it is the
  ignore index) is a class.
-/
import proofs.«178825_j46720654246580_1_alg».proof.Pre_finite_inputs
import proofs.«178825_j46720654246580_1_alg».proof.Proof.Spec
import Idealize.ShloMosaic.Lib.ReduceAll
import Idealize.ShloMosaic.Lib.StableHlo.Predicate
import Idealize.ShloMosaic.Lib.IdealHost

noncomputable section

namespace Cert.PreFacts

open Idealize.ShloMosaic Idealize.ShloMosaic.ValueIdx Cert.Pre_finite_inputs

variable [Cert.Pre_finite_inputs.Facts]

instance : Subsingleton S_.Idx := ⟨fun a b => funext fun d => d.elim0⟩

/-- An extended real whose absolute value is below +∞ is a real number. -/
theorem real_of_abs_lt_top (x : EReal)
    (h : Ideal.cmp .olt (max x (-x)) (Ideal.ofBits .f32 0x7F800000#32) = 1#1) : ∃ y : ℝ, x = (y : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe y => exact ⟨y, rfl⟩

/-- `all (|x| < +∞)` over an array of any shape: every entry is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1)
    (i : s.Idx) : ∃ y : ℝ, x i = (y : EReal) := by
  have hi := Host.reduce_andi_all _ _ hr hu ix0 e i
  rw [cmpf_apply, broadcastInDim_scalar_apply] at hi
  exact real_of_abs_lt_top (x i) hi

/-- A target that is the ignore index, or at least 0 and below 32000 as a signed word, is the ignore index or a class. -/
theorem class_of_word (a : BitVec 32)
    (h : IntOp.ori (IntOp.cmpi .eq a 4294967196#32)
          (IntOp.andi (IntOp.cmpi .sge a 0#32) (IntOp.cmpi .slt a 32000#32)) = 1#1) :
    a = 4294967196#32 ∨ a.toNat < 32000 := by
  rcases IntOp.ori_eq_one.1 h with h | h
  · exact Or.inl (IntOp.cmpi_eq.1 h)
  · obtain ⟨h0, h1⟩ := IntOp.andi_eq_one.1 h
    have h0 := IntOp.cmpi_sge.1 h0
    have h1 := IntOp.cmpi_slt.1 h1
    right
    rw [show (0#32 : BitVec 32).toInt = 0 from by decide] at h0
    rw [show (32000#32 : BitVec 32).toInt = 32000 from by decide] at h1
    rw [BitVec.toInt_eq_toNat_cond] at h0 h1
    split at h0 <;> omega

/-- The precondition, read entry by entry. -/
theorem decode (W : FVec Ideal S32000x2048 .f32) (X : FVec Ideal S8x512x2048 .f32) (T : IVec S8x512 32) (B : FVec Ideal S32000 .f32)
    (h : Cert.Pre_finite_inputs.fn (F := Ideal) W X T B = fun _ => 1#1) :
    (∀ i, ∃ y : ℝ, W i = (y : EReal)) ∧ (∀ i, ∃ y : ℝ, X i = (y : EReal)) ∧ (∀ i, ∃ y : ℝ, B i = (y : EReal))
      ∧ (∀ i, T i = 4294967196#32 ∨ (T i).toNat < 32000) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨real_of_all W _ _ _ h1, real_of_all X _ _ _ h2, real_of_all B _ _ _ h3, fun i => ?_⟩
  have hi := Host.reduce_andi_all _ _ _ _ ix0 h4 i
  exact class_of_word (T i) hi

/-- Every label is a class. -/
theorem label_lt (T : IVec S8x512 32) (hT : ∀ i, T i = 4294967196#32 ∨ (T i).toNat < 32000) (b : Fin 8) (t : Fin 512) :
    (Cert.Spec.label T b t).toNat < 32000 := by
  unfold Cert.Spec.label
  split
  · decide
  · rename_i hne
    rcases hT (ix2 b t) with h | h
    · exact absurd h hne
    · exact h

end Cert.PreFacts

end
-- ==== Proof.KPieces.lean ====
/-
  What each of the kernel body's three control cases leaves in the three carried scratch buffers and in the output,
  as the body's payload functions of the point's input blocks and of what the point before left: the first
  chunk starts the running maximum, sum and label maximum from -∞, 0 and -∞; every later chunk updates what the
  chunk before left; the last chunk also writes label maximum - (maximum + log sum).
-/
import proofs.«178825_j46720654246580_1_alg».proof.Proof.Gen.KernelIdeal.Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F]

/-- The literal offset of every whole-buffer access of a two-axis buffer is zero at both axes. -/
private theorem hz : (![0, 0] : Fin 2 → Nat) = fun _ => 0 := funext fun a => by fin_cases a <;> rfl

/-- The literal offset of every whole-buffer access of a one-axis buffer is zero. -/
private theorem hz1 : (![0] : Fin 1 → Nat) = fun _ => 0 := funext fun a => by fin_cases a; rfl

/-- The running maximum after the first chunk: the maximum of -∞ and the chunk's row maxima. -/
theorem sout0_A_0_eq (c : Dev nD) (i : grid0.Coords) (arg1 : Memref sig .tc .vmem S4096x2048 .bf16) (harg1 : arg1.IsWhole) (arg2 : Memref sig .tc .vmem S256x2048 .f32) (harg2 : arg2.IsWhole) (arg3 : Memref sig .tc .vmem S256 .f32) (harg3 : arg3.IsWhole) (arg4 : Memref sig .tc .vmem S4096 .i32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : cond0_0 i) (hc1 : ¬cond0_1 i)
    (x0 : Vec F S4096x2048 .bf16) (x1 : Vec F S256x2048 .f32) (x2 : Vec F S256 .f32) (x3 : Vec F S4096 .i32) :
    sout0_A_0 c i arg1 harg1 arg2 harg2 arg3 harg3 arg4 harg4 arg5 harg5 arg6 harg6 arg7 harg7 arg8 harg8 hc0 hc1 x0 x1 x2 x3 = k0_pay2 (k0_pay9 x0 x1 x2 (k0_pay4 (F := F))) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S4096x1) hz]
  simp only [View.readAt_eq_ld, harg1.read_unread, harg2.read_unread, harg3.read_unread, harg4.read_unread, harg5.read_unread, harg6.read_unread, harg7.read_unread, harg8.read_unread, View.ld_unit_zero (S := S4096x1) hz, View.ld_unit_zero (S := S4096x2048) hz, View.ld_unit_zero (S := S256x2048) hz, View.ld_unit_zero (S := S256) hz1, View.ld_unit_zero (S := S4096) hz1, View.readCov_unit_zero (S := S4096x1) _ hz]

/-- The running sum after the first chunk, from 0 rescaled. -/
theorem sout0_A_1_eq (c : Dev nD) (i : grid0.Coords) (arg1 : Memref sig .tc .vmem S4096x2048 .bf16) (harg1 : arg1.IsWhole) (arg2 : Memref sig .tc .vmem S256x2048 .f32) (harg2 : arg2.IsWhole) (arg3 : Memref sig .tc .vmem S256 .f32) (harg3 : arg3.IsWhole) (arg4 : Memref sig .tc .vmem S4096 .i32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : cond0_0 i) (hc1 : ¬cond0_1 i)
    (x0 : Vec F S4096x2048 .bf16) (x1 : Vec F S256x2048 .f32) (x2 : Vec F S256 .f32) (x3 : Vec F S4096 .i32) :
    sout0_A_1 c i arg1 harg1 arg2 harg2 arg3 harg3 arg4 harg4 arg5 harg5 arg6 harg6 arg7 harg7 arg8 harg8 hc0 hc1 x0 x1 x2 x3 = k0_pay1 (k0_pay10 x0 x1 x2 (k0_pay4 (F := F))) (k0_pay11 x0 x1 x2 (k0_pay4 (F := F))) (k0_pay5 (F := F)) := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S4096x1) hz]
  simp only [View.readAt_eq_ld, harg1.read_unread, harg2.read_unread, harg3.read_unread, harg4.read_unread, harg5.read_unread, harg6.read_unread, harg7.read_unread, harg8.read_unread, View.ld_unit_zero (S := S4096x1) hz, View.ld_unit_zero (S := S4096x2048) hz, View.ld_unit_zero (S := S256x2048) hz, View.ld_unit_zero (S := S256) hz1, View.ld_unit_zero (S := S4096) hz1, View.readCov_unit_zero (S := S4096x1) _ hz]

/-- The running label maximum after the first chunk, from -∞. -/
theorem sout0_A_2_eq (c : Dev nD) (i : grid0.Coords) (arg1 : Memref sig .tc .vmem S4096x2048 .bf16) (harg1 : arg1.IsWhole) (arg2 : Memref sig .tc .vmem S256x2048 .f32) (harg2 : arg2.IsWhole) (arg3 : Memref sig .tc .vmem S256 .f32) (harg3 : arg3.IsWhole) (arg4 : Memref sig .tc .vmem S4096 .i32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : cond0_0 i) (hc1 : ¬cond0_1 i)
    (x0 : Vec F S4096x2048 .bf16) (x1 : Vec F S256x2048 .f32) (x2 : Vec F S256 .f32) (x3 : Vec F S4096 .i32) :
    sout0_A_2 c i arg1 harg1 arg2 harg2 arg3 harg3 arg4 harg4 arg5 harg5 arg6 harg6 arg7 harg7 arg8 harg8 hc0 hc1 x0 x1 x2 x3 = k0_pay8 i x0 x1 x2 x3 (k0_pay6 (F := F)) := by
  unfold sout0_A_2
  rw [View.read_writes_eq_canon _ _ _ (scover0_A_2 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S4096x1) hz]
  simp only [View.readAt_eq_ld, harg1.read_unread, harg2.read_unread, harg3.read_unread, harg4.read_unread, harg5.read_unread, harg6.read_unread, harg7.read_unread, harg8.read_unread, View.ld_unit_zero (S := S4096x1) hz, View.ld_unit_zero (S := S4096x2048) hz, View.ld_unit_zero (S := S256x2048) hz, View.ld_unit_zero (S := S256) hz1, View.ld_unit_zero (S := S4096) hz1, View.readCov_unit_zero (S := S4096x1) _ hz]

/-- The running maximum after a middle chunk, over what the chunk before left. -/
theorem sout0_B_0_eq (c : Dev nD) (i : grid0.Coords) (arg1 : Memref sig .tc .vmem S4096x2048 .bf16) (harg1 : arg1.IsWhole) (arg2 : Memref sig .tc .vmem S256x2048 .f32) (harg2 : arg2.IsWhole) (arg3 : Memref sig .tc .vmem S256 .f32) (harg3 : arg3.IsWhole) (arg4 : Memref sig .tc .vmem S4096 .i32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : ¬cond0_1 i)
    (x0 : Vec F S4096x2048 .bf16) (x1 : Vec F S256x2048 .f32) (x2 : Vec F S256 .f32) (x3 : Vec F S4096 .i32) (xs0 : Vec F S4096x1 .f32) (xs1 : Vec F S4096x1 .f32) (xs2 : Vec F S4096x1 .f32) :
    sout0_B_0 c i arg1 harg1 arg2 harg2 arg3 harg3 arg4 harg4 arg5 harg5 arg6 harg6 arg7 harg7 arg8 harg8 hc0 hc1 x0 x1 x2 x3 xs0 xs1 xs2 = k0_pay2 (k0_pay9 x0 x1 x2 xs0) := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S4096x1) hz, View.ld_unit_zero (S := S4096x2048) hz, View.ld_unit_zero (S := S256x2048) hz, View.ld_unit_zero (S := S256) hz1, View.ld_unit_zero (S := S4096) hz1]

/-- The running sum after a middle chunk. -/
theorem sout0_B_1_eq (c : Dev nD) (i : grid0.Coords) (arg1 : Memref sig .tc .vmem S4096x2048 .bf16) (harg1 : arg1.IsWhole) (arg2 : Memref sig .tc .vmem S256x2048 .f32) (harg2 : arg2.IsWhole) (arg3 : Memref sig .tc .vmem S256 .f32) (harg3 : arg3.IsWhole) (arg4 : Memref sig .tc .vmem S4096 .i32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : ¬cond0_1 i)
    (x0 : Vec F S4096x2048 .bf16) (x1 : Vec F S256x2048 .f32) (x2 : Vec F S256 .f32) (x3 : Vec F S4096 .i32) (xs0 : Vec F S4096x1 .f32) (xs1 : Vec F S4096x1 .f32) (xs2 : Vec F S4096x1 .f32) :
    sout0_B_1 c i arg1 harg1 arg2 harg2 arg3 harg3 arg4 harg4 arg5 harg5 arg6 harg6 arg7 harg7 arg8 harg8 hc0 hc1 x0 x1 x2 x3 xs0 xs1 xs2 = k0_pay1 (k0_pay10 x0 x1 x2 xs0) (k0_pay11 x0 x1 x2 xs0) xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 x3 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S4096x1) hz, View.ld_unit_zero (S := S4096x2048) hz, View.ld_unit_zero (S := S256x2048) hz, View.ld_unit_zero (S := S256) hz1, View.ld_unit_zero (S := S4096) hz1]

/-- The running label maximum after a middle chunk. -/
theorem sout0_B_2_eq (c : Dev nD) (i : grid0.Coords) (arg1 : Memref sig .tc .vmem S4096x2048 .bf16) (harg1 : arg1.IsWhole) (arg2 : Memref sig .tc .vmem S256x2048 .f32) (harg2 : arg2.IsWhole) (arg3 : Memref sig .tc .vmem S256 .f32) (harg3 : arg3.IsWhole) (arg4 : Memref sig .tc .vmem S4096 .i32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : ¬cond0_1 i)
    (x0 : Vec F S4096x2048 .bf16) (x1 : Vec F S256x2048 .f32) (x2 : Vec F S256 .f32) (x3 : Vec F S4096 .i32) (xs0 : Vec F S4096x1 .f32) (xs1 : Vec F S4096x1 .f32) (xs2 : Vec F S4096x1 .f32) :
    sout0_B_2 c i arg1 harg1 arg2 harg2 arg3 harg3 arg4 harg4 arg5 harg5 arg6 harg6 arg7 harg7 arg8 harg8 hc0 hc1 x0 x1 x2 x3 xs0 xs1 xs2 = k0_pay8 i x0 x1 x2 x3 xs2 := by
  unfold sout0_B_2
  rw [View.read_writes_eq_canon _ _ _ (scover0_B_2 c i arg1 harg1 arg2 harg2 arg3 harg3 arg4 harg4 arg5 harg5 arg6 harg6 arg7 harg7 arg8 harg8 hc0 hc1 x0 x1 x2 x3 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S4096x1) hz, View.ld_unit_zero (S := S4096x2048) hz, View.ld_unit_zero (S := S256x2048) hz, View.ld_unit_zero (S := S256) hz1, View.ld_unit_zero (S := S4096) hz1]

/-- The running maximum after the last chunk. -/
theorem sout0_C_0_eq (c : Dev nD) (i : grid0.Coords) (arg1 : Memref sig .tc .vmem S4096x2048 .bf16) (harg1 : arg1.IsWhole) (arg2 : Memref sig .tc .vmem S256x2048 .f32) (harg2 : arg2.IsWhole) (arg3 : Memref sig .tc .vmem S256 .f32) (harg3 : arg3.IsWhole) (arg4 : Memref sig .tc .vmem S4096 .i32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x2048 .bf16) (x1 : Vec F S256x2048 .f32) (x2 : Vec F S256 .f32) (x3 : Vec F S4096 .i32) (xs0 : Vec F S4096x1 .f32) (xs1 : Vec F S4096x1 .f32) (xs2 : Vec F S4096x1 .f32) :
    sout0_C_0 c i arg1 harg1 arg2 harg2 arg3 harg3 arg4 harg4 arg5 harg5 arg6 harg6 arg7 harg7 arg8 harg8 hc0 hc1 x0 x1 x2 x3 xs0 xs1 xs2 = k0_pay2 (k0_pay9 x0 x1 x2 xs0) := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S4096x1) hz, View.ld_unit_zero (S := S4096x2048) hz, View.ld_unit_zero (S := S256x2048) hz, View.ld_unit_zero (S := S256) hz1, View.ld_unit_zero (S := S4096) hz1]

/-- The running sum after the last chunk. -/
theorem sout0_C_1_eq (c : Dev nD) (i : grid0.Coords) (arg1 : Memref sig .tc .vmem S4096x2048 .bf16) (harg1 : arg1.IsWhole) (arg2 : Memref sig .tc .vmem S256x2048 .f32) (harg2 : arg2.IsWhole) (arg3 : Memref sig .tc .vmem S256 .f32) (harg3 : arg3.IsWhole) (arg4 : Memref sig .tc .vmem S4096 .i32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x2048 .bf16) (x1 : Vec F S256x2048 .f32) (x2 : Vec F S256 .f32) (x3 : Vec F S4096 .i32) (xs0 : Vec F S4096x1 .f32) (xs1 : Vec F S4096x1 .f32) (xs2 : Vec F S4096x1 .f32) :
    sout0_C_1 c i arg1 harg1 arg2 harg2 arg3 harg3 arg4 harg4 arg5 harg5 arg6 harg6 arg7 harg7 arg8 harg8 hc0 hc1 x0 x1 x2 x3 xs0 xs1 xs2 = k0_pay1 (k0_pay10 x0 x1 x2 xs0) (k0_pay11 x0 x1 x2 xs0) xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 x3 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S4096x1) hz, View.ld_unit_zero (S := S4096x2048) hz, View.ld_unit_zero (S := S256x2048) hz, View.ld_unit_zero (S := S256) hz1, View.ld_unit_zero (S := S4096) hz1]

/-- The running label maximum after the last chunk. -/
theorem sout0_C_2_eq (c : Dev nD) (i : grid0.Coords) (arg1 : Memref sig .tc .vmem S4096x2048 .bf16) (harg1 : arg1.IsWhole) (arg2 : Memref sig .tc .vmem S256x2048 .f32) (harg2 : arg2.IsWhole) (arg3 : Memref sig .tc .vmem S256 .f32) (harg3 : arg3.IsWhole) (arg4 : Memref sig .tc .vmem S4096 .i32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x2048 .bf16) (x1 : Vec F S256x2048 .f32) (x2 : Vec F S256 .f32) (x3 : Vec F S4096 .i32) (xs0 : Vec F S4096x1 .f32) (xs1 : Vec F S4096x1 .f32) (xs2 : Vec F S4096x1 .f32) :
    sout0_C_2 c i arg1 harg1 arg2 harg2 arg3 harg3 arg4 harg4 arg5 harg5 arg6 harg6 arg7 harg7 arg8 harg8 hc0 hc1 x0 x1 x2 x3 xs0 xs1 xs2 = k0_pay8 i x0 x1 x2 x3 xs2 := by
  unfold sout0_C_2
  rw [View.read_writes_eq_canon _ _ _ (scover0_C_2 c i arg1 harg1 arg2 harg2 arg3 harg3 arg4 harg4 arg5 harg5 arg6 harg6 arg7 harg7 arg8 harg8 hc0 hc1 x0 x1 x2 x3 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S4096x1) hz, View.ld_unit_zero (S := S4096x2048) hz, View.ld_unit_zero (S := S256x2048) hz, View.ld_unit_zero (S := S256) hz1, View.ld_unit_zero (S := S4096) hz1]

/-- The output after the last chunk: label maximum - (maximum + log sum), of the three just stored. -/
theorem out0_C_4_eq (c : Dev nD) (i : grid0.Coords) (arg1 : Memref sig .tc .vmem S4096x2048 .bf16) (harg1 : arg1.IsWhole) (arg2 : Memref sig .tc .vmem S256x2048 .f32) (harg2 : arg2.IsWhole) (arg3 : Memref sig .tc .vmem S256 .f32) (harg3 : arg3.IsWhole) (arg4 : Memref sig .tc .vmem S4096 .i32) (harg4 : arg4.IsWhole) (arg5 : Memref sig .tc .vmem S4096x1 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S4096x2048 .bf16) (x1 : Vec F S256x2048 .f32) (x2 : Vec F S256 .f32) (x3 : Vec F S4096 .i32) (xs0 : Vec F S4096x1 .f32) (xs1 : Vec F S4096x1 .f32) (xs2 : Vec F S4096x1 .f32) :
    out0_C_4 c i arg1 harg1 arg2 harg2 arg3 harg3 arg4 harg4 arg5 harg5 arg6 harg6 arg7 harg7 arg8 harg8 hc0 hc1 x0 x1 x2 x3 xs0 xs1 xs2 = k0_pay3 (k0_pay8 i x0 x1 x2 x3 xs2) (k0_pay2 (k0_pay9 x0 x1 x2 xs0)) (k0_pay1 (k0_pay10 x0 x1 x2 xs0) (k0_pay11 x0 x1 x2 xs0) xs1) := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 x3 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, View.ld_unit_zero (S := S4096x1) hz, View.ld_unit_zero (S := S4096x2048) hz, View.ld_unit_zero (S := S256x2048) hz, View.ld_unit_zero (S := S256) hz1, View.ld_unit_zero (S := S4096) hz1, View.readCov_unit_zero (S := S4096x1) _ hz]

end Cert.KernelIdeal.Gen

end
-- ==== Proof.KPay.lean ====
/-
  The kernel body's payloads read at an index, over the extended reals.  For row r of the 4096 tokens and lane q
  of a chunk's 256 classes: the chunk's logit is the row of the activations against row q of the weight block plus
  the bias lane; the new running maximum is the old one against the row's largest chunk logit; the new running sum
  is exp(old maximum - new maximum) times the old sum plus the sum of exp(logit - new maximum); the new running label
  maximum is the old one against the largest of the chunk logits whose class word equals the row's label word;
  and the output is label maximum - (maximum + log sum).
-/
import proofs.«178825_j46720654246580_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KPay

open Idealize.ShloMosaic Idealize.ShloMosaic.ValueIdx Cert.KernelIdeal Cert.KernelIdeal.Gen

theorem ofBits_neg_inf : Ideal.ofBits .f32 0xFF800000#32 = ⊥ := by simp [Ideal.ofBits, Ideal.ieee]

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(i, c)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Layout

/-- The row over result index `r` with lane `q` inserted is `(r, q)`. -/
theorem lift_row (h : S4096x256.Reduces [1] S4096) (r : Fin 4096) (q : Fin 256) :
    h.lift (ix1 r) q = ix2 r q :=
  funext fun c => Fin.ext (match c with | ⟨0, _⟩ => rfl | ⟨1, _⟩ => rfl)

/-- A lane maximum from -∞ at row `r`: the fold of `max` from ⊥ over the 256 lanes. -/
theorem laneMax_apply (src : FVec Ideal S4096x256 .f32) (h : S4096x256.Reduces [1] S4096) (hφ : FKind.Formats .f32)
    (hacc : (0xFF800000#32 : BitVec 32) = FKind.maximumf.neutral .f32 hφ) (r : Fin 4096) :
    multiReduction (F := Ideal) .maximumf [1] S4096 src 0xFF800000#32 h hφ hacc (ix1 r)
      = Finset.univ.fold max ⊥ fun q : Fin 256 => src (ix2 r q) := by
  refine (Ideal.multiReduction_maximumf_single src _ h hφ hacc (ix1 r)).trans ?_
  have e : (src ∘ h.lift (ix1 r)) = fun q : Fin 256 => src (ix2 r q) := funext fun q => congrArg src (lift_row h r q)
  rw [e]
  exact congrArg (fun z => Finset.univ.fold max z fun q : Fin 256 => src (ix2 r q)) ofBits_neg_inf

/-- A lane sum at row `r`: the sum over the 256 lanes. -/
theorem laneSum_apply (src : FVec Ideal S4096x256 .f32) (h : S4096x256.Reduces [1] S4096) (hφ : FKind.Formats .f32)
    (hacc : (0x00000000#32 : BitVec 32) = FKind.add.neutral .f32 hφ) (r : Fin 4096) :
    multiReduction (F := Ideal) .add [1] S4096 src 0x00000000#32 h hφ hacc (ix1 r)
      = ∑ q : Fin 256, src (ix2 r q) := by
  refine (Ideal.multiReduction_add_single src _ h hφ hacc (ix1 r)).trans ?_
  exact Finset.sum_congr rfl fun q _ => congrArg src (lift_row h r q)

/-- The left operand's index on its row axis is the result's row. -/
theorem lhs_dot_0 (i : S4096x256.Idx) (k : dot_S4096x2048_S256x2048_S4096x256_1_1_0_0_n_n.contr.Idx) :
    (dot_S4096x2048_S256x2048_S4096x256_1_1_0_0_n_n.lhsIdx i k 0).val = (i 0).val := by
  unfold DotDims.lhsIdx
  rw [dif_neg (show ¬(0 : Fin S4096x2048.rank) ∈ dot_S4096x2048_S256x2048_S4096x256_1_1_0_0_n_n.lhsBatch by decide), dif_pos (show (0 : Fin S4096x2048.rank) ∈ dot_S4096x2048_S256x2048_S4096x256_1_1_0_0_n_n.lhsNonContracting by decide)]
  rfl

/-- The left operand's index on its contracted axis is the contraction coordinate. -/
theorem lhs_dot_1 (i : S4096x256.Idx) (k : dot_S4096x2048_S256x2048_S4096x256_1_1_0_0_n_n.contr.Idx) :
    (dot_S4096x2048_S256x2048_S4096x256_1_1_0_0_n_n.lhsIdx i k 1).val = (k ⟨0, by decide⟩).val :=
  dot_S4096x2048_S256x2048_S4096x256_1_1_0_0_n_n.lhsIdx_val_of_single rfl i k

/-- The right operand's index on its row axis is the result's lane. -/
theorem rhs_dot_0 (i : S4096x256.Idx) (k : dot_S4096x2048_S256x2048_S4096x256_1_1_0_0_n_n.contr.Idx) :
    (dot_S4096x2048_S256x2048_S4096x256_1_1_0_0_n_n.rhsIdx i k 0).val = (i 1).val := by
  unfold DotDims.rhsIdx
  rw [dif_neg (show ¬(0 : Fin S256x2048.rank) ∈ dot_S4096x2048_S256x2048_S4096x256_1_1_0_0_n_n.rhsBatch by decide), dif_pos (show (0 : Fin S256x2048.rank) ∈ dot_S4096x2048_S256x2048_S4096x256_1_1_0_0_n_n.rhsNonContracting by decide)]
  rfl

/-- The right operand's index on its contracted axis is the contraction coordinate. -/
theorem rhs_dot_1 (i : S4096x256.Idx) (k : dot_S4096x2048_S256x2048_S4096x256_1_1_0_0_n_n.contr.Idx) :
    (dot_S4096x2048_S256x2048_S4096x256_1_1_0_0_n_n.rhsIdx i k 1).val = (k ⟨0, by decide⟩).val :=
  dot_S4096x2048_S256x2048_S4096x256_1_1_0_0_n_n.rhsIdx_val_of_single rfl i k

/-- The product of the activations with the transposed weight block from a zero accumulator, at row `r` and lane `q`:
    the sum over the 2048 features of row `r` of the one against row `q` of the other. -/
theorem dot_apply (A : FVec Ideal S4096x2048 .bf16) (B : FVec Ideal S256x2048 .bf16) (r : Fin 4096) (q : Fin 256) :
    matmul dot_S4096x2048_S256x2048_S4096x256_1_1_0_0_n_n none A B (constant (F := Ideal) S4096x256 .f32 0x00000000#32) (ix2 r q)
      = ∑ h : Fin 2048, A (ix2 r h) * B (ix2 q h) := by
  refine (Ideal.matmul_constant_zero_apply dot_S4096x2048_S256x2048_S4096x256_1_1_0_0_n_n none A B (ix2 r q)).trans ?_
  rw [← Equiv.sum_comp (contrEquiv1 dot_S4096x2048_S256x2048_S4096x256_1_1_0_0_n_n 2048 rfl rfl).symm]
  refine Finset.sum_congr rfl fun k _ => ?_
  have hk := contrEquiv1_symm_val dot_S4096x2048_S256x2048_S4096x256_1_1_0_0_n_n 2048 rfl rfl k
  have el : dot_S4096x2048_S256x2048_S4096x256_1_1_0_0_n_n.lhsIdx (ix2 r q) ((contrEquiv1 dot_S4096x2048_S256x2048_S4096x256_1_1_0_0_n_n 2048 rfl rfl).symm k) = ix2 r k := funext fun a => Fin.ext (by
    match a with
    | ⟨0, _⟩ => exact lhs_dot_0 _ _
    | ⟨1, _⟩ => exact (lhs_dot_1 _ _).trans hk)
  have er : dot_S4096x2048_S256x2048_S4096x256_1_1_0_0_n_n.rhsIdx (ix2 r q) ((contrEquiv1 dot_S4096x2048_S256x2048_S4096x256_1_1_0_0_n_n 2048 rfl rfl).symm k) = ix2 q k := funext fun a => Fin.ext (by
    match a with
    | ⟨0, _⟩ => exact rhs_dot_0 _ _
    | ⟨1, _⟩ => exact (rhs_dot_1 _ _).trans hk)
  rw [el, er]

/-- The bias cast to one row and broadcast over the rows, read at `(r, q)`. -/
theorem biasRow_apply (x2 : FVec Ideal S256 .f32) (h1 : S256.ShapeCasts S1x256) (h2 : S1x256.Broadcasts S4096x256)
    (r : Fin 4096) (q : Fin 256) :
    broadcastTo S4096x256 (shapeCast S1x256 x2 h1) h2 (ix2 r q) = x2 (ix1 q) :=
  (broadcastTo_1b_ab_apply _ _ r q).trans (shapeCast_a_1a_apply _ _ (0 : Fin 1) q)

/-- The class word of chunk `k` at lane `q`: 256 · k + q, as a 32-bit word. -/
theorem classWord_apply (k : ℕ) (hi : S4096x256.Iotas .tc 32 [1]) (r : Fin 4096) (q : Fin 256) :
    addi (broadcast S4096x256 (Scalar.muli (BitVec.ofNat 32 k) 256#32)) (iota .tc S4096x256 32 [1] hi) (ix2 r q)
      = BitVec.ofNat 32 (256 * k + q.val) := by
  show BitVec.ofNat 32 k * BitVec.ofNat 32 256 + iota .tc S4096x256 32 [1] hi (ix2 r q) = _
  rw [iota_single_apply]
  show BitVec.ofNat 32 k * BitVec.ofNat 32 256 + BitVec.ofNat 32 q.val = _
  rw [Nat.mul_comm, BitVec.ofNat_add, BitVec.ofNat_mul]

/-- A select on the equality bit of two words is the `if` on their equality. -/
theorem select_cmpi_eq {α : Type} {w : ℕ} (x y : BitVec w) (a b : α) :
    Scalar.select (IntOp.cmpi .eq x y) a b = if x = y then a else b := by
  by_cases h : x = y
  · rw [if_pos h]; subst h; simp [IntOp.cmpi, Scalar.select]
  · have e : (x == y) = false := beq_eq_false_iff_ne.mpr h
    rw [if_neg h]
    show (if BitVec.ofBool (x == y) = 1#1 then a else b) = b
    rw [e]
    exact if_neg (by decide)

/-- The row's label word, cast to a column and broadcast over the lanes, read at `(r, q)`. -/
theorem labelWord_apply (x3 : IVec S4096 32) (h1 : S4096.ShapeCasts S4096) (h2 : S4096.ShapeCasts S4096x1)
    (h3 : S4096x1.Broadcasts S4096x256) (r : Fin 4096) (q : Fin 256) :
    broadcastTo S4096x256 (shapeCast S4096x1 (shapeCast S4096 x3 h1) h2) h3 (ix2 r q) = x3 (ix1 r) := by
  refine (broadcastTo_a1_ab_apply _ _ r q).trans ?_
  refine (shapeCast_a_a1_apply _ _ r (0 : Fin 1)).trans ?_
  rw [shapeCast_self]

/-- A chunk's logit for row r and lane q. -/
theorem pay7_apply (x0 : Vec Ideal S4096x2048 .bf16) (x1 : Vec Ideal S256x2048 .f32) (x2 : Vec Ideal S256 .f32)
    (r : Fin 4096) (q : Fin 256) :
    k0_pay7 (F := Ideal) x0 x1 x2 (ix2 r q) = (0 + ∑ h : Fin 2048, x0 (ix2 r h) * x1 (ix2 q h)) + x2 (ix1 q) := by
  unfold k0_pay7
  rw [shapeCast_self]
  refine (addf_apply _ _ _).trans ?_
  rw [biasRow_apply, dot_apply, zero_add]
  rfl

/-- The new running maximum of row r. -/
theorem pay9_apply (x0 : Vec Ideal S4096x2048 .bf16) (x1 : Vec Ideal S256x2048 .f32) (x2 : Vec Ideal S256 .f32)
    (mo : Vec Ideal S4096x1 .f32) (r : Fin 4096) :
    k0_pay9 (F := Ideal) x0 x1 x2 mo (ix2 r (0 : Fin 1))
      = max (mo (ix2 r (0 : Fin 1))) (Finset.univ.fold max ⊥ fun q : Fin 256 => k0_pay7 (F := Ideal) x0 x1 x2 (ix2 r q)) := by
  unfold k0_pay9
  refine (maximumf_apply _ _ _).trans ?_
  refine congrArg (max (mo (ix2 r (0 : Fin 1)))) ?_
  refine (shapeCast_a_a1_apply _ _ r (0 : Fin 1)).trans ?_
  exact laneMax_apply _ _ _ _ r

/-- The stored maximum is the maximum. -/
theorem pay2_apply (v : FVec Ideal S4096x1 .f32) (r : Fin 4096) :
    k0_pay2 (F := Ideal) v (ix2 r (0 : Fin 1)) = v (ix2 r (0 : Fin 1)) := by
  unfold k0_pay2
  rw [shapeCast_self]

/-- The rescaling factor of row r: exp(old maximum - new maximum). -/
theorem pay10_apply (x0 : Vec Ideal S4096x2048 .bf16) (x1 : Vec Ideal S256x2048 .f32) (x2 : Vec Ideal S256 .f32)
    (mo : Vec Ideal S4096x1 .f32) (r : Fin 4096) :
    k0_pay10 (F := Ideal) x0 x1 x2 mo (ix2 r (0 : Fin 1))
      = Ideal.exp (mo (ix2 r (0 : Fin 1)) - k0_pay9 (F := Ideal) x0 x1 x2 mo (ix2 r (0 : Fin 1))) := by
  rfl

/-- The chunk's logits shifted by the new running maximum. -/
theorem pay11_apply (x0 : Vec Ideal S4096x2048 .bf16) (x1 : Vec Ideal S256x2048 .f32) (x2 : Vec Ideal S256 .f32)
    (mo : Vec Ideal S4096x1 .f32) (r : Fin 4096) (q : Fin 256) :
    k0_pay11 (F := Ideal) x0 x1 x2 mo (ix2 r q)
      = k0_pay7 (F := Ideal) x0 x1 x2 (ix2 r q) - k0_pay9 (F := Ideal) x0 x1 x2 mo (ix2 r (0 : Fin 1)) := by
  unfold k0_pay11
  refine (subf_apply _ _ _).trans ?_
  exact congrArg (k0_pay7 (F := Ideal) x0 x1 x2 (ix2 r q) - ·) (broadcastTo_a1_ab_apply _ _ r q)

/-- The new running sum of row r: the factor times the old sum, plus the sum of the exponentials of the shifted logits. -/
theorem pay1_apply (v35 : FVec Ideal S4096x1 .f32) (v37 : FVec Ideal S4096x256 .f32) (lo : Vec Ideal S4096x1 .f32) (r : Fin 4096) :
    k0_pay1 (F := Ideal) v35 v37 lo (ix2 r (0 : Fin 1))
      = v35 (ix2 r (0 : Fin 1)) * lo (ix2 r (0 : Fin 1)) + ∑ q : Fin 256, Ideal.exp (v37 (ix2 r q)) := by
  unfold k0_pay1
  rw [shapeCast_self]
  refine (addf_apply _ _ _).trans ?_
  refine congrArg (v35 (ix2 r (0 : Fin 1)) * lo (ix2 r (0 : Fin 1)) + ·) ?_
  refine (shapeCast_a_a1_apply _ _ r (0 : Fin 1)).trans ?_
  exact laneSum_apply _ _ _ _ r

/-- The new running label maximum of row r: the old one against the largest chunk logit whose class word
    256 · (chunk number) + lane equals the row's label word. -/
theorem pay8_apply (i : grid0.Coords) (x0 : Vec Ideal S4096x2048 .bf16) (x1 : Vec Ideal S256x2048 .f32) (x2 : Vec Ideal S256 .f32)
    (x3 : Vec Ideal S4096 .i32) (tOld : Vec Ideal S4096x1 .f32) (r : Fin 4096) :
    k0_pay8 (F := Ideal) i x0 x1 x2 x3 tOld (ix2 r (0 : Fin 1))
      = max (tOld (ix2 r (0 : Fin 1)))
          (Finset.univ.fold max ⊥ fun q : Fin 256 =>
            if BitVec.ofNat 32 (256 * (i 0).val + q.val) = x3 (ix1 r) then k0_pay7 (F := Ideal) x0 x1 x2 (ix2 r q) else ⊥) := by
  unfold k0_pay8
  rw [shapeCast_self]
  refine (maximumf_apply _ _ _).trans ?_
  refine congrArg (max (tOld (ix2 r (0 : Fin 1)))) ?_
  refine (shapeCast_a_a1_apply _ _ r (0 : Fin 1)).trans ?_
  refine (laneMax_apply _ _ _ _ r).trans ?_
  refine congrArg (Finset.univ.fold max ⊥) (funext fun q => ?_)
  refine (select_apply _ _ _ _).trans ?_
  refine (select_cmpi_eq _ _ _ _).trans ?_
  rw [classWord_apply, labelWord_apply]
  exact congrArg (fun z => if BitVec.ofNat 32 (256 * (i 0).val + q.val) = x3 (ix1 r) then k0_pay7 (F := Ideal) x0 x1 x2 (ix2 r q) else z) ofBits_neg_inf

/-- The output of row r: label maximum - (maximum + log sum). -/
theorem pay3_apply (tv mv lv : Vec Ideal S4096x1 .f32) (r : Fin 4096) :
    k0_pay3 (F := Ideal) tv mv lv (ix2 r (0 : Fin 1))
      = tv (ix2 r (0 : Fin 1)) - (mv (ix2 r (0 : Fin 1)) + Ideal.log (lv (ix2 r (0 : Fin 1)))) := by
  rfl

/-- The three reset values: -∞, 0, -∞. -/
theorem pay4_apply (r : Fin 4096) : k0_pay4 (F := Ideal) (ix2 r (0 : Fin 1)) = ⊥ := by
  unfold k0_pay4
  rw [shapeCast_self]
  exact ofBits_neg_inf
theorem pay5_apply (r : Fin 4096) : k0_pay5 (F := Ideal) (ix2 r (0 : Fin 1)) = 0 := by
  unfold k0_pay5
  rw [shapeCast_self]
  exact Ideal.ofBits_zero_f32
theorem pay6_apply (r : Fin 4096) : k0_pay6 (F := Ideal) (ix2 r (0 : Fin 1)) = ⊥ := by
  unfold k0_pay6
  rw [shapeCast_self]
  exact ofBits_neg_inf

end Cert.KernelIdeal.KPay

end
-- ==== Proof.KTerm.lean ====
/-
  The kernel program's host operations as pure functions: before the region, the activations flattened to
  4096 rows and the labels flattened to 4096 words; after it, the loss built from the region's 4096 × 1 output
  and the targets' mask, whose counts are float sums of the mask.
-/
import proofs.«178825_j46720654246580_1_alg».proof.Proof.Gen.KernelIdeal

noncomputable section

namespace Cert.KernelIdeal.Hand

open Idealize.ShloMosaic Cert.KernelIdeal Cert.KernelIdeal.Facts₀

variable {F : FTy → Type} [FloatOps F]

/-- The activations as the region's first window stages them: one row per token, narrowed to bf16. -/
def xRows (X : FVec F S8x512x2048 .f32) : FVec F S4096x2048 .bf16 :=
  truncf .bf16 (shapeCast S4096x2048 X shapeCasts_S8x512x2048_S4096x2048) bitsLt_bf16_f32

/-- Which targets are not the ignore index -100. -/
def maskI (T : IVec S8x512 32) : IVec S8x512 1 :=
  cmpi .ne T (broadcastInDim S8x512 ![] bcast_S_S8x512 (constantI S_ 32 4294967196#32))

/-- The labels as the region's fourth window stages them: the target, or 0 where it is the ignore index, one word per token. -/
def labelRows (T : IVec S8x512 32) : IVec S4096 32 :=
  shapeCast S4096 (select (maskI T) T (broadcastInDim S8x512 ![] bcast_S_S8x512 (id (constantI S_ 32 0#32)))) shapeCasts_S8x512_S4096

/-- jax's softplus on four values: max(a, 0) + log1p(exp(-|a - 0|)), with its test of a - 0 against itself. -/
def softplus4 (a : FVec F S4 .f32) : FVec F S4 .f32 :=
  select (cmpf .une (subf a (broadcastInDim S4 ![] bcast_S_S4 (constant S_ .f32 0x00000000#32)))
      (subf a (broadcastInDim S4 ![] bcast_S_S4 (constant S_ .f32 0x00000000#32))))
    (addf a (broadcastInDim S4 ![] bcast_S_S4 (constant S_ .f32 0x00000000#32)))
    (addf (maximumf a (broadcastInDim S4 ![] bcast_S_S4 (constant S_ .f32 0x00000000#32)))
      (Host.log1p (Host.exp (Host.negf (Host.absf (subf a (broadcastInDim S4 ![] bcast_S_S4 (constant S_ .f32 0x00000000#32))))))))

/-- The per-sequence averages: the masked log-probabilities summed over each sequence, over that sequence's count. -/
def avg (pm : FVec F S8x512 .f32) (c8 : FVec F S8 .f32) : FVec F S8 .f32 :=
  Host.divf (Host.reduceAdd pm (constant S_ .f32 0x00000000#32) reducesTo_S8x512_S8_d1 h_S_) c8

/-- The loss from the masked log-probabilities pm, the per-sequence counts c8 and the chosen half's count c0:
    the mean over the four pairs of -log_sigmoid(0.1 (chosen average - rejected average)), plus the chosen half's
    negated sum over its count. -/
def lossOf (pm : FVec F S8x512 .f32) (c8 : FVec F S8 .f32) (c0 : FVec F S_ .f32) : FVec F S_ .f32 :=
  addf
    (Host.divf
      (Host.reduceAdd
        (Host.negf (Host.negf (softplus4 (Host.negf
          (mulf (broadcastInDim S4 ![] bcast_S_S4 (constant S_ .f32 0x3DCCCCCD#32))
            (subf (extractStridedSlice S4 ![0] (avg pm c8) slices_S8_S4_0) (extractStridedSlice S4 ![4] (avg pm c8) slices_S8_S4_4)))))))
        (constant S_ .f32 0x00000000#32) reducesTo_S4_S_d0 h_S_)
      (constant S_ .f32 0x40800000#32))
    (Host.divf
      (Host.negf (Host.reduceAdd (extractStridedSlice S4x512 ![0, 0] pm slices_S8x512_S4x512_0_0)
        (constant S_ .f32 0x00000000#32) reducesTo_S4x512_S_d0_1 h_S_))
      c0)

/-- The kernel program's result from the per-token log-probabilities P and the targets: the counts are float sums of
    the mask. -/
def tailK (P : FVec F S8x512 .f32) (T : IVec S8x512 32) : FVec F S_ .f32 :=
  lossOf (mulf P (uitofp .f32 (maskI T)))
    (Host.reduceAdd (uitofp .f32 (maskI T)) (constant S_ .f32 0x00000000#32) reducesTo_S8x512_S8_d1 h_S_)
    (Host.reduceAdd (extractStridedSlice S4x512 ![0, 0] (uitofp .f32 (maskI T)) slices_S8x512_S4x512_0_0)
      (constant S_ .f32 0x00000000#32) reducesTo_S4x512_S_d0_1 h_S_)

/-- The kernel program's result from the region's 4096 × 1 output. -/
def kernelOut (O : FVec F S4096x1 .f32) (T : IVec S8x512 32) : FVec F S_ .f32 :=
  tailK (shapeCast S8x512 O shapeCasts_S4096x1_S8x512) T

end Cert.KernelIdeal.Hand

end
-- ==== Proof.KBlocks.lean ====
/-
  The kernel's input blocks at a grid point, as entries of the argument arrays.  Point t stages: the whole
  4096 × 2048 activations (token r = 512 b + s is row r); rows 256 t … 256 t + 255 of the weights and the same
  lanes of the bias (chunk t of the classes); and the whole 4096 labels.
-/
import proofs.«178825_j46720654246580_1_alg».proof.Proof.Gen.KernelIdeal.Frame
import proofs.«178825_j46720654246580_1_alg».proof.Proof.KTerm
import proofs.«178825_j46720654246580_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The four argument arrays on core c, at their literal types. -/
abbrev Wm (c : Dev nD) : FVec Ideal S32000x2048 .f32 := m ((c.tc : Thread nD τ).loc main_arg0)
abbrev Xm (c : Dev nD) : FVec Ideal S8x512x2048 .f32 := m ((c.tc : Thread nD τ).loc main_arg1)
abbrev Tm (c : Dev nD) : IVec S8x512 32 := m ((c.tc : Thread nD τ).loc main_arg2)
abbrev Bm (c : Dev nD) : FVec Ideal S32000 .f32 := m ((c.tc : Thread nD τ).loc main_arg3)

/-- The four input blocks at point t, at their literal types. -/
abbrev xblk (c : Dev nD) (t : Fin cfg0.N) : Vec Ideal S4096x2048 .bf16 := iblk m c 0 t
abbrev wblk (c : Dev nD) (t : Fin cfg0.N) : Vec Ideal S256x2048 .f32 := iblk m c 1 t
abbrev bblk (c : Dev nD) (t : Fin cfg0.N) : Vec Ideal S256 .f32 := iblk m c 2 t
abbrev lblk (c : Dev nD) (t : Fin cfg0.N) : Vec Ideal S4096 .i32 := iblk m c 3 t

/-- Row r of the 4096 is token (r / 512, r % 512). -/
def tokB (r : Fin 4096) : Fin 8 := ⟨r.val / 512, by have := r.isLt; omega⟩
def tokT (r : Fin 4096) : Fin 512 := ⟨r.val % 512, Nat.mod_lt _ (by decide)⟩

/-- Lane q of chunk t is class 256 t + q. -/
def cls (t : Fin cfg0.N) (q : Fin 256) : Fin 32000 :=
  ⟨256 * t.val + q.val, by have := t.isLt; have hN : cfg0.N = 125 := N_0; have := q.isLt; omega⟩

/-- Where each window's block sits at point t: the activations and the labels at block 0, the weights' rows and
    the bias' lanes at block t. -/
theorem idx_x : ∀ t : Fin cfg0.N, win0_0.index t 0 = 0 ∧ win0_0.index t 1 = 0 :=
  (by decide +kernel : ∀ t : Fin grid0.N, win0_0.index t 0 = 0 ∧ win0_0.index t 1 = 0)
theorem idx_w : ∀ t : Fin cfg0.N, win0_1.index t 0 = t.val ∧ win0_1.index t 1 = 0 :=
  (by decide +kernel : ∀ t : Fin grid0.N, win0_1.index t 0 = t.val ∧ win0_1.index t 1 = 0)
theorem idx_b : ∀ t : Fin cfg0.N, win0_2.index t 0 = t.val :=
  (by decide +kernel : ∀ t : Fin grid0.N, win0_2.index t 0 = t.val)
theorem idx_l : ∀ t : Fin cfg0.N, win0_3.index t 0 = 0 :=
  (by decide +kernel : ∀ t : Fin grid0.N, win0_3.index t 0 = 0)

/-- The activations as the region finds them: the host's reshape to 4096 rows, narrowed to bf16. -/
theorem V_main_v1 (c : Dev nD) : (V m c main_v1 : FVec Ideal S4096x2048 .bf16) = Hand.xRows (Xm m c) := by
  dsimp only [Gen.V, Gen.V0]
  simp only [Gen.hostOps0, Gen.hostOps0_1, Gen.hostOps0_2, List.flatten_cons, List.flatten_nil, List.append_nil,
    List.cons_append, List.nil_append]
  after_results
  rfl

/-- The labels as the region finds them: the host's masked targets, reshaped to 4096 words. -/
theorem V_main_v5 (c : Dev nD) : (V m c main_v5 : IVec S4096 32) = Hand.labelRows (Tm m c) := by
  dsimp only [Gen.V, Gen.V0]
  simp only [Gen.hostOps0, Gen.hostOps0_1, Gen.hostOps0_2, List.flatten_cons, List.flatten_nil, List.append_nil,
    List.cons_append, List.nil_append]
  after_results
  rfl

/-- Row r of the flattened activations is token (r / 512, r % 512): both sit at row-major position 2048 r + h;
    narrowing to bf16 changes no extended real. -/
theorem xRows_apply (X : FVec Ideal S8x512x2048 .f32) (r : Fin 4096) (h : Fin 2048) :
    Hand.xRows X (ix2 r h) = X (ix3 (tokB r) (tokT r) h) := by
  unfold Hand.xRows
  show shapeCast S4096x2048 X Facts₀.shapeCasts_S8x512x2048_S4096x2048 (ix2 r h) = X (ix3 (tokB r) (tokT r) h)
  refine shapeCast_apply _ _ (ix2 r h) (ix3 (tokB r) (tokT r) h) ?_
  rw [Shape.rowMajor_val_three, Shape.rowMajor_val_two]
  show ((r.val / 512) * 512 + r.val % 512) * 2048 + h.val = r.val * 2048 + h.val
  omega

/-- Word r of the flattened labels is token (r / 512, r % 512)'s label: the target where it is not the ignore
    index, the zero word where it is. -/
theorem labelRows_apply (T : IVec S8x512 32) (r : Fin 4096) :
    Hand.labelRows T (ix1 r) = Cert.Spec.label T (tokB r) (tokT r) := by
  unfold Hand.labelRows
  refine (shapeCast_apply _ _ (ix1 r) (ix2 (tokB r) (tokT r)) ?_).trans ?_
  · rw [Shape.rowMajor_val_two, Shape.rowMajor_val_one]
    show (r.val / 512) * 512 + r.val % 512 = r.val
    omega
  · rw [select_apply]
    unfold Cert.Spec.label
    by_cases hT : T (ix2 (tokB r) (tokT r)) = 4294967196#32
    · rw [if_pos hT]
      have hm : Hand.maskI T (ix2 (tokB r) (tokT r)) = 0#1 := by
        apply eq_zero_of_ne_one
        intro h1
        have h1' : IntOp.cmpi .ne (T (ix2 (tokB r) (tokT r))) 4294967196#32 = 1#1 := h1
        exact (IntOp.cmpi_ne.mp h1') hT
      rw [hm, select_zero]
      rfl
    · rw [if_neg hT]
      have hm : Hand.maskI T (ix2 (tokB r) (tokT r)) = 1#1 :=
        (IntOp.cmpi_ne (x := T (ix2 (tokB r) (tokT r))) (y := 4294967196#32)).mpr hT
      rw [hm, select_one]

/-- The activations block is the whole array: row r is token (r / 512, r % 512). -/
theorem xblk_apply (c : Dev nD) (t : Fin cfg0.N) (r : Fin 4096) (h : Fin 2048) :
    xblk m c t (ix2 r h) = Xm m c (ix3 (tokB r) (tokT r) h) := by
  have hi := idx_x t
  show iblk m c 0 t (ix2 r h) = _
  unfold iblk
  rw [View.read_apply]
  show V m c main_v1 _ = _
  refine Eq.trans ?_ (xRows_apply (Xm m c) r h)
  refine Eq.trans ?_ (congrFun (V_main_v1 m c) (ix2 r h))
  congr 1
  funext a
  apply Fin.ext
  match a with
  | ⟨0, _⟩ => show win0_0.index t 0 * 4096 + 1 * r.val = r.val; rw [hi.1]; omega
  | ⟨1, _⟩ => show win0_0.index t 1 * 2048 + 1 * h.val = h.val; rw [hi.2]; omega

/-- The weight block at point t: its row q is the weights' row of class 256 t + q. -/
theorem wblk_apply (c : Dev nD) (t : Fin cfg0.N) (q : Fin 256) (h : Fin 2048) :
    wblk m c t (ix2 q h) = Wm m c (ix2 (cls t q) h) := by
  have hi := idx_w t
  show iblk m c 1 t (ix2 q h) = _
  unfold iblk
  rw [View.read_apply]
  show V m c main_arg0 _ = m ((c.tc : Thread nD τ).loc main_arg0) _
  rw [V_main_arg0]
  congr 1
  funext a
  apply Fin.ext
  match a with
  | ⟨0, _⟩ => show win0_1.index t 0 * 256 + 1 * q.val = 256 * t.val + q.val; rw [hi.1]; omega
  | ⟨1, _⟩ => show win0_1.index t 1 * 2048 + 1 * h.val = h.val; rw [hi.2]; omega

/-- The bias block at point t: its lane q is the bias of class 256 t + q. -/
theorem bblk_apply (c : Dev nD) (t : Fin cfg0.N) (q : Fin 256) :
    bblk m c t (ix1 q) = Bm m c (ix1 (cls t q)) := by
  have hi := idx_b t
  show iblk m c 2 t (ix1 q) = _
  unfold iblk
  rw [View.read_apply]
  show V m c main_arg3 _ = m ((c.tc : Thread nD τ).loc main_arg3) _
  rw [V_main_arg3]
  congr 1
  funext a
  apply Fin.ext
  match a with
  | ⟨0, _⟩ => show win0_2.index t 0 * 256 + 1 * q.val = 256 * t.val + q.val; rw [hi]; omega

/-- The labels block is the whole array: word r is token (r / 512, r % 512)'s label. -/
theorem lblk_apply (c : Dev nD) (t : Fin cfg0.N) (r : Fin 4096) :
    lblk m c t (ix1 r) = Cert.Spec.label (Tm m c) (tokB r) (tokT r) := by
  have hi := idx_l t
  show iblk m c 3 t (ix1 r) = _
  unfold iblk
  rw [View.read_apply]
  show V m c main_v5 _ = _
  refine Eq.trans ?_ (labelRows_apply (Tm m c) r)
  refine Eq.trans ?_ (congrFun (V_main_v5 m c) (ix1 r))
  congr 1
  funext a
  apply Fin.ext
  match a with
  | ⟨0, _⟩ => show win0_3.index t 0 * 4096 + 1 * r.val = r.val; rw [hi]; omega

end Cert.KernelIdeal.KValue

end
-- ==== Proof.KInv.lean ====
/-
  What the kernel's three carried scratch buffers hold after each grid point, row by row: after point n row r
  holds the online recurrence's triple after n + 1 chunks of that token's logits — the running maximum, the
  running sum rescaled to it, and the running maximum of the logits whose class is the token's label.  By induction
  on the point, never by enumerating the grid: the first point starts from (-∞, 0, -∞), every later point updates
  what the point before left, and the last point also leaves label maximum - (maximum + log sum) in the output.
-/
import proofs.«178825_j46720654246580_1_alg».proof.Proof.KPieces
import proofs.«178825_j46720654246580_1_alg».proof.Proof.KPay
import proofs.«178825_j46720654246580_1_alg».proof.Proof.KBlocks

noncomputable section

open scoped BigOperators

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The three carried columns: running maximum, running sum, running label maximum, one entry per token. -/
abbrev St := Vec Ideal S4096x1 .f32 × Vec Ideal S4096x1 .f32 × Vec Ideal S4096x1 .f32

/-- What the first point resets them to: -∞, 0, -∞. -/
def kinit : St := (k0_pay4 (F := Ideal), k0_pay5 (F := Ideal), k0_pay6 (F := Ideal))

/-- One point's update of the three columns from the point's blocks. -/
def kstep (c : Dev nD) (t : Fin cfg0.N) (s : St) : St :=
  (k0_pay2 (F := Ideal) (k0_pay9 (F := Ideal) (xblk m c t) (wblk m c t) (bblk m c t) s.1),
   k0_pay1 (F := Ideal) (k0_pay10 (F := Ideal) (xblk m c t) (wblk m c t) (bblk m c t) s.1)
     (k0_pay11 (F := Ideal) (xblk m c t) (wblk m c t) (bblk m c t) s.1) s.2.1,
   k0_pay8 (F := Ideal) (grid0.coords t) (xblk m c t) (wblk m c t) (bblk m c t) (lblk m c t) s.2.2)

/-- At the first point the columns are one update of the reset values. -/
theorem st_A (c : Dev nD) (t : Fin cfg0.N) (h0 : t.val % 125 = 0) (h1 : ¬t.val % 125 = 124) :
    (outsAt0 m c t.val t.isLt).2 = kstep m c t kinit := by
  rw [outsAt0_A m c t h0 h1]
  dsimp only
  rw [sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (xblk m c t) (wblk m c t) (bblk m c t) (lblk m c t),
    sout0_A_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (xblk m c t) (wblk m c t) (bblk m c t) (lblk m c t),
    sout0_A_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (xblk m c t) (wblk m c t) (bblk m c t) (lblk m c t)]
  rfl

/-- At every later point the columns are one update of what the point before left. -/
theorem st_BC (c : Dev nD) (t : Fin cfg0.N) (h0 : ¬t.val % 125 = 0) :
    (outsAt0 m c t.val t.isLt).2 = kstep m c t (outsAt0 m c (t.val - 1) (Nat.lt_of_le_of_lt (Nat.sub_le _ _) t.isLt)).2 := by
  by_cases h1 : t.val % 125 = 124
  · rw [outsAt0_C m c t h0 h1]
    dsimp only
    rw [sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (bblk m c t) (lblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sout0_C_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (bblk m c t) (lblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sout0_C_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (bblk m c t) (lblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    rfl
  · rw [outsAt0_B m c t h0 h1]
    dsimp only
    rw [sout0_B_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (bblk m c t) (lblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sout0_B_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (bblk m c t) (lblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sout0_B_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (bblk m c t) (lblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    rfl

/-- At the last point the output column is label maximum - (maximum + log sum) of the three columns just updated. -/
theorem out_C (c : Dev nD) (t : Fin cfg0.N) (h0 : ¬t.val % 125 = 0) (h1 : t.val % 125 = 124) :
    (outsAt0 m c t.val t.isLt).1
      = k0_pay3 (F := Ideal) (kstep m c t (outsAt0 m c (t.val - 1) (Nat.lt_of_le_of_lt (Nat.sub_le _ _) t.isLt)).2).2.2 (kstep m c t (outsAt0 m c (t.val - 1) (Nat.lt_of_le_of_lt (Nat.sub_le _ _) t.isLt)).2).1 (kstep m c t (outsAt0 m c (t.val - 1) (Nat.lt_of_le_of_lt (Nat.sub_le _ _) t.isLt)).2).2.1 := by
  rw [outsAt0_C m c t h0 h1]
  dsimp only
  rw [out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (bblk m c t) (lblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  rfl

/-! ## Row by row -/

/-- Token r's logits over the 32000 classes. -/
def xrow (c : Dev nD) (r : Fin 4096) : Fin 32000 → EReal :=
  Cert.Spec.logit (Wm m c) (Xm m c) (Bm m c) (tokB r) (tokT r)

/-- Token r's label, as a natural number. -/
def lab (c : Dev nD) (r : Fin 4096) : ℕ := (Cert.Spec.label (Tm m c) (tokB r) (tokT r)).toNat

/-- The grid has one axis: point t's coordinate is t. -/
theorem coords0 : ∀ t : Fin cfg0.N, ((grid0.coords t) 0).val = t.val :=
  (by decide +kernel : ∀ t : Fin grid0.N, ((grid0.coords t) 0).val = t.val)

/-- Point t's chunk logits of row r are chunk t of the token's logits. -/
theorem chunk_eq (c : Dev nD) (t : Fin cfg0.N) (r : Fin 4096) (q : Fin 256) :
    k0_pay7 (F := Ideal) (xblk m c t) (wblk m c t) (bblk m c t) (ix2 r q) = Cert.Spec.chunk (xrow m c r) t.val q := by
  have hlt : 256 * t.val + q.val < 32000 := by
    have := t.isLt; have hN : cfg0.N = 125 := N_0; have := q.isLt; omega
  rw [KPay.pay7_apply]
  unfold Cert.Spec.chunk Cert.Spec.pick
  rw [dif_pos hlt]
  unfold xrow Cert.Spec.logit
  simp only [xblk_apply, wblk_apply, bblk_apply]
  rfl

/-- A class word equals a label word exactly when the class is the label's number. -/
theorem word_eq_iff (n : ℕ) (hn : n < 4294967296) (w : BitVec 32) : BitVec.ofNat 32 n = w ↔ n = w.toNat := by
  constructor
  · intro h
    have := congrArg BitVec.toNat h
    rw [BitVec.toNat_ofNat, Nat.mod_eq_of_lt (by simpa using hn)] at this
    exact this
  · intro h
    rw [h]
    exact BitVec.ofNat_toNat _ _

/-- One point's update, read at row r, is the recurrence's step on the row's triple. -/
theorem kstep_row (c : Dev nD) (t : Fin cfg0.N) (s : St) (r : Fin 4096) (σ : EReal × EReal × EReal)
    (e1 : s.1 (ix2 r (0 : Fin 1)) = σ.1) (e2 : s.2.1 (ix2 r (0 : Fin 1)) = σ.2.1) (e3 : s.2.2 (ix2 r (0 : Fin 1)) = σ.2.2) :
    (kstep m c t s).1 (ix2 r (0 : Fin 1)) = (Cert.Spec.stepRow (xrow m c r) (lab m c r) t.val σ).1
    ∧ (kstep m c t s).2.1 (ix2 r (0 : Fin 1)) = (Cert.Spec.stepRow (xrow m c r) (lab m c r) t.val σ).2.1
    ∧ (kstep m c t s).2.2 (ix2 r (0 : Fin 1)) = (Cert.Spec.stepRow (xrow m c r) (lab m c r) t.val σ).2.2 := by
  have hch : (fun q : Fin 256 => k0_pay7 (F := Ideal) (xblk m c t) (wblk m c t) (bblk m c t) (ix2 r q))
      = Cert.Spec.chunk (xrow m c r) t.val := funext fun q => chunk_eq m c t r q
  have hmax : k0_pay9 (F := Ideal) (xblk m c t) (wblk m c t) (bblk m c t) s.1 (ix2 r (0 : Fin 1))
      = max σ.1 (Finset.univ.fold max ⊥ (Cert.Spec.chunk (xrow m c r) t.val)) := by
    rw [KPay.pay9_apply, hch, e1]
  unfold kstep Cert.Spec.stepRow
  dsimp only
  refine ⟨?_, ?_, ?_⟩
  · rw [KPay.pay2_apply, hmax]
  · have hs : (∑ q : Fin 256, Ideal.exp (k0_pay11 (F := Ideal) (xblk m c t) (wblk m c t) (bblk m c t) s.1 (ix2 r q)))
        = ∑ q : Fin 256, Ideal.exp (Cert.Spec.chunk (xrow m c r) t.val q
            - max σ.1 (Finset.univ.fold max ⊥ (Cert.Spec.chunk (xrow m c r) t.val))) :=
      Finset.sum_congr rfl fun q _ => by rw [KPay.pay11_apply, hmax, chunk_eq]
    rw [KPay.pay1_apply, KPay.pay10_apply, hmax, e1, e2, hs]
  · have hf : (fun q : Fin 256 =>
          if BitVec.ofNat 32 (256 * ((grid0.coords t) 0).val + q.val) = lblk m c t (ix1 r)
          then k0_pay7 (F := Ideal) (xblk m c t) (wblk m c t) (bblk m c t) (ix2 r q) else (⊥ : EReal))
        = fun q : Fin 256 => if 256 * t.val + q.val = lab m c r then Cert.Spec.chunk (xrow m c r) t.val q else ⊥ := by
      funext q
      have hq : 256 * ((grid0.coords t) 0).val + q.val < 4294967296 := by
        rw [coords0]; have := t.isLt; have hN : cfg0.N = 125 := N_0; have := q.isLt; omega
      rw [chunk_eq]
      by_cases hh : 256 * t.val + q.val = lab m c r
      · rw [if_pos hh, if_pos]
        rw [word_eq_iff _ hq, coords0, lblk_apply]
        exact hh
      · rw [if_neg hh, if_neg]
        rw [word_eq_iff _ hq, coords0, lblk_apply]
        exact hh
    rw [KPay.pay8_apply, e3, hf]

/-- After point n, row r of the three columns is the recurrence's triple after n + 1 chunks. -/
theorem inv (c : Dev nD) : ∀ (n : ℕ) (hn : n < cfg0.N) (r : Fin 4096),
    (outsAt0 m c n hn).2.1 (ix2 r (0 : Fin 1)) = (Cert.Spec.stateRow (xrow m c r) (lab m c r) (n + 1)).1
    ∧ (outsAt0 m c n hn).2.2.1 (ix2 r (0 : Fin 1)) = (Cert.Spec.stateRow (xrow m c r) (lab m c r) (n + 1)).2.1
    ∧ (outsAt0 m c n hn).2.2.2 (ix2 r (0 : Fin 1)) = (Cert.Spec.stateRow (xrow m c r) (lab m c r) (n + 1)).2.2
  | 0, hn, r => by
    have hA := st_A m c ⟨0, hn⟩ (Nat.zero_mod _) (by dsimp only; omega)
    have hk := kstep_row m c ⟨0, hn⟩ kinit r (⊥, 0, ⊥) (KPay.pay4_apply r) (KPay.pay5_apply r) (KPay.pay6_apply r)
    show ((outsAt0 m c 0 hn).2).1 _ = _ ∧ ((outsAt0 m c 0 hn).2).2.1 _ = _ ∧ ((outsAt0 m c 0 hn).2).2.2 _ = _
    rw [show (outsAt0 m c 0 hn).2 = kstep m c ⟨0, hn⟩ kinit from hA]
    exact hk
  | n + 1, hn, r => by
    have hN : cfg0.N = 125 := N_0
    have h0 : ¬(⟨n + 1, hn⟩ : Fin cfg0.N).val % 125 = 0 := by dsimp only; omega
    have hS := st_BC m c ⟨n + 1, hn⟩ h0
    have ih := inv c n (Nat.lt_of_succ_lt hn) r
    have hk := kstep_row m c ⟨n + 1, hn⟩ (outsAt0 m c n (Nat.lt_of_succ_lt hn)).2 r
      (Cert.Spec.stateRow (xrow m c r) (lab m c r) (n + 1)) ih.1 ih.2.1 ih.2.2
    show ((outsAt0 m c (n + 1) hn).2).1 _ = _ ∧ ((outsAt0 m c (n + 1) hn).2).2.1 _ = _ ∧ ((outsAt0 m c (n + 1) hn).2).2.2 _ = _
    rw [show (outsAt0 m c (n + 1) hn).2 = kstep m c ⟨n + 1, hn⟩ (outsAt0 m c n (Nat.lt_of_succ_lt hn)).2 from hS]
    exact hk

/-- After the last point, row r of the output column is the recurrence's label maximum - (maximum + log sum)
    after all 125 chunks. -/
theorem out_last (c : Dev nD) (h124 : 124 < cfg0.N) (r : Fin 4096) :
    (outsAt0 m c 124 h124).1 (ix2 r (0 : Fin 1))
      = (Cert.Spec.stateRow (xrow m c r) (lab m c r) 125).2.2
        - ((Cert.Spec.stateRow (xrow m c r) (lab m c r) 125).1 + Ideal.log (Cert.Spec.stateRow (xrow m c r) (lab m c r) 125).2.1) := by
  have hO := out_C m c ⟨124, h124⟩ (by dsimp only; omega) (by dsimp only)
  have hS := st_BC m c ⟨124, h124⟩ (by dsimp only; omega)
  have hI := inv m c 124 h124 r
  rw [show (outsAt0 m c 124 h124).1 = _ from hO, KPay.pay3_apply]
  rw [← show (outsAt0 m c 124 h124).2 = _ from hS]
  rw [hI.1, hI.2.1, hI.2.2]

end Cert.KernelIdeal.KValue

end
-- ==== Proof.SpecLaws.lean ====
/-
  The two facts about the specification that the bridge needs: a logit of finite inputs is a real number,
  and the online recurrence over the 125 chunks ends at the label's log-probability.
-/
import proofs.«178825_j46720654246580_1_alg».proof.Proof.Spec
import Mathlib.Data.Finset.Lattice.Fold
import Mathlib.Algebra.Order.BigOperators.Group.Finset
import Mathlib.Analysis.SpecialFunctions.Log.Basic

noncomputable section

open scoped BigOperators

namespace Cert.Spec

open Idealize.ShloMosaic Idealize.ShloMosaic.ValueIdx

/-! ## Sums and maxima of real numbers inside the extended reals -/

/-- A finite sum of real numbers, taken in the extended reals, is the real sum. -/
private theorem coe_sum {ι : Type*} (s : Finset ι) (f : ι → ℝ) :
    ∑ i ∈ s, ((f i : ℝ) : EReal) = ((∑ i ∈ s, f i : ℝ) : EReal) := by
  classical
  refine Finset.induction_on s ?_ ?_
  · simp
  · intro a s ha ih
    rw [Finset.sum_insert ha, Finset.sum_insert ha, ih, EReal.coe_add]

/-- Folding the maximum from -∞ is the supremum. -/
private theorem fold_max_eq_sup {ι : Type*} (s : Finset ι) (f : ι → EReal) :
    s.fold max ⊥ f = s.sup f := rfl

/-- The largest of finitely many (at least one) real numbers is a real number. -/
private theorem sup_real {ι : Type*} (s : Finset ι) (hs : s.Nonempty) (y : ι → ℝ) :
    ∃ m : ℝ, s.sup (fun j => ((y j : ℝ) : EReal)) = (m : EReal) := by
  obtain ⟨i, _, hi⟩ := Finset.exists_mem_eq_sup s hs (fun j => ((y j : ℝ) : EReal))
  exact ⟨y i, hi⟩

/-- Moving a softmax sum from its own maximum to another reference point: the factor exp (M - b) turns
  ∑ exp (y j - M) into ∑ exp (y j - b).  Over no terms both sides are 0, whatever the (infinite) maximum. -/
private theorem rescale {ι : Type*} (s : Finset ι) (y : ι → ℝ) (b : ℝ) :
    Ideal.exp (s.sup (fun j => ((y j : ℝ) : EReal)) - (b : EReal))
        * ∑ j ∈ s, Ideal.exp (((y j : ℝ) : EReal) - s.sup (fun j => ((y j : ℝ) : EReal)))
      = ∑ j ∈ s, Ideal.exp (((y j : ℝ) : EReal) - (b : EReal)) := by
  rcases s.eq_empty_or_nonempty with rfl | hs
  · simp
  · obtain ⟨a, ha⟩ := sup_real s hs y
    rw [ha]
    simp only [← EReal.coe_sub, Ideal.exp_coe]
    rw [coe_sum, coe_sum, ← EReal.coe_mul, Finset.mul_sum]
    congr 1
    refine Finset.sum_congr rfl fun j _ => ?_
    rw [← Real.exp_add]
    congr 1
    ring

/-- A logit of finite inputs is a real number. -/
theorem logit_real (W : SW.Idx → EReal) (X : SX.Idx → EReal) (B : SB.Idx → EReal)
    (hW : ∀ i, ∃ y : ℝ, W i = (y : EReal)) (hX : ∀ i, ∃ y : ℝ, X i = (y : EReal)) (hB : ∀ i, ∃ y : ℝ, B i = (y : EReal))
    (b : Fin 8) (t : Fin 512) (j : Fin 32000) : ∃ y : ℝ, logit W X B b t j = (y : EReal) := by
  choose w hw using hW
  choose u hu using hX
  choose c hc using hB
  refine ⟨(∑ h : Fin 2048, u (ix3 b t h) * w (ix2 j h)) + c (ix1 j), ?_⟩
  rw [logit, zero_add]
  simp only [hw, hu, hc, ← EReal.coe_mul]
  rw [coe_sum, EReal.coe_add]

/-! ## The classes seen after k chunks -/

/-- The classes of the first k chunks. -/
private def J (k : ℕ) : Finset (Fin 32000) := Finset.univ.filter fun j => j.val < 256 * k

/-- Lane q of chunk k, as a class. -/
private def lane (k : ℕ) (hk : k < 125) (q : Fin 256) : Fin 32000 :=
  ⟨256 * k + q.val, by have := q.isLt; omega⟩

private theorem lane_injective (k : ℕ) (hk : k < 125) : Function.Injective (lane k hk) := by
  intro p q h
  have := congrArg Fin.val h
  simp only [lane] at this
  exact Fin.ext (by omega)

private theorem chunk_eq (x : Fin 32000 → EReal) (k : ℕ) (hk : k < 125) (q : Fin 256) :
    chunk x k q = x (lane k hk q) := by
  have := q.isLt
  rw [chunk, pick, dif_pos (by omega)]
  rfl

private theorem J_zero : J 0 = ∅ := by
  ext j
  simp [J]

private theorem J_full : J 125 = Finset.univ := by
  ext j
  have := j.isLt
  simp only [J, Finset.mem_filter, Finset.mem_univ, true_and, iff_true]
  omega

private theorem J_succ (k : ℕ) (hk : k < 125) : J (k + 1) = J k ∪ Finset.univ.image (lane k hk) := by
  ext j
  simp only [J, Finset.mem_filter, Finset.mem_univ, true_and, Finset.mem_union, Finset.mem_image]
  constructor
  · intro h
    by_cases h1 : j.val < 256 * k
    · exact Or.inl h1
    · exact Or.inr ⟨⟨j.val - 256 * k, by omega⟩, Fin.ext (by simp only [lane]; omega)⟩
  · rintro (h | ⟨q, rfl⟩)
    · omega
    · have := q.isLt
      simp only [lane]
      omega

private theorem J_disjoint (k : ℕ) (hk : k < 125) : Disjoint (J k) (Finset.univ.image (lane k hk)) := by
  rw [Finset.disjoint_left]
  intro j hj hj'
  simp only [J, Finset.mem_filter, Finset.mem_univ, true_and] at hj
  obtain ⟨q, -, rfl⟩ := Finset.mem_image.mp hj'
  simp only [lane] at hj
  omega

private theorem J_succ_nonempty (k : ℕ) : (J (k + 1)).Nonempty :=
  ⟨⟨0, by omega⟩, by simp only [J, Finset.mem_filter, Finset.mem_univ, true_and]; omega⟩

/-! ## One chunk's update of each component -/

/-- The running maximum after chunk k is the maximum over the first k + 1 chunks. -/
private theorem step_max (x : Fin 32000 → EReal) (k : ℕ) (hk : k < 125) :
    max ((J k).sup x) (Finset.univ.fold max ⊥ (chunk x k)) = (J (k + 1)).sup x := by
  rw [J_succ k hk, Finset.sup_union, Finset.sup_image, fold_max_eq_sup]
  congr 2
  funext q
  exact chunk_eq x k hk q

/-- The running sum after chunk k, rescaled to any real reference point b. -/
private theorem step_sum (y : Fin 32000 → ℝ) (k : ℕ) (hk : k < 125) (b : ℝ) :
    Ideal.exp ((J k).sup (fun j => ((y j : ℝ) : EReal)) - (b : EReal))
        * (∑ j ∈ J k, Ideal.exp (((y j : ℝ) : EReal) - (J k).sup (fun j => ((y j : ℝ) : EReal))))
      + ∑ q : Fin 256, Ideal.exp (chunk (fun j => ((y j : ℝ) : EReal)) k q - (b : EReal))
      = ∑ j ∈ J (k + 1), Ideal.exp (((y j : ℝ) : EReal) - (b : EReal)) := by
  rw [J_succ k hk, Finset.sum_union (J_disjoint k hk),
    Finset.sum_image (fun p _ q _ h => lane_injective k hk h), rescale]
  congr 1
  refine Finset.sum_congr rfl fun q _ => ?_
  rw [chunk_eq _ k hk q]

/-- The running label maximum after chunk k: the label's entry once its chunk has passed. -/
private theorem step_label (x : Fin 32000 → EReal) (n k : ℕ) :
    max (if n < 256 * k then pick x n else ⊥)
        (Finset.univ.fold max ⊥ fun q : Fin 256 => if 256 * k + q.val = n then chunk x k q else ⊥)
      = if n < 256 * (k + 1) then pick x n else ⊥ := by
  rw [fold_max_eq_sup]
  by_cases h : 256 * k ≤ n ∧ n < 256 * (k + 1)
  · have hs : (Finset.univ.sup fun q : Fin 256 => if 256 * k + q.val = n then chunk x k q else ⊥)
        = pick x n := by
      apply le_antisymm
      · refine Finset.sup_le fun q _ => ?_
        split_ifs with hq
        · rw [chunk, hq]
        · exact bot_le
      · have hle := Finset.le_sup (f := fun q : Fin 256 => if 256 * k + q.val = n then chunk x k q else ⊥)
          (Finset.mem_univ (⟨n - 256 * k, by omega⟩ : Fin 256))
        have hq : 256 * k + (n - 256 * k) = n := by omega
        simpa only [chunk, hq, if_true] using hle
    rw [hs, if_neg (by omega), if_pos h.2, max_eq_right bot_le]
  · have hs : (Finset.univ.sup fun q : Fin 256 => if 256 * k + q.val = n then chunk x k q else ⊥) = ⊥ := by
      rw [Finset.sup_eq_bot_iff]
      intro q _
      have := q.isLt
      rw [if_neg (by omega)]
    rw [hs, max_eq_left bot_le]
    by_cases h1 : n < 256 * k
    · rw [if_pos h1, if_pos (by omega)]
    · rw [if_neg h1, if_neg (by omega)]

/-! ## The invariant of the recurrence -/

/-- After k chunks of a row of real numbers: the maximum of the classes seen, their softmax sum relative to
  that maximum, and the label's entry if its chunk has passed (-∞ before). -/
private theorem stateRow_inv (y : Fin 32000 → ℝ) (n k : ℕ) (hk : k ≤ 125) :
    stateRow (fun j => ((y j : ℝ) : EReal)) n k
      = ((J k).sup (fun j => ((y j : ℝ) : EReal)),
         ∑ j ∈ J k, Ideal.exp (((y j : ℝ) : EReal) - (J k).sup (fun j => ((y j : ℝ) : EReal))),
         if n < 256 * k then pick (fun j => ((y j : ℝ) : EReal)) n else ⊥) := by
  induction k with
  | zero => simp [stateRow, J_zero]
  | succ k ih =>
    have hk' : k < 125 := by omega
    obtain ⟨b, hb⟩ := sup_real (J (k + 1)) (J_succ_nonempty k) y
    rw [stateRow, ih (by omega), stepRow]
    dsimp only
    rw [step_max _ k hk', step_label, hb, step_sum y k hk' b]

/-- After all 125 chunks of a row of real numbers, label maximum - (maximum + log sum) is the label's log-probability. -/
theorem stateRow_final (x : Fin 32000 → EReal) (hx : ∀ j, ∃ y : ℝ, x j = (y : EReal)) (n : ℕ) (hn : n < 32000) :
    (stateRow x n 125).2.2 - ((stateRow x n 125).1 + Ideal.log (stateRow x n 125).2.1) = tokLogp x n := by
  choose y hy using hx
  obtain rfl : x = fun j => ((y j : ℝ) : EReal) := funext hy
  rw [stateRow_inv y n 125 le_rfl]
  dsimp only
  rw [J_full, if_pos (by omega), tokLogp, rowMax, fold_max_eq_sup]
  obtain ⟨m, hm⟩ := sup_real Finset.univ Finset.univ_nonempty y
  have hS : 0 < ∑ j : Fin 32000, Real.exp (y j - m) :=
    Finset.sum_pos (fun j _ => Real.exp_pos _) Finset.univ_nonempty
  rw [hm, pick, dif_pos hn]
  simp only [← EReal.coe_sub, Ideal.exp_coe]
  rw [coe_sum, Ideal.log_coe, if_neg (not_le.mpr hS), ← EReal.coe_add, ← EReal.coe_sub, ← EReal.coe_sub,
    sub_add_eq_sub_sub]

end Cert.Spec

end
-- ==== Proof.KOut.lean ====
/-
  The kernel program's run, read as a value.  The region writes its 4096 × 1 output back once, after the last grid
  point, and that block is the whole array; by the induction over the points row r of it is the online recurrence's
  label maximum - (maximum + log sum) after all 125 chunks, which for real logits and a label that is a class is the
  label's log-probability.  The host operations after the region then reshape it to 8 × 512 and build the loss.
-/
import proofs.«178825_j46720654246580_1_alg».proof.Proof.KInv
import proofs.«178825_j46720654246580_1_alg».proof.Proof.SpecLaws
import Idealize.ShloMosaic.Lib.Pipeline.Value
import Idealize.ShloMosaic.Lib.StableHlo.Run
import Idealize.ShloMosaic.Lib.Tactic

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- What the precondition gives on core c: the float arguments are real numbers and every label is a class. -/
structure Good (c : Dev nD) : Prop where
  hW : ∀ i, ∃ y : ℝ, Wm m c i = (y : EReal)
  hX : ∀ i, ∃ y : ℝ, Xm m c i = (y : EReal)
  hB : ∀ i, ∃ y : ℝ, Bm m c i = (y : EReal)
  hL : ∀ (b : Fin 8) (t : Fin 512), (Cert.Spec.label (Tm m c) b t).toNat < 32000

/-- The last grid point. -/
abbrev tLast : Fin cfg0.N := ⟨124, by rw [show cfg0.N = 125 from N_0]; decide⟩

/-- The output array the region leaves: row r holds token (r / 512, r % 512)'s log-probability of its label. -/
def outArr (c : Dev nD) : FVec Ideal S4096x1 .f32 := fun i =>
  Cert.Spec.logpAt (Wm m c) (Xm m c) (Tm m c) (Bm m c) (tokB ⟨(i 0).val, idx2_lt0 i⟩) (tokT ⟨(i 0).val, idx2_lt0 i⟩)

/-- The same, as contents of the output's buffer. -/
abbrev outBuf (c : Dev nD) : Buf (Elt Ideal) ((c : Thread nD τ).loc main_v6) := outArr m c

/-- After the last point the output column holds every token's log-probability. -/
theorem outsAt_last (c : Dev nD) (hg : Good m c) : (outsAt0 m c tLast.val tLast.isLt).1 = outArr m c := by
  funext i
  obtain ⟨r, u, rfl⟩ : ∃ (r : Fin 4096) (u : Fin 1), i = ix2 r u := ⟨i 0, i 1, eq_ix2 i⟩
  obtain rfl : u = 0 := Subsingleton.elim _ _
  rw [out_last m c tLast.isLt r,
    Cert.Spec.stateRow_final (xrow m c r) (fun j => Cert.Spec.logit_real _ _ _ hg.hW hg.hX hg.hB _ _ j) (lab m c r) (hg.hL _ _)]
  rfl

theorem hzLast : (fun a => win0_4.index tLast a * main_v6.ty.shape.size a) = fun _ => 0 :=
  funext fun a => by fin_cases a <;> decide

/-- The one write-back, after the last point, writes that column: its block is the whole array. -/
theorem flushed_eq (c : Dev nD) (hg : Good m c) (t : Fin cfg0.N) (hf : (cfg0.win 4).flush t = true) :
    (dats m 0 c).flushed 4 t = ((cfg0.win 4).blk t).view.read (Elt Ideal) (outBuf m c) := by
  have hN : cfg0.N = 125 := N_0
  have h124 : t.val = 124 := by have := (flush0_4 t).mp hf; have := t.isLt; omega
  obtain rfl : t = tLast := Fin.ext h124
  show (cfg0.win 4).cut (grid0.coords tLast) ((dats m 0 c).after 4 tLast) = _
  rw [after0_4, outsAt_last m c hg]
  exact (Memref.read_access_unit_zero (Elt Ideal) main_v6 hzLast (fun a => by rw [congrFun hzLast a]; simp) (outBuf m c)).symm

/-- So the output array ends holding every token's log-probability. -/
theorem final_o (c : Dev nD) (hg : Good m c) : (dats m 0 c).arrAt 4 cfg0.N = outBuf m c :=
  (dats m 0 c).arrAt_eq_of_cover 4 (outBuf m c) (flushed_eq m c hg) fun i =>
    ⟨tLast, (flush0_4 tLast).mpr rfl, by
      show i ∈ ((View.whole main_v6).slice (win0_4.rect tLast)).set
      rw [View.set_slice_whole, Rect.mem_set_unit]
      intro a
      have h0 : (i 0 : Nat) < 4096 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 4096 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- The 4096 × 1 column reshaped to 8 × 512 is the array of the tokens' log-probabilities. -/
theorem reshape_out (c : Dev nD) :
    shapeCast S8x512 (outArr m c) Cert.KernelIdeal.Facts₀.shapeCasts_S4096x1_S8x512
      = Cert.Spec.logpArr (Wm m c) (Xm m c) (Tm m c) (Bm m c) := by
  funext i
  obtain ⟨b, t, rfl⟩ : ∃ (b : Fin 8) (t : Fin 512), i = ix2 b t := ⟨i 0, i 1, eq_ix2 i⟩
  have hb := b.isLt
  have ht := t.isLt
  rw [shapeCast_apply (outArr m c) _ (ix2 b t) (ix2 (⟨512 * b.val + t.val, by omega⟩ : Fin 4096) (0 : Fin 1)) (by
    rw [Shape.rowMajor_val_two, Shape.rowMajor_val_two]
    show (512 * b.val + t.val) * 1 + 0 = b.val * 512 + t.val
    omega)]
  rw [Cert.Spec.logpArr_ix2]
  unfold outArr
  have e1 : tokB ⟨512 * b.val + t.val, by omega⟩ = b := Fin.ext (by show (512 * b.val + t.val) / 512 = b.val; omega)
  have e2 : tokT ⟨512 * b.val + t.val, by omega⟩ = t := Fin.ext (by show (512 * b.val + t.val) % 512 = t.val; omega)
  exact congrArg₂ (Cert.Spec.logpAt (Wm m c) (Xm m c) (Tm m c) (Bm m c)) e1 e2

/-- The mask, computed before the region, as the region and the lines after it find it. -/
theorem V_main_v3 (c : Dev nD) : (V m c main_v3 : IVec S8x512 1) = Hand.maskI (Tm m c) := by
  dsimp only [Gen.V, Gen.V0]
  simp only [Gen.hostOps0, Gen.hostOps0_1, Gen.hostOps0_2, List.flatten_cons, List.flatten_nil, List.append_nil, List.cons_append,
    List.nil_append]
  after_results
  rfl

set_option maxHeartbeats 1600000 in
/-- The lines after the region build the loss from the output array and the mask. -/
theorem tail_out (c : Dev nD) :
    Pipeline.afterTail₀ cfgs (dats m) 0 (V0 m) [hostOps1, hostOps1_1, hostOps1_2] c main_v28
      = Hand.kernelOut (F := Ideal) ((dats m 0 c).arrAt 4 cfg0.N) (Tm m c) := by
  have e6 : Pipeline.withArrays spec0 c (V0 m c) (fun w => (dats m 0 c).arrAt w cfg0.N) (Proc.devRef .tc main_v6)
      = (dats m 0 c).arrAt 4 cfg0.N := Pipeline.withArrays_arr spec0 launch0.win.arr_inj c _ _ 4
  have e3 : Pipeline.withArrays spec0 c (V0 m c) (fun w => (dats m 0 c).arrAt w cfg0.N) (Proc.devRef .tc main_v3)
      = Hand.maskI (Tm m c) :=
    (Pipeline.withArrays_of_ne _ c (V0 m c) _ main_v3 (by exact (by decide : ∀ w, Pipeline.arrRef spec0 w ≠ main_v3))).trans
      (V_main_v3 m c)
  unfold Pipeline.afterTail₀
  simp only [Gen.hostOps1, Gen.hostOps1_1, Gen.hostOps1_2, List.flatten_cons, List.flatten_nil, List.append_nil, List.cons_append,
    List.nil_append]
  after_results_simp
  rw [e6, e3]
  rfl

/-- The run, read: the result at the loss of the tokens' log-probabilities, the arguments unchanged. -/
theorem run (hg : ∀ c, Good m c) :
    θ_run defs (onTc (τ := τ) (main (F := Ideal))) ⟨m, fun _ => 0, ρ⟩ fun r => ∀ c : Dev nD,
      r.2.mem ((c.tc : Thread nD τ).loc main_v28)
          = Hand.tailK (F := Ideal) (Cert.Spec.logpArr (Wm m c) (Xm m c) (Tm m c) (Bm m c)) (Tm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v28 (Pipeline.mem_restRefs_of main_v28 (by decide) (by decide))).trans
        ((tail_out m c).trans (by
          unfold Hand.kernelOut
          rw [final_o m c (hg c)]
          exact congrArg (fun P => Hand.tailK (F := Ideal) P (Tm m c)) (reshape_out m c))),
      ((h c).1 1).trans (((dats m 0 c).arrAt_in 1 rfl _).trans ((A_eq m c 1).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c)))⟩)
    (run_main m ρ)

end Cert.KernelIdeal.KValue

end
-- ==== Proof.RTerm.lean ====
/-
  The reference's host operations as pure functions of its four arguments: the logits, their log-softmax,
  the labels, the log-probability gathered at each token's label, and the loss built from the masked
  log-probabilities and the counts of unmasked tokens.
-/
import proofs.«178825_j46720654246580_1_alg».proof.Proof.Gen.ReferenceIdeal

noncomputable section

namespace Cert.ReferenceIdeal.Hand

open Idealize.ShloMosaic Cert.ReferenceIdeal Cert.ReferenceIdeal.Facts₀

variable {F : FTy → Type} [FloatOps F]

/-- Every token's logits: X against the rows of W, plus the bias broadcast over the tokens. -/
def logits (W : FVec F S32000x2048 .f32) (X : FVec F S8x512x2048 .f32) (B : FVec F S32000 .f32) : FVec F S8x512x32000 .f32 :=
  addf (Host.dotGeneral dot_S8x512x2048_S32000x2048_S8x512x32000_2_1_01_0_n_n none X W)
    (broadcastInDim S8x512x32000 ![0, 1, 2] bcast_S1x1x32000_S8x512x32000_0_1_2
      (broadcastInDim S1x1x32000 ![2] bcast_S32000_S1x1x32000_2 B))

/-- The logits minus each token's largest logit. -/
def shifted (z : FVec F S8x512x32000 .f32) : FVec F S8x512x32000 .f32 :=
  subf z (broadcastInDim S8x512x32000 ![0, 1, 2] bcast_S8x512x1_S8x512x32000_0_1_2
    (broadcastInDim S8x512x1 ![0, 1] bcast_S8x512_S8x512x1_0_1
      (maximumf (broadcastInDim S8x512 ![] bcast_S_S8x512 (constant S_ .f32 0xFF800000#32))
        (Host.reduce FloatOps.maximumf z (constant S_ .f32 0xFF800000#32) reducesTo_S8x512x32000_S8x512_d2 h_S_))))

/-- The log-softmax over the classes: the shifted logits minus the log of the sum of their exponentials. -/
def logSoftmax (z : FVec F S8x512x32000 .f32) : FVec F S8x512x32000 .f32 :=
  subf (shifted z) (broadcastInDim S8x512x32000 ![0, 1, 2] bcast_S8x512x1_S8x512x32000_0_1_2
    (Host.log (broadcastInDim S8x512x1 ![0, 1] bcast_S8x512_S8x512x1_0_1
      (Host.reduceAdd (Host.exp (shifted z)) (constant S_ .f32 0x00000000#32) reducesTo_S8x512x32000_S8x512_d2 h_S_))))

/-- Which targets are not the ignore index -100. -/
def maskI (T : IVec S8x512 32) : IVec S8x512 1 :=
  cmpi .ne T (broadcastInDim S8x512 ![] bcast_S_S8x512 (constantI S_ 32 4294967196#32))

/-- The labels: the target, or 0 where it is the ignore index. -/
def labels (T : IVec S8x512 32) : IVec S8x512 32 :=
  select (maskI T) T (broadcastInDim S8x512 ![] bcast_S_S8x512 (id (constantI S_ 32 0#32)))

/-- An index normalised as jnp does: a negative one has the axis length 32000 added; then one more unit axis. -/
def wrapIdx (idx : IVec S8x512x1 32) : IVec S8x512x1x1 32 :=
  shapeCast S8x512x1x1
    (select (cmpi .slt idx (broadcastInDim S8x512x1 ![] bcast_S_S8x512x1 (constantI S_ 32 0#32)))
      (addi idx (broadcastInDim S8x512x1 ![] bcast_S_S8x512x1 (constantI S_ 32 32000#32))) idx)
    shapeCasts_S8x512x1_S8x512x1x1

/-- jnp's take_along_axis over the classes: the entry at the normalised index where it lies in 0 … 31999, the fill word elsewhere. -/
def takeAlong (lp : FVec F S8x512x32000 .f32) (idx : IVec S8x512x1 32) : FVec F S8x512x1 .f32 :=
  select
    (Host.reduce IntOp.andi
      (andi (cmpi .sge (wrapIdx idx) (broadcastInDim S8x512x1x1 ![] bcast_S_S8x512x1x1 (constantI S_ 32 0#32)))
        (cmpi .sle (wrapIdx idx) (broadcastInDim S8x512x1x1 ![0, 1, 2, 3] bcast_S1x1x1x1_S8x512x1x1_0_1_2_3
          (broadcastInDim S1x1x1x1 ![3] bcast_S1_S1x1x1x1_3 (constantI S1 32 31999#32)))))
      (constantI S_ 1 1#1) reducesTo_S8x512x1x1_S8x512x1_d3 h_S_)
    (Host.gather gather_S8x512x32000_S8x512x1x1_S8x512x1_n_2_01_01_2_3_111 lp (wrapIdx idx))
    (broadcastInDim S8x512x1 ![] bcast_S_S8x512x1 (constant S_ .f32 0x7FC00000#32))

/-- Every token's log-probability of its label. -/
def refTok (W : FVec F S32000x2048 .f32) (X : FVec F S8x512x2048 .f32) (T : IVec S8x512 32) (B : FVec F S32000 .f32) : FVec F S8x512 .f32 :=
  shapeCast S8x512
    (takeAlong (logSoftmax (logits W X B)) (broadcastInDim S8x512x1 ![0, 1] bcast_S8x512_S8x512x1_0_1 (labels T)))
    shapeCasts_S8x512x1_S8x512

/-- jax's softplus on four values: max(a, 0) + log1p(exp(-|a - 0|)), with its test of a - 0 against itself. -/
def softplus4 (a : FVec F S4 .f32) : FVec F S4 .f32 :=
  select (cmpf .une (subf a (broadcastInDim S4 ![] bcast_S_S4 (constant S_ .f32 0x00000000#32)))
      (subf a (broadcastInDim S4 ![] bcast_S_S4 (constant S_ .f32 0x00000000#32))))
    (addf a (broadcastInDim S4 ![] bcast_S_S4 (constant S_ .f32 0x00000000#32)))
    (addf (maximumf a (broadcastInDim S4 ![] bcast_S_S4 (constant S_ .f32 0x00000000#32)))
      (Host.log1p (Host.exp (Host.negf (Host.absf (subf a (broadcastInDim S4 ![] bcast_S_S4 (constant S_ .f32 0x00000000#32))))))))

/-- The per-sequence averages: the masked log-probabilities summed over each sequence, over that sequence's count. -/
def avg (pm : FVec F S8x512 .f32) (c8 : FVec F S8 .f32) : FVec F S8 .f32 :=
  Host.divf (Host.reduceAdd pm (constant S_ .f32 0x00000000#32) reducesTo_S8x512_S8_d1 h_S_) c8

/-- The loss from the masked log-probabilities pm, the per-sequence counts c8 and the chosen half's count c0:
    the mean over the four pairs of -log_sigmoid(0.1 (chosen average - rejected average)), plus the chosen half's
    negated sum over its count. -/
def lossOf (pm : FVec F S8x512 .f32) (c8 : FVec F S8 .f32) (c0 : FVec F S_ .f32) : FVec F S_ .f32 :=
  addf
    (Host.divf
      (Host.reduceAdd
        (Host.negf (Host.negf (softplus4 (Host.negf
          (mulf (broadcastInDim S4 ![] bcast_S_S4 (constant S_ .f32 0x3DCCCCCD#32))
            (subf (extractStridedSlice S4 ![0] (avg pm c8) slices_S8_S4_0) (extractStridedSlice S4 ![4] (avg pm c8) slices_S8_S4_4)))))))
        (constant S_ .f32 0x00000000#32) reducesTo_S4_S_d0 h_S_)
      (constant S_ .f32 0x40800000#32))
    (Host.divf
      (Host.negf (Host.reduceAdd (extractStridedSlice S4x512 ![0, 0] pm slices_S8x512_S4x512_0_0)
        (constant S_ .f32 0x00000000#32) reducesTo_S4x512_S_d0_1 h_S_))
      c0)

/-- The reference's result from the per-token log-probabilities P and the targets: the counts are integer sums of the
    widened mask, converted. -/
def tailR (P : FVec F S8x512 .f32) (T : IVec S8x512 32) : FVec F S_ .f32 :=
  lossOf (mulf P (uitofp .f32 (maskI T)))
    (sitofp .f32 (Host.reduce IntOp.addi (extui 32 (maskI T) natLt_1_32) (constantI S_ 32 0#32) reducesTo_S8x512_S8_d1 h_S_))
    (sitofp .f32 (Host.reduce IntOp.addi (extui 32 (extractStridedSlice S4x512 ![0, 0] (maskI T) slices_S8x512_S4x512_0_0) natLt_1_32)
      (constantI S_ 32 0#32) reducesTo_S4x512_S_d0_1 h_S_))

/-- The reference's result as one function of its arguments. -/
def refOut (W : FVec F S32000x2048 .f32) (X : FVec F S8x512x2048 .f32) (T : IVec S8x512 32) (B : FVec F S32000 .f32) : FVec F S_ .f32 :=
  tailR (refTok W X T B) T

end Cert.ReferenceIdeal.Hand

end
-- ==== Proof.RefRun.lean ====
/-
  The reference program's run: its @main is a straight line of host operations (the outlined functions unfolded at
  their calls), so every weakly fair execution terminates with the result buffer at the operations' composed
  function of the four arguments and the arguments unchanged.
-/
import proofs.«178825_j46720654246580_1_alg».proof.Proof.RTerm
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- The first stretch of @main, nineteen operations: the logits (the contraction, the bias broadcast twice, the sum) and
    @log_softmax's fifteen over the buffers of its call (the row maximum against minus infinity, its two broadcasts, the
    shift, the exponentials, their row sum, its broadcast, logarithm and broadcast, the difference). -/
abbrev ops1 : List (HloOp τ sig (Elt F)) :=
  [ binary main_arg1 main_arg0 main_v0 ((fun l r => Host.dotGeneral dot_S8x512x2048_S32000x2048_S8x512x32000_2_1_01_0_n_n none l r) : (⟨S8x512x2048, .f32⟩ : BufTy).Contents (Elt F) → (⟨S32000x2048, .f32⟩ : BufTy).Contents (Elt F) → (⟨S8x512x32000, .f32⟩ : BufTy).Contents (Elt F)),
    unary main_arg3 main_v1 (broadcastInDim S1x1x32000 ![2] bcast_S32000_S1x1x32000_2 : (⟨S32000, .f32⟩ : BufTy).Contents (Elt F) → (⟨S1x1x32000, .f32⟩ : BufTy).Contents (Elt F)),
    unary main_v1 main_v2 (broadcastInDim S8x512x32000 ![0, 1, 2] bcast_S1x1x32000_S8x512x32000_0_1_2 : (⟨S1x1x32000, .f32⟩ : BufTy).Contents (Elt F) → (⟨S8x512x32000, .f32⟩ : BufTy).Contents (Elt F)),
    binary main_v0 main_v2 main_v3 (addf : (⟨S8x512x32000, .f32⟩ : BufTy).Contents (Elt F) → (⟨S8x512x32000, .f32⟩ : BufTy).Contents (Elt F) → (⟨S8x512x32000, .f32⟩ : BufTy).Contents (Elt F)),
    TRef.nullary main_call0.cst (constant S_ .f32 0xFF800000#32),
    TRef.binary (TRef.of main_v3 : TRef sig ⟨S8x512x32000, .f32⟩) main_call0.cst main_call0.v0 (fun x v => Host.reduce FloatOps.maximumf x v reducesTo_S8x512x32000_S8x512_d2 h_S_),
    TRef.nullary main_call0.cst_0 (constant S_ .f32 0xFF800000#32),
    TRef.unary main_call0.cst_0 main_call0.v1 (broadcastInDim S8x512 ![] bcast_S_S8x512),
    TRef.binary main_call0.v1 main_call0.v0 main_call0.v2 maximumf,
    TRef.unary main_call0.v2 main_call0.v3 (broadcastInDim S8x512x1 ![0, 1] bcast_S8x512_S8x512x1_0_1),
    TRef.unary main_call0.v3 main_call0.v4 (broadcastInDim S8x512x32000 ![0, 1, 2] bcast_S8x512x1_S8x512x32000_0_1_2),
    TRef.binary (TRef.of main_v3 : TRef sig ⟨S8x512x32000, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S8x512x32000_S8x512_d2 h_S_),
    TRef.unary main_call0.v7 main_call0.v8 (broadcastInDim S8x512x1 ![0, 1] bcast_S8x512_S8x512x1_0_1),
    TRef.unary main_call0.v8 main_call0.v9 Host.log,
    TRef.unary main_call0.v9 main_call0.v10 (broadcastInDim S8x512x32000 ![0, 1, 2] bcast_S8x512x1_S8x512x32000_0_1_2),
    TRef.binary main_call0.v5 main_call0.v10 main_call0.v11 subf ]

/-- The second stretch, thirty-one operations: the mask of targets that are not -100, @_where's three (the zero
    converted to its own type, broadcast, the select), the labels given a unit axis, @take_along_axis's twenty-two over
    its call's buffers (the index normalised and reshaped, the two range tests and their conjunction reduced over the
    unit axis, the gather, the fill word broadcast, the select) and the reshape back to one value per token. -/
abbrev ops2 : List (HloOp τ sig (Elt F)) :=
  [ nullary main_c (constantI S_ 32 4294967196#32),
    unary main_c main_v5 (broadcastInDim S8x512 ![] bcast_S_S8x512 : (⟨S_, .i32⟩ : BufTy).Contents (Elt F) → (⟨S8x512, .i32⟩ : BufTy).Contents (Elt F)),
    binary main_arg2 main_v5 main_v6 (cmpi .ne : (⟨S8x512, .i32⟩ : BufTy).Contents (Elt F) → (⟨S8x512, .i32⟩ : BufTy).Contents (Elt F) → (⟨S8x512, .i1⟩ : BufTy).Contents (Elt F)),
    nullary main_c_0 (constantI S_ 32 0#32),
    TRef.unary (TRef.of main_c_0 : TRef sig ⟨S_, .i32⟩) main_call1.v0 id,
    TRef.unary main_call1.v0 main_call1.v1 (broadcastInDim S8x512 ![] bcast_S_S8x512),
    TRef.ternary (TRef.of main_v6 : TRef sig ⟨S8x512, .i1⟩) (TRef.of main_arg2 : TRef sig ⟨S8x512, .i32⟩) main_call1.v1 main_call1.v2 select,
    unary main_v7 main_v8 (broadcastInDim S8x512x1 ![0, 1] bcast_S8x512_S8x512x1_0_1 : (⟨S8x512, .i32⟩ : BufTy).Contents (Elt F) → (⟨S8x512x1, .i32⟩ : BufTy).Contents (Elt F)),
    TRef.nullary main_call2.c (constantI S_ 32 0#32),
    TRef.unary main_call2.c main_call2.v0 (broadcastInDim S8x512x1 ![] bcast_S_S8x512x1),
    TRef.binary (TRef.of main_v8 : TRef sig ⟨S8x512x1, .i32⟩) main_call2.v0 main_call2.v1 (cmpi .slt),
    TRef.nullary main_call2.c_0 (constantI S_ 32 32000#32),
    TRef.unary main_call2.c_0 main_call2.v2 (broadcastInDim S8x512x1 ![] bcast_S_S8x512x1),
    TRef.binary (TRef.of main_v8 : TRef sig ⟨S8x512x1, .i32⟩) main_call2.v2 main_call2.v3 addi,
    TRef.ternary main_call2.v1 main_call2.v3 (TRef.of main_v8 : TRef sig ⟨S8x512x1, .i32⟩) main_call2.v4 select,
    TRef.reshape main_call2.v4 main_call2.v5 rfl shapeCasts_S8x512x1_S8x512x1x1,
    TRef.nullary main_call2.c_1 (constantI S1 32 31999#32),
    TRef.nullary main_call2.c_2 (constantI S_ 32 0#32),
    TRef.unary main_call2.c_2 main_call2.v6 (broadcastInDim S8x512x1x1 ![] bcast_S_S8x512x1x1),
    TRef.binary main_call2.v5 main_call2.v6 main_call2.v7 (cmpi .sge),
    TRef.unary main_call2.c_1 main_call2.v8 (broadcastInDim S1x1x1x1 ![3] bcast_S1_S1x1x1x1_3),
    TRef.unary main_call2.v8 main_call2.v9 (broadcastInDim S8x512x1x1 ![0, 1, 2, 3] bcast_S1x1x1x1_S8x512x1x1_0_1_2_3),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S8x512x1x1_S8x512x1_d3 h_S_),
    TRef.binary (TRef.of main_v4 : TRef sig ⟨S8x512x32000, .f32⟩) main_call2.v5 main_call2.v13 (fun x i => Host.gather gather_S8x512x32000_S8x512x1x1_S8x512x1_n_2_01_01_2_3_111 x i),
    TRef.nullary main_call2.cst (constant S_ .f32 0x7FC00000#32),
    TRef.unary main_call2.cst main_call2.v14 (broadcastInDim S8x512x1 ![] bcast_S_S8x512x1),
    TRef.ternary main_call2.v12 main_call2.v13 main_call2.v14 main_call2.v15 select,
    reshape main_v9 main_v10 rfl shapeCasts_S8x512x1_S8x512 ]

/-- The third stretch, forty-seven operations: the masked log-probabilities, their sums over each sequence and the
    counts, the averages, the scaled difference of the two halves, @log_sigmoid's sixteen (the negation, @softplus's
    fourteen over the nested call's buffers, the negation), the mean over the four pairs, the first half's negated
    sum over its count, and their sum. -/
abbrev ops3 : List (HloOp τ sig (Elt F)) :=
  [ unary main_v6 main_v11 (uitofp .f32 : (⟨S8x512, .i1⟩ : BufTy).Contents (Elt F) → (⟨S8x512, .f32⟩ : BufTy).Contents (Elt F)),
    binary main_v10 main_v11 main_v12 (mulf : (⟨S8x512, .f32⟩ : BufTy).Contents (Elt F) → (⟨S8x512, .f32⟩ : BufTy).Contents (Elt F) → (⟨S8x512, .f32⟩ : BufTy).Contents (Elt F)),
    nullary main_cst (constant S_ .f32 0x00000000#32),
    binary main_v12 main_cst main_v13 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    unary main_v6 main_v14 ((extui 32 · natLt_1_32) : (⟨S8x512, .i1⟩ : BufTy).Contents (Elt F) → (⟨S8x512, .i32⟩ : BufTy).Contents (Elt F)),
    nullary main_c_1 (constantI S_ 32 0#32),
    binary main_v14 main_c_1 main_v15 ((fun x v => Host.reduce IntOp.addi x v reducesTo_S8x512_S8_d1 h_S_) : (⟨S8x512, .i32⟩ : BufTy).Contents (Elt F) → (⟨S_, .i32⟩ : BufTy).Contents (Elt F) → (⟨S8, .i32⟩ : BufTy).Contents (Elt F)),
    unary main_v15 main_v16 (sitofp .f32 : (⟨S8, .i32⟩ : BufTy).Contents (Elt F) → (⟨S8, .f32⟩ : BufTy).Contents (Elt F)),
    binary main_v13 main_v16 main_v17 (Host.divf : (⟨S8, .f32⟩ : BufTy).Contents (Elt F) → (⟨S8, .f32⟩ : BufTy).Contents (Elt F) → (⟨S8, .f32⟩ : BufTy).Contents (Elt F)),
    unary main_v17 main_v18 ((extractStridedSlice S4 ![0] · slices_S8_S4_0) : (⟨S8, .f32⟩ : BufTy).Contents (Elt F) → (⟨S4, .f32⟩ : BufTy).Contents (Elt F)),
    unary main_v17 main_v19 ((extractStridedSlice S4 ![4] · slices_S8_S4_4) : (⟨S8, .f32⟩ : BufTy).Contents (Elt F) → (⟨S4, .f32⟩ : BufTy).Contents (Elt F)),
    binary main_v18 main_v19 main_v20 (subf : (⟨S4, .f32⟩ : BufTy).Contents (Elt F) → (⟨S4, .f32⟩ : BufTy).Contents (Elt F) → (⟨S4, .f32⟩ : BufTy).Contents (Elt F)),
    nullary main_cst_2 (constant S_ .f32 0x3DCCCCCD#32),
    unary main_cst_2 main_v21 (broadcastInDim S4 ![] bcast_S_S4 : (⟨S_, .f32⟩ : BufTy).Contents (Elt F) → (⟨S4, .f32⟩ : BufTy).Contents (Elt F)),
    binary main_v21 main_v20 main_v22 (mulf : (⟨S4, .f32⟩ : BufTy).Contents (Elt F) → (⟨S4, .f32⟩ : BufTy).Contents (Elt F) → (⟨S4, .f32⟩ : BufTy).Contents (Elt F)),
    TRef.unary (TRef.of main_v22 : TRef sig ⟨S4, .f32⟩) main_call3.v0 Host.negf,
    TRef.nullary main_call3.call0.cst (constant S_ .f32 0x00000000#32),
    TRef.unary main_call3.call0.cst main_call3.call0.v0 (broadcastInDim S4 ![] bcast_S_S4),
    TRef.binary main_call3.v0 main_call3.call0.v0 main_call3.call0.v1 maximumf,
    TRef.unary main_call3.call0.cst main_call3.call0.v2 (broadcastInDim S4 ![] bcast_S_S4),
    TRef.binary main_call3.v0 main_call3.call0.v2 main_call3.call0.v3 subf,
    TRef.binary main_call3.call0.v3 main_call3.call0.v3 main_call3.call0.v4 (cmpf .une),
    TRef.unary main_call3.call0.cst main_call3.call0.v5 (broadcastInDim S4 ![] bcast_S_S4),
    TRef.binary main_call3.v0 main_call3.call0.v5 main_call3.call0.v6 addf,
    TRef.unary main_call3.call0.v3 main_call3.call0.v7 Host.absf,
    TRef.unary main_call3.call0.v7 main_call3.call0.v8 Host.negf,
    TRef.unary main_call3.call0.v8 main_call3.call0.v9 Host.exp,
    TRef.unary main_call3.call0.v9 main_call3.call0.v10 Host.log1p,
    TRef.binary main_call3.call0.v1 main_call3.call0.v10 main_call3.call0.v11 addf,
    TRef.ternary main_call3.call0.v4 main_call3.call0.v6 main_call3.call0.v11 main_call3.call0.v12 select,
    TRef.unary main_call3.call0.v12 main_call3.v2 Host.negf,
    unary main_v23 main_v24 (Host.negf : (⟨S4, .f32⟩ : BufTy).Contents (Elt F) → (⟨S4, .f32⟩ : BufTy).Contents (Elt F)),
    nullary main_cst_3 (constant S_ .f32 0x00000000#32),
    binary main_v24 main_cst_3 main_v25 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_4 (constant S_ .f32 0x40800000#32),
    binary main_v25 main_cst_4 main_v26 (Host.divf : (⟨S_, .f32⟩ : BufTy).Contents (Elt F) → (⟨S_, .f32⟩ : BufTy).Contents (Elt F) → (⟨S_, .f32⟩ : BufTy).Contents (Elt F)),
    unary main_v12 main_v27 ((extractStridedSlice S4x512 ![0, 0] · slices_S8x512_S4x512_0_0) : (⟨S8x512, .f32⟩ : BufTy).Contents (Elt F) → (⟨S4x512, .f32⟩ : BufTy).Contents (Elt F)),
    nullary main_cst_5 (constant S_ .f32 0x00000000#32),
    binary main_v27 main_cst_5 main_v28 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    unary main_v28 main_v29 (Host.negf : (⟨S_, .f32⟩ : BufTy).Contents (Elt F) → (⟨S_, .f32⟩ : BufTy).Contents (Elt F)),
    unary main_v6 main_v30 ((extractStridedSlice S4x512 ![0, 0] · slices_S8x512_S4x512_0_0) : (⟨S8x512, .i1⟩ : BufTy).Contents (Elt F) → (⟨S4x512, .i1⟩ : BufTy).Contents (Elt F)),
    unary main_v30 main_v31 ((extui 32 · natLt_1_32) : (⟨S4x512, .i1⟩ : BufTy).Contents (Elt F) → (⟨S4x512, .i32⟩ : BufTy).Contents (Elt F)),
    nullary main_c_6 (constantI S_ 32 0#32),
    binary main_v31 main_c_6 main_v32 ((fun x v => Host.reduce IntOp.addi x v reducesTo_S4x512_S_d0_1 h_S_) : (⟨S4x512, .i32⟩ : BufTy).Contents (Elt F) → (⟨S_, .i32⟩ : BufTy).Contents (Elt F) → (⟨S_, .i32⟩ : BufTy).Contents (Elt F)),
    unary main_v32 main_v33 (sitofp .f32 : (⟨S_, .i32⟩ : BufTy).Contents (Elt F) → (⟨S_, .f32⟩ : BufTy).Contents (Elt F)),
    binary main_v29 main_v33 main_v34 (Host.divf : (⟨S_, .f32⟩ : BufTy).Contents (Elt F) → (⟨S_, .f32⟩ : BufTy).Contents (Elt F) → (⟨S_, .f32⟩ : BufTy).Contents (Elt F)),
    binary main_v26 main_v34 main_v35 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is that straight line: the three stretches run one after the other; with the functions' definitions unfolded at
    their calls and the records at their fields, both sides are one chain of steps once sequencing is reassociated. -/
theorem main_eq (c : Dev nD) : main (F := F) c = seq (ops1 ++ ops2 ++ ops3) := by
  rw [seq_append, seq_append, bind_assoc]
  simp only [main, fn_log_softmax.body, fn_where.body, fn_take_along_axis.body, fn_log_sigmoid.body, fn_softplus.body,
    bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the first stretch names TensorCore buffers only. -/
theorem ops1_sub : (ops1 : List (HloOp τ sig (Elt F))).Forall fun op => op.bufs ⊆ tcRefs τ sig :=
  ⟨binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., unary_bufs_sub ..,
    binary_bufs_sub ..⟩

/-- Every operation of the second stretch names TensorCore buffers only. -/
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., nullary_bufs_sub ..,
    unary_bufs_sub .., binary_bufs_sub .., ternary_bufs_sub .., reshape_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    reshape_bufs_sub ..⟩

/-- Every operation of the third stretch names TensorCore buffers only. -/
theorem ops3_sub : (ops3 : List (HloOp τ sig (Elt F))).Forall fun op => op.bufs ⊆ tcRefs τ sig :=
  ⟨unary_bufs_sub .., binary_bufs_sub .., nullary_bufs_sub .., binary_bufs_sub .., unary_bufs_sub .., nullary_bufs_sub ..,
    binary_bufs_sub .., unary_bufs_sub .., binary_bufs_sub .., unary_bufs_sub .., unary_bufs_sub .., binary_bufs_sub ..,
    nullary_bufs_sub .., unary_bufs_sub .., binary_bufs_sub .., unary_bufs_sub .., nullary_bufs_sub .., unary_bufs_sub ..,
    binary_bufs_sub .., unary_bufs_sub .., binary_bufs_sub .., binary_bufs_sub .., unary_bufs_sub .., binary_bufs_sub ..,
    unary_bufs_sub .., unary_bufs_sub .., unary_bufs_sub .., unary_bufs_sub .., binary_bufs_sub .., ternary_bufs_sub ..,
    unary_bufs_sub .., unary_bufs_sub .., nullary_bufs_sub .., binary_bufs_sub .., nullary_bufs_sub .., binary_bufs_sub ..,
    unary_bufs_sub .., nullary_bufs_sub .., binary_bufs_sub .., unary_bufs_sub .., unary_bufs_sub .., unary_bufs_sub ..,
    nullary_bufs_sub .., binary_bufs_sub .., unary_bufs_sub .., binary_bufs_sub .., binary_bufs_sub ..⟩

/-- So does every operation of the whole line. -/
theorem ops_sub : (ops1 ++ ops2 ++ ops3 : List (HloOp τ sig (Elt F))).Forall fun op => op.bufs ⊆ tcRefs τ sig := by
  refine List.forall_iff_forall_mem.2 fun op h => ?_
  rcases List.mem_append.1 h with h | h
  · rcases List.mem_append.1 h with h | h
    · exact List.forall_iff_forall_mem.1 ops1_sub op h
    · exact List.forall_iff_forall_mem.1 ops2_sub op h
  · exact List.forall_iff_forall_mem.1 ops3_sub op h

/-- Every operation of a stretch determines the buffers it writes: none is an allocation. -/
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h

/-- So does every operation of the whole line. -/
theorem ops_fresh : ∀ op ∈ (ops1 ++ ops2 ++ ops3 : List (HloOp τ sig (Elt F))), op.fresh = ∅ := by
  intro op h
  rcases List.mem_append.1 h with h | h
  · rcases List.mem_append.1 h with h | h
    · exact ops1_fresh op h
    · exact ops2_fresh op h
  · exact ops3_fresh op h

/-- The fold over two stretches run one after the other is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The first stretch, stage by stage

Each stage's result over an arbitrary valuation, the entries it consumes named: a variable and the equation saying the
valuation holds it there. -/

/-- The logits' four operations. -/
abbrev pA : List (HloOp τ sig (Elt F)) :=
  [ binary main_arg1 main_arg0 main_v0 ((fun l r => Host.dotGeneral dot_S8x512x2048_S32000x2048_S8x512x32000_2_1_01_0_n_n none l r) : (⟨S8x512x2048, .f32⟩ : BufTy).Contents (Elt F) → (⟨S32000x2048, .f32⟩ : BufTy).Contents (Elt F) → (⟨S8x512x32000, .f32⟩ : BufTy).Contents (Elt F)),
    unary main_arg3 main_v1 (broadcastInDim S1x1x32000 ![2] bcast_S32000_S1x1x32000_2 : (⟨S32000, .f32⟩ : BufTy).Contents (Elt F) → (⟨S1x1x32000, .f32⟩ : BufTy).Contents (Elt F)),
    unary main_v1 main_v2 (broadcastInDim S8x512x32000 ![0, 1, 2] bcast_S1x1x32000_S8x512x32000_0_1_2 : (⟨S1x1x32000, .f32⟩ : BufTy).Contents (Elt F) → (⟨S8x512x32000, .f32⟩ : BufTy).Contents (Elt F)),
    binary main_v0 main_v2 main_v3 (addf : (⟨S8x512x32000, .f32⟩ : BufTy).Contents (Elt F) → (⟨S8x512x32000, .f32⟩ : BufTy).Contents (Elt F) → (⟨S8x512x32000, .f32⟩ : BufTy).Contents (Elt F)) ]
/-- The row maximum's two: the initial value and the reduction. -/
abbrev pB : List (HloOp τ sig (Elt F)) :=
  [ TRef.nullary main_call0.cst (constant S_ .f32 0xFF800000#32),
    TRef.binary (TRef.of main_v3 : TRef sig ⟨S8x512x32000, .f32⟩) main_call0.cst main_call0.v0 (fun x v => Host.reduce FloatOps.maximumf x v reducesTo_S8x512x32000_S8x512_d2 h_S_) ]
/-- The shift's six: minus infinity broadcast, the maximum against it, its two broadcasts, the difference. -/
abbrev pC : List (HloOp τ sig (Elt F)) :=
  [ TRef.nullary main_call0.cst_0 (constant S_ .f32 0xFF800000#32),
    TRef.unary main_call0.cst_0 main_call0.v1 (broadcastInDim S8x512 ![] bcast_S_S8x512),
    TRef.binary main_call0.v1 main_call0.v0 main_call0.v2 maximumf,
    TRef.unary main_call0.v2 main_call0.v3 (broadcastInDim S8x512x1 ![0, 1] bcast_S8x512_S8x512x1_0_1),
    TRef.unary main_call0.v3 main_call0.v4 (broadcastInDim S8x512x32000 ![0, 1, 2] bcast_S8x512x1_S8x512x32000_0_1_2),
    TRef.binary (TRef.of main_v3 : TRef sig ⟨S8x512x32000, .f32⟩) main_call0.v4 main_call0.v5 subf ]
/-- The row sum's three: the exponentials, the initial value, the reduction. -/
abbrev pE : List (HloOp τ sig (Elt F)) :=
  [ TRef.unary main_call0.v5 main_call0.v6 Host.exp,
    TRef.nullary main_call0.cst_1 (constant S_ .f32 0x00000000#32),
    TRef.binary main_call0.v6 main_call0.cst_1 main_call0.v7 (fun x v => Host.reduceAdd x v reducesTo_S8x512x32000_S8x512_d2 h_S_) ]
/-- The last four: the sum's broadcast, its logarithm, the broadcast over the classes, the difference. -/
abbrev pF : List (HloOp τ sig (Elt F)) :=
  [ TRef.unary main_call0.v7 main_call0.v8 (broadcastInDim S8x512x1 ![0, 1] bcast_S8x512_S8x512x1_0_1),
    TRef.unary main_call0.v8 main_call0.v9 Host.log,
    TRef.unary main_call0.v9 main_call0.v10 (broadcastInDim S8x512x32000 ![0, 1, 2] bcast_S8x512x1_S8x512x32000_0_1_2),
    TRef.binary main_call0.v5 main_call0.v10 main_call0.v11 subf ]

/-- The first stretch is its five stages in order. -/
theorem ops1_split : (ops1 : List (HloOp τ sig (Elt F))) = pA ++ pB ++ pC ++ pE ++ pF := rfl

/-- The first stage leaves the logits of the three float arguments. -/
theorem tA (W : Valuation τ sig (Elt F)) :
    after pA W (main_v3 : DevRef τ sig)
      = Hand.logits (W (main_arg0 : DevRef τ sig)) (W (main_arg1 : DevRef τ sig)) (W (main_arg3 : DevRef τ sig)) := by
  after_results_simp
  unfold Hand.logits
  with_reducible rfl

/-- The second stage does not write the logits' buffer. -/
theorem tB_keep (W : Valuation τ sig (Elt F)) :
    after pB W (main_v3 : DevRef τ sig) = W (main_v3 : DevRef τ sig) := by
  after_results_simp

/-- The second stage leaves the maximum of each row of the logits against minus infinity's initial value. -/
theorem tB (W : Valuation τ sig (Elt F)) (z : FVec F S8x512x32000 .f32) (hz : W (main_v3 : DevRef τ sig) = z) :
    after pB W (main_call0_v0 : DevRef τ sig)
      = Host.reduce FloatOps.maximumf z (constant S_ .f32 0xFF800000#32) reducesTo_S8x512x32000_S8x512_d2 h_S_ := by
  subst hz
  after_results_simp
  simp only [TRef.ofBuf, TRef.toBuf, cast_eq]

/-- The third stage leaves the logits minus their row maximum, itself taken against minus infinity, broadcast back. -/
theorem tC (W : Valuation τ sig (Elt F)) (z : FVec F S8x512x32000 .f32) (r : FVec F S8x512 .f32)
    (hz : W (main_v3 : DevRef τ sig) = z) (hr : W (main_call0_v0 : DevRef τ sig) = r) :
    after pC W (main_call0_v5 : DevRef τ sig)
      = subf z (broadcastInDim S8x512x32000 ![0, 1, 2] bcast_S8x512x1_S8x512x32000_0_1_2
          (broadcastInDim S8x512x1 ![0, 1] bcast_S8x512_S8x512x1_0_1
            (maximumf (broadcastInDim S8x512 ![] bcast_S_S8x512 (constant S_ .f32 0xFF800000#32)) r))) := by
  subst hz hr
  after_results_simp
  simp only [TRef.ofBuf, TRef.toBuf, cast_eq]

/-- The fourth stage does not write the shifted logits' buffer. -/
theorem tE_keep (W : Valuation τ sig (Elt F)) :
    after pE W (main_call0_v5 : DevRef τ sig) = W (main_call0_v5 : DevRef τ sig) := by
  after_results_simp

/-- The fourth stage leaves each row's sum of the exponentials of the shifted logits. -/
theorem tE (W : Valuation τ sig (Elt F)) (s : FVec F S8x512x32000 .f32) (hs : W (main_call0_v5 : DevRef τ sig) = s) :
    after pE W (main_call0_v7 : DevRef τ sig)
      = Host.reduceAdd (Host.exp s) (constant S_ .f32 0x00000000#32) reducesTo_S8x512x32000_S8x512_d2 h_S_ := by
  subst hs
  after_results_simp
  simp only [TRef.ofBuf, TRef.toBuf, cast_eq]

/-- The fifth stage leaves the shifted logits minus the logarithm of their row sum, broadcast back. -/
theorem tF (W : Valuation τ sig (Elt F)) (s : FVec F S8x512x32000 .f32) (a : FVec F S8x512 .f32)
    (hs : W (main_call0_v5 : DevRef τ sig) = s) (ha : W (main_call0_v7 : DevRef τ sig) = a) :
    after pF W (main_v4 : DevRef τ sig)
      = subf s (broadcastInDim S8x512x32000 ![0, 1, 2] bcast_S8x512x1_S8x512x32000_0_1_2
          (Host.log (broadcastInDim S8x512x1 ![0, 1] bcast_S8x512_S8x512x1_0_1 a))) := by
  subst hs ha
  after_results_simp
  simp only [TRef.ofBuf, TRef.toBuf, cast_eq]

/-- After the first stretch the call's result buffer holds the log-softmax of the logits: the stages chained, each one's
    result the next one's named entry. -/
theorem c1_v4 (V : Valuation τ sig (Elt F)) :
    after ops1 V (main_v4 : DevRef τ sig)
      = Hand.logSoftmax (Hand.logits (V (main_arg0 : DevRef τ sig)) (V (main_arg1 : DevRef τ sig)) (V (main_arg3 : DevRef τ sig))) := by
  rw [ops1_split, after_app, after_app, after_app, after_app]
  unfold Hand.logSoftmax Hand.shifted
  have h3 := tA V
  generalize Hand.logits (V (main_arg0 : DevRef τ sig)) (V (main_arg1 : DevRef τ sig)) (V (main_arg3 : DevRef τ sig)) = L at h3 ⊢
  have h0 := tB (after pA V) L h3
  generalize Host.reduce FloatOps.maximumf L (constant S_ .f32 0xFF800000#32) reducesTo_S8x512x32000_S8x512_d2 h_S_ = r at h0 ⊢
  have h5 := tC (after pB (after pA V)) L r ((tB_keep _).trans h3) h0
  exact tF _ _ _ ((tE_keep _).trans h5) (tE _ _ h5)

/-- The first stretch does not write the targets' buffer. -/
theorem c1_arg2 (V : Valuation τ sig (Elt F)) :
    after ops1 V (main_arg2 : DevRef τ sig) = V (main_arg2 : DevRef τ sig) := by
  after_results_simp

/-! ## The second and third stretches -/

set_option maxRecDepth 8192 in
set_option maxHeartbeats 1600000 in
/-- After the second stretch the mask buffer holds the test of the targets against -100. -/
theorem c2_v6 (W : Valuation τ sig (Elt F)) :
    after ops2 W (main_v6 : DevRef τ sig) = Hand.maskI (W (main_arg2 : DevRef τ sig)) := by
  after_results_simp
  (try simp only [TRef.ofBuf, TRef.toBuf, cast_eq])
  unfold Hand.maskI
  with_reducible rfl

attribute [local irreducible] Host.reduce Host.gather shapeCast select cmpi addi andi broadcastInDim constantI constant in
set_option maxRecDepth 8192 in
set_option maxHeartbeats 1600000 in
/-- After the second stretch the reshaped buffer holds, per token, the entry of the first stretch's result gathered at
    the token's label, the fill word where the normalised label lies outside the classes. -/
theorem c2_v10 (W : Valuation τ sig (Elt F)) :
    after ops2 W (main_v10 : DevRef τ sig)
      = shapeCast S8x512 (Hand.takeAlong (W (main_v4 : DevRef τ sig))
          (broadcastInDim S8x512x1 ![0, 1] bcast_S8x512_S8x512x1_0_1 (Hand.labels (W (main_arg2 : DevRef τ sig))))) shapeCasts_S8x512x1_S8x512 := by
  after_results_simp
  (try simp only [TRef.ofBuf, TRef.toBuf, cast_eq])
  unfold Hand.takeAlong Hand.wrapIdx Hand.labels Hand.maskI
  rfl

set_option maxRecDepth 8192 in
set_option maxHeartbeats 1600000 in
/-- After the third stretch the result buffer holds the loss of the masked log-probabilities and the two counts. -/
theorem c3_v35 (W : Valuation τ sig (Elt F)) :
    after ops3 W (main_v35 : DevRef τ sig)
      = Hand.lossOf (mulf (W (main_v10 : DevRef τ sig)) (uitofp .f32 (W (main_v6 : DevRef τ sig))))
          (sitofp .f32 (Host.reduce IntOp.addi (extui 32 (W (main_v6 : DevRef τ sig)) natLt_1_32) (constantI S_ 32 0#32) reducesTo_S8x512_S8_d1 h_S_))
          (sitofp .f32 (Host.reduce IntOp.addi (extui 32 (extractStridedSlice S4x512 ![0, 0] (W (main_v6 : DevRef τ sig)) slices_S8x512_S4x512_0_0) natLt_1_32)
            (constantI S_ 32 0#32) reducesTo_S4x512_S_d0_1 h_S_)) := by
  after_results_simp
  simp only [TRef.ofBuf, TRef.toBuf, cast_eq]
  unfold Hand.lossOf Hand.avg Hand.softplus4
  with_reducible rfl

/-! ## The whole line -/

/-- The result buffer after the whole line is the reference's function of the four arguments: the three stretches'
    results substituted into one another. -/
theorem out_eq (V : Valuation τ sig (Elt F)) :
    after (ops1 ++ ops2 ++ ops3) V (main_v35 : DevRef τ sig)
      = Hand.refOut (V (main_arg0 : DevRef τ sig)) (V (main_arg1 : DevRef τ sig)) (V (main_arg2 : DevRef τ sig))
          (V (main_arg3 : DevRef τ sig)) := by
  rw [after_app, after_app, c3_v35, c2_v10, c2_v6, c1_v4, c1_arg2]
  unfold Hand.refOut Hand.tailR Hand.refTok
  with_reducible rfl

set_option maxRecDepth 8192 in
set_option maxHeartbeats 1600000 in
/-- No operation of the line writes an argument's buffer. -/
theorem args_eq (V : Valuation τ sig (Elt F)) :
    after (ops1 ++ ops2 ++ ops3) V (main_arg0 : DevRef τ sig) = V (main_arg0 : DevRef τ sig)
      ∧ after (ops1 ++ ops2 ++ ops3) V (main_arg1 : DevRef τ sig) = V (main_arg1 : DevRef τ sig)
      ∧ after (ops1 ++ ops2 ++ ops3) V (main_arg2 : DevRef τ sig) = V (main_arg2 : DevRef τ sig)
      ∧ after (ops1 ++ ops2 ++ ops3) V (main_arg3 : DevRef τ sig) = V (main_arg3 : DevRef τ sig) := by
  rw [after_app, after_app]
  refine ⟨?_, ?_, ?_, ?_⟩ <;> after_results_simp

/-- On every device, for any float values, from any memory with zero counters: every weakly fair execution of @main
    terminates with the result at the operations' composed function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
          = Hand.refOut (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v35).trans (out_eq (launchContents m c)),
        (h c main_arg0).trans (args_eq (launchContents m c)).1,
        (h c main_arg1).trans (args_eq (launchContents m c)).2.1,
        (h c main_arg2).trans (args_eq (launchContents m c)).2.2.1,
        (h c main_arg3).trans (args_eq (launchContents m c)).2.2.2⟩)
    (run_seq scopedRefs_eq scopedSems_eq defs main (fun _ => ops1 ++ ops2 ++ ops3) main_eq (fun _ => ops_sub) m ρ
      (fun _ => ops_fresh))

end Cert.ReferenceIdeal.RefRun

end
-- ==== Proof.RefValue.lean ====
/-
  The reference's per-token log-probability read at a token: for token (b, t) whose label is a class, the gathered
  entry of the log-softmax of the logits is  x lab - M - log (∑ j, exp (x j - M))  with x the token's logits and M
  their maximum.
-/
import proofs.«178825_j46720654246580_1_alg».proof.Proof.RTerm
import proofs.«178825_j46720654246580_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.ReferenceIdeal.RefValue

open Idealize.ShloMosaic Idealize.ShloMosaic.ValueIdx Cert.ReferenceIdeal

/-! ## The logits -/

theorem lhs_logits_0 (i : S8x512x32000.Idx) (q : dot_S8x512x2048_S32000x2048_S8x512x32000_2_1_01_0_n_n.contr.Idx) :
    (dot_S8x512x2048_S32000x2048_S8x512x32000_2_1_01_0_n_n.lhsIdx i q 0).val = (i 0).val := by
  unfold DotDims.lhsIdx
  rw [dif_neg (show ¬(0 : Fin S8x512x2048.rank) ∈ dot_S8x512x2048_S32000x2048_S8x512x32000_2_1_01_0_n_n.lhsBatch by decide),
    dif_pos (show (0 : Fin S8x512x2048.rank) ∈ dot_S8x512x2048_S32000x2048_S8x512x32000_2_1_01_0_n_n.lhsNonContracting by decide)]
  rfl

theorem lhs_logits_1 (i : S8x512x32000.Idx) (q : dot_S8x512x2048_S32000x2048_S8x512x32000_2_1_01_0_n_n.contr.Idx) :
    (dot_S8x512x2048_S32000x2048_S8x512x32000_2_1_01_0_n_n.lhsIdx i q 1).val = (i 1).val := by
  unfold DotDims.lhsIdx
  rw [dif_neg (show ¬(1 : Fin S8x512x2048.rank) ∈ dot_S8x512x2048_S32000x2048_S8x512x32000_2_1_01_0_n_n.lhsBatch by decide),
    dif_pos (show (1 : Fin S8x512x2048.rank) ∈ dot_S8x512x2048_S32000x2048_S8x512x32000_2_1_01_0_n_n.lhsNonContracting by decide)]
  rfl

theorem lhs_logits_2 (i : S8x512x32000.Idx) (q : dot_S8x512x2048_S32000x2048_S8x512x32000_2_1_01_0_n_n.contr.Idx) :
    (dot_S8x512x2048_S32000x2048_S8x512x32000_2_1_01_0_n_n.lhsIdx i q 2).val = (q ⟨0, by decide⟩).val :=
  dot_S8x512x2048_S32000x2048_S8x512x32000_2_1_01_0_n_n.lhsIdx_val_of_single rfl i q

theorem rhs_logits_0 (i : S8x512x32000.Idx) (q : dot_S8x512x2048_S32000x2048_S8x512x32000_2_1_01_0_n_n.contr.Idx) :
    (dot_S8x512x2048_S32000x2048_S8x512x32000_2_1_01_0_n_n.rhsIdx i q 0).val = (i 2).val := by
  unfold DotDims.rhsIdx
  rw [dif_neg (show ¬(0 : Fin S32000x2048.rank) ∈ dot_S8x512x2048_S32000x2048_S8x512x32000_2_1_01_0_n_n.rhsBatch by decide),
    dif_pos (show (0 : Fin S32000x2048.rank) ∈ dot_S8x512x2048_S32000x2048_S8x512x32000_2_1_01_0_n_n.rhsNonContracting by decide)]
  rfl

theorem rhs_logits_1 (i : S8x512x32000.Idx) (q : dot_S8x512x2048_S32000x2048_S8x512x32000_2_1_01_0_n_n.contr.Idx) :
    (dot_S8x512x2048_S32000x2048_S8x512x32000_2_1_01_0_n_n.rhsIdx i q 1).val = (q ⟨0, by decide⟩).val :=
  dot_S8x512x2048_S32000x2048_S8x512x32000_2_1_01_0_n_n.rhsIdx_val_of_single rfl i q

/-- The product of X and the rows of W at (b, t, j): the sum over the hidden axis. -/
theorem dot_apply (W : FVec Ideal S32000x2048 .f32) (X : FVec Ideal S8x512x2048 .f32) (b : Fin 8) (t : Fin 512) (j : Fin 32000) :
    Host.dotGeneral (F := Ideal) dot_S8x512x2048_S32000x2048_S8x512x32000_2_1_01_0_n_n none X W (ix3 b t j)
      = ∑ h : Fin 2048, X (ix3 b t h) * W (ix2 j h) := by
  simp only [Host.dotGeneral]
  rw [Ideal.dotGeneral_apply,
    ← Equiv.sum_comp (ValueIdx.contrEquiv1 dot_S8x512x2048_S32000x2048_S8x512x32000_2_1_01_0_n_n 2048 rfl rfl).symm]
  refine Finset.sum_congr rfl fun k _ => ?_
  have hk := ValueIdx.contrEquiv1_symm_val dot_S8x512x2048_S32000x2048_S8x512x32000_2_1_01_0_n_n 2048 rfl rfl k
  have el : dot_S8x512x2048_S32000x2048_S8x512x32000_2_1_01_0_n_n.lhsIdx (ix3 b t j)
      ((ValueIdx.contrEquiv1 dot_S8x512x2048_S32000x2048_S8x512x32000_2_1_01_0_n_n 2048 rfl rfl).symm k) = ix3 b t k :=
    funext fun a => Fin.ext (by
      match a with
      | ⟨0, _⟩ => exact lhs_logits_0 _ _
      | ⟨1, _⟩ => exact lhs_logits_1 _ _
      | ⟨2, _⟩ => exact (lhs_logits_2 _ _).trans hk)
  have er : dot_S8x512x2048_S32000x2048_S8x512x32000_2_1_01_0_n_n.rhsIdx (ix3 b t j)
      ((ValueIdx.contrEquiv1 dot_S8x512x2048_S32000x2048_S8x512x32000_2_1_01_0_n_n 2048 rfl rfl).symm k) = ix2 j k :=
    funext fun a => Fin.ext (by
      match a with
      | ⟨0, _⟩ => exact rhs_logits_0 _ _
      | ⟨1, _⟩ => exact (rhs_logits_1 _ _).trans hk)
  rw [el, er]

/-- The bias broadcast over the tokens, at (b, t, j), is the class's bias. -/
theorem bias_apply (B : FVec Ideal S32000 .f32) (b : Fin 8) (t : Fin 512) (j : Fin 32000) :
    broadcastInDim S8x512x32000 ![0, 1, 2] Facts₀.bcast_S1x1x32000_S8x512x32000_0_1_2
      (broadcastInDim S1x1x32000 ![2] Facts₀.bcast_S32000_S1x1x32000_2 B) (ix3 b t j) = B (ix1 j) := by
  rw [broadcastInDim_apply _ _ _ _ (ix3 (0 : Fin 1) (0 : Fin 1) j) (by
    intro a
    match a with
    | ⟨0, _⟩ => rfl
    | ⟨1, _⟩ => rfl
    | ⟨2, _⟩ => rfl)]
  rw [broadcastInDim_apply _ _ _ _ (ix1 j) (by
    intro a
    match a with
    | ⟨0, _⟩ => rfl)]

/-- The reference's logits at (b, t, j) are the specification's. -/
theorem logits_apply (W : FVec Ideal S32000x2048 .f32) (X : FVec Ideal S8x512x2048 .f32) (B : FVec Ideal S32000 .f32)
    (b : Fin 8) (t : Fin 512) (j : Fin 32000) :
    Hand.logits (F := Ideal) W X B (ix3 b t j) = Cert.Spec.logit W X B b t j := by
  unfold Hand.logits Cert.Spec.logit
  rw [addf_apply, dot_apply, bias_apply, zero_add]

/-! ## The log-softmax -/

/-- A per-token column laid along the classes reads, at (b, t, j), the column at (b, t, 0). -/
theorem bcast_col_apply {α : Type} (u : S8x512x1.Idx → α) (b : Fin 8) (t : Fin 512) (j : Fin 32000) :
    broadcastInDim S8x512x32000 ![0, 1, 2] Facts₀.bcast_S8x512x1_S8x512x32000_0_1_2 u (ix3 b t j) = u (ix3 b t (0 : Fin 1)) :=
  broadcastInDim_apply _ _ _ _ (ix3 b t (0 : Fin 1)) (by
    intro a
    match a with
    | ⟨0, _⟩ => rfl
    | ⟨1, _⟩ => rfl
    | ⟨2, _⟩ => rfl)

/-- A per-token array given a unit class axis reads, at (b, t, u), the array at (b, t). -/
theorem bcast_tok_apply {α : Type} (v : S8x512.Idx → α) (b : Fin 8) (t : Fin 512) (u : Fin 1) :
    broadcastInDim S8x512x1 ![0, 1] Facts₀.bcast_S8x512_S8x512x1_0_1 v (ix3 b t u) = v (ix2 b t) :=
  broadcastInDim_apply _ _ _ _ (ix2 b t) (by
    intro a
    match a with
    | ⟨0, _⟩ => rfl
    | ⟨1, _⟩ => rfl)

/-- The bit pattern of -∞ is the least extended real. -/
theorem ofBits_neg_inf : Ideal.ofBits .f32 0xFF800000#32 = ⊥ := by simp [Ideal.ofBits, Ideal.ieee]

/-- The index over token (b, t) with class k put on the reduced axis. -/
theorem lift_tok (h : S8x512x32000.Reduces [2] S8x512) (b : Fin 8) (t : Fin 512) (k : Fin 32000) :
    h.lift (ix2 b t) k = ix3 b t k :=
  funext fun a => Fin.ext (by
    match a with
    | ⟨0, _⟩ => rfl
    | ⟨1, _⟩ => rfl
    | ⟨2, _⟩ => rfl)

/-- The maximum over the classes from -∞, at token (b, t), is the fold of max over the token's row. -/
theorem rowmax_apply (z : FVec Ideal S8x512x32000 .f32) (b : Fin 8) (t : Fin 512) :
    Host.reduce (FloatOps.maximumf (F := Ideal)) z (constant (F := Ideal) S_ .f32 0xFF800000#32)
        Facts₀.reducesTo_S8x512x32000_S8x512_d2 Facts₀.h_S_ (ix2 b t)
      = Cert.Spec.rowMax fun j : Fin 32000 => z (ix3 b t j) := by
  have h : S8x512x32000.Reduces [2] S8x512 := by decide
  rw [Host.reduce_eq_fold_single _ _ _ _ h]
  unfold Cert.Spec.rowMax
  rw [constant_apply, ofBits_neg_inf]
  have e : (z ∘ h.lift (ix2 b t)) = fun j : Fin 32000 => z (ix3 b t j) := funext fun k => by
    exact congrArg z (lift_tok h b t k)
  rw [e]
  rfl

/-- The shifted logits at (b, t, j): the logit minus the token's largest. -/
theorem shifted_apply (z : FVec Ideal S8x512x32000 .f32) (b : Fin 8) (t : Fin 512) (j : Fin 32000) :
    Hand.shifted (F := Ideal) z (ix3 b t j) = z (ix3 b t j) - Cert.Spec.rowMax fun k : Fin 32000 => z (ix3 b t k) := by
  unfold Hand.shifted
  rw [subf_apply, bcast_col_apply, bcast_tok_apply, maximumf_apply, rowmax_apply,
    StableHlo.Predicate.bcast_scalar _ Facts₀.h_S_, constant_apply, ofBits_neg_inf, max_eq_right bot_le]

/-- The sum of exponentials over the classes from 0, at token (b, t). -/
theorem sumexp_apply (y : FVec Ideal S8x512x32000 .f32) (b : Fin 8) (t : Fin 512) :
    Host.reduceAdd (F := Ideal) (Host.exp y) (constant (F := Ideal) S_ .f32 0x00000000#32)
        Facts₀.reducesTo_S8x512x32000_S8x512_d2 Facts₀.h_S_ (ix2 b t)
      = ∑ j : Fin 32000, Ideal.exp (y (ix3 b t j)) := by
  have h : S8x512x32000.Reduces [2] S8x512 := by decide
  unfold Host.reduceAdd
  rw [Ideal.hostReduceAdd_def, Ideal.hostReduceAdd_single _ h, constant_apply, Ideal.ofBits_zero_f32, zero_add]
  refine Finset.sum_congr rfl fun k _ => ?_
  exact congrArg (fun i => Ideal.exp (y i)) (lift_tok h b t k)

/-- The host's logarithm and exponential at an element. -/
theorem hostLog_apply {s : Shape} (x : FVec Ideal s .f32) (i : s.Idx) : Host.log (F := Ideal) x i = Ideal.log (x i) := rfl
theorem hostExp_apply {s : Shape} (x : FVec Ideal s .f32) (i : s.Idx) : Host.exp (F := Ideal) x i = Ideal.exp (x i) := rfl

/-- The log-softmax at (b, t, j). -/
theorem logSoftmax_apply (z : FVec Ideal S8x512x32000 .f32) (b : Fin 8) (t : Fin 512) (j : Fin 32000) :
    Hand.logSoftmax (F := Ideal) z (ix3 b t j)
      = (z (ix3 b t j) - Cert.Spec.rowMax fun k : Fin 32000 => z (ix3 b t k))
        - Ideal.log (∑ k : Fin 32000, Ideal.exp (z (ix3 b t k) - Cert.Spec.rowMax fun k : Fin 32000 => z (ix3 b t k))) := by
  unfold Hand.logSoftmax
  rw [subf_apply, shifted_apply, bcast_col_apply, hostLog_apply, bcast_tok_apply, sumexp_apply]
  simp only [shifted_apply]

/-! ## The labels and the gathered class -/

/-- The labels at (b, t): the target, or class 0 where it is the ignore index. -/
theorem labels_apply (T : IVec S8x512 32) (b : Fin 8) (t : Fin 512) :
    Hand.labels T (ix2 b t) = Cert.Spec.label T b t := by
  show Scalar.select (IntOp.cmpi .ne (T (ix2 b t)) 4294967196#32) (T (ix2 b t)) 0#32 = _
  unfold Cert.Spec.label
  by_cases h : T (ix2 b t) = 4294967196#32
  · rw [if_pos h, h]; rfl
  · have e : IntOp.cmpi .ne (T (ix2 b t)) 4294967196#32 = 1#1 := by
      show BitVec.ofBool (T (ix2 b t) != 4294967196#32) = 1#1
      exact (StableHlo.Predicate.ofBool_eq_one_iff _).2 (by simpa using h)
    rw [if_neg h, e, select_one]

/-- A class index is not negative, so jnp's normalisation leaves it as it is. -/
theorem wrap_word (L : BitVec 32) (hL : L.toNat < 32000) :
    Scalar.select (IntOp.cmpi .slt L 0#32) (IntOp.addi L 32000#32) L = L := by
  have h0 : ¬ IntOp.cmpi .slt L 0#32 = 1#1 := by
    rw [StableHlo.Predicate.slt_iff_toNat (by omega) (by decide)]
    exact Nat.not_lt_zero _
  rw [eq_zero_of_ne_one h0, select_zero]

/-- The normalised index of token (b, t), when the index is a class. -/
theorem wrapIdx_apply (idx : IVec S8x512x1 32) (b : Fin 8) (t : Fin 512) (hL : (idx (ix3 b t (0 : Fin 1))).toNat < 32000) :
    Hand.wrapIdx idx (ix4 b t (0 : Fin 1) (0 : Fin 1)) = idx (ix3 b t (0 : Fin 1)) := by
  unfold Hand.wrapIdx
  rw [shapeCast_apply _ _ _ (ix3 b t (0 : Fin 1)) (by
    rw [Shape.rowMajor_val_three, Shape.rowMajor_val_four]
    show (b.val * 512 + t.val) * 1 + 0 = ((b.val * 512 + t.val) * 1 + 0) * 1 + 0
    omega)]
  exact wrap_word _ hL

/-- A class index passes the range test 0 ≤ · ≤ 31999. -/
theorem range_word (L : BitVec 32) (hL : L.toNat < 32000) :
    IntOp.andi (IntOp.cmpi .sge L 0#32) (IntOp.cmpi .sle L 31999#32) = 1#1 := by
  have h1 : IntOp.cmpi .sge L 0#32 = 1#1 :=
    (StableHlo.Predicate.sge_iff_toNat (by omega) (by decide)).2 (Nat.zero_le _)
  have h2 : IntOp.cmpi .sle L 31999#32 = 1#1 :=
    (StableHlo.Predicate.sle_iff_toNat (by omega) (by decide)).2 (by show L.toNat ≤ 31999; omega)
  rw [h1, h2]; rfl

/-- The and over the unit axis of a bit array, at (b, t, 0), is 1 when its one entry there is. -/
theorem inRange_apply (p : IVec S8x512x1x1 1) (b : Fin 8) (t : Fin 512) (hp : p (ix4 b t (0 : Fin 1) (0 : Fin 1)) = 1#1) :
    Host.reduce IntOp.andi p (constantI S_ 1 1#1) Facts₀.reducesTo_S8x512x1x1_S8x512x1_d3 Facts₀.h_S_ (ix3 b t (0 : Fin 1)) = 1#1 := by
  have h : S8x512x1x1.Reduces [3] S8x512x1 := by decide
  rw [Host.reduce_eq_fold_single _ _ _ _ h]
  have key : ∀ g : Fin 1 → BitVec 1, (Finset.univ : Finset (Fin 1)).fold IntOp.andi 1#1 g = IntOp.andi (g 0) 1#1 :=
    fun g => by rw [Finset.univ_unique, Finset.fold_singleton]; rfl
  refine (key _).trans ?_
  have e : h.lift (ix3 b t (0 : Fin 1)) (0 : Fin 1) = ix4 b t (0 : Fin 1) (0 : Fin 1) :=
    funext fun a => Fin.ext (by
      match a with
      | ⟨0, _⟩ => rfl
      | ⟨1, _⟩ => rfl
      | ⟨2, _⟩ => rfl
      | ⟨3, _⟩ => rfl)
  exact (congrArg (fun i => IntOp.andi (p i) 1#1) e).trans (by rw [hp]; rfl)

theorem gather_op_0 (idx : IVec S8x512x1x1 32) (j : S8x512x1.Idx) :
    (gather_S8x512x32000_S8x512x1x1_S8x512x1_n_2_01_01_2_3_111.operandIdx j idx 0).val = (j 0).val := by
  show gather_S8x512x32000_S8x512x1x1_S8x512x1_n_2_01_01_2_3_111.start j idx 0
      + gather_S8x512x32000_S8x512x1x1_S8x512x1_n_2_01_01_2_3_111.batchCoord j 0
      + gather_S8x512x32000_S8x512x1x1_S8x512x1_n_2_01_01_2_3_111.offCoord j 0 = _
  rw [GatherDims.start_batching _ _ _ _ (show (0 : Fin S8x512x32000.rank) ∈ gather_S8x512x32000_S8x512x1x1_S8x512x1_n_2_01_01_2_3_111.operandBatchingDims by decide),
    GatherDims.offCoord_eq_zero _ _ _ (show (0 : Fin S8x512x32000.rank) ∉ gather_S8x512x32000_S8x512x1x1_S8x512x1_n_2_01_01_2_3_111.sKept by decide),
    Nat.zero_add, Nat.add_zero]
  unfold GatherDims.batchCoord
  rw [dif_pos (show (0 : Fin S8x512x32000.rank) ∈ gather_S8x512x32000_S8x512x1x1_S8x512x1_n_2_01_01_2_3_111.operandBatchingDims by decide)]
  rfl

theorem gather_op_1 (idx : IVec S8x512x1x1 32) (j : S8x512x1.Idx) :
    (gather_S8x512x32000_S8x512x1x1_S8x512x1_n_2_01_01_2_3_111.operandIdx j idx 1).val = (j 1).val := by
  show gather_S8x512x32000_S8x512x1x1_S8x512x1_n_2_01_01_2_3_111.start j idx 1
      + gather_S8x512x32000_S8x512x1x1_S8x512x1_n_2_01_01_2_3_111.batchCoord j 1
      + gather_S8x512x32000_S8x512x1x1_S8x512x1_n_2_01_01_2_3_111.offCoord j 1 = _
  rw [GatherDims.start_batching _ _ _ _ (show (1 : Fin S8x512x32000.rank) ∈ gather_S8x512x32000_S8x512x1x1_S8x512x1_n_2_01_01_2_3_111.operandBatchingDims by decide),
    GatherDims.offCoord_eq_zero _ _ _ (show (1 : Fin S8x512x32000.rank) ∉ gather_S8x512x32000_S8x512x1x1_S8x512x1_n_2_01_01_2_3_111.sKept by decide),
    Nat.zero_add, Nat.add_zero]
  unfold GatherDims.batchCoord
  rw [dif_pos (show (1 : Fin S8x512x32000.rank) ∈ gather_S8x512x32000_S8x512x1x1_S8x512x1_n_2_01_01_2_3_111.operandBatchingDims by decide)]
  rfl

theorem gather_op_2 (idx : IVec S8x512x1x1 32) (b : Fin 8) (t : Fin 512) :
    (gather_S8x512x32000_S8x512x1x1_S8x512x1_n_2_01_01_2_3_111.operandIdx (ix3 b t (0 : Fin 1)) idx 2).val
      = min (idx (ix4 b t (0 : Fin 1) (0 : Fin 1))).toInt.toNat (32000 - 1) := by
  show gather_S8x512x32000_S8x512x1x1_S8x512x1_n_2_01_01_2_3_111.start (ix3 b t (0 : Fin 1)) idx 2
      + gather_S8x512x32000_S8x512x1x1_S8x512x1_n_2_01_01_2_3_111.batchCoord (ix3 b t (0 : Fin 1)) 2
      + gather_S8x512x32000_S8x512x1x1_S8x512x1_n_2_01_01_2_3_111.offCoord (ix3 b t (0 : Fin 1)) 2 = _
  rw [GatherDims.batchCoord_eq_zero _ _ _ (show (2 : Fin S8x512x32000.rank) ∉ gather_S8x512x32000_S8x512x1x1_S8x512x1_n_2_01_01_2_3_111.operandBatchingDims by decide),
    GatherDims.offCoord_eq_zero _ _ _ (show (2 : Fin S8x512x32000.rank) ∉ gather_S8x512x32000_S8x512x1x1_S8x512x1_n_2_01_01_2_3_111.sKept by decide),
    Nat.add_zero]
  unfold GatherDims.start
  rw [dif_pos (show (2 : Fin S8x512x32000.rank) ∈ gather_S8x512x32000_S8x512x1x1_S8x512x1_n_2_01_01_2_3_111.startIndexMap by decide)]
  have hsi : gather_S8x512x32000_S8x512x1x1_S8x512x1_n_2_01_01_2_3_111.siIdx (ix3 b t (0 : Fin 1))
      ⟨List.idxOf (2 : Fin S8x512x32000.rank) gather_S8x512x32000_S8x512x1x1_S8x512x1_n_2_01_01_2_3_111.startIndexMap,
        List.idxOf_lt_length_iff.2 (show (2 : Fin S8x512x32000.rank) ∈ gather_S8x512x32000_S8x512x1x1_S8x512x1_n_2_01_01_2_3_111.startIndexMap by decide)⟩
      = ix4 b t (0 : Fin 1) (0 : Fin 1) := by
    funext c
    refine Fin.ext ?_
    match c with
    | ⟨0, _⟩ => rfl
    | ⟨1, _⟩ => rfl
    | ⟨2, _⟩ => rfl
    | ⟨3, _⟩ => rfl
  rw [hsi]
  rfl

/-- The gather along the classes at (b, t, 0): the token's row of the operand at the start index, read signed and clamped
    into the classes. -/
theorem gather_apply {α : Type} (lp : S8x512x32000.Idx → α) (idx : IVec S8x512x1x1 32) (b : Fin 8) (t : Fin 512) :
    Host.gather gather_S8x512x32000_S8x512x1x1_S8x512x1_n_2_01_01_2_3_111 lp idx (ix3 b t (0 : Fin 1))
      = lp (ix3 b t ⟨min (idx (ix4 b t (0 : Fin 1) (0 : Fin 1))).toInt.toNat (32000 - 1), by omega⟩) := by
  unfold Host.gather
  refine congrArg lp (funext fun a => Fin.ext ?_)
  match a with
  | ⟨0, _⟩ => exact gather_op_0 _ _
  | ⟨1, _⟩ => exact gather_op_1 _ _
  | ⟨2, _⟩ => exact gather_op_2 _ _ _

/-- jnp's take along the classes at (b, t, 0), when the index there is the class n: the operand's entry at class n. -/
theorem takeAlong_apply (lp : FVec Ideal S8x512x32000 .f32) (idx : IVec S8x512x1 32) (b : Fin 8) (t : Fin 512) (n : ℕ)
    (hn : (idx (ix3 b t (0 : Fin 1))).toNat = n) (hlt : n < 32000) :
    Hand.takeAlong (F := Ideal) lp idx (ix3 b t (0 : Fin 1)) = lp (ix3 b t ⟨n, hlt⟩) := by
  have hL : (idx (ix3 b t (0 : Fin 1))).toNat < 32000 := by omega
  have hw := wrapIdx_apply idx b t hL
  have hr : andi (cmpi .sge (Hand.wrapIdx idx) (broadcastInDim S8x512x1x1 ![] Facts₀.bcast_S_S8x512x1x1 (constantI S_ 32 0#32)))
      (cmpi .sle (Hand.wrapIdx idx) (broadcastInDim S8x512x1x1 ![0, 1, 2, 3] Facts₀.bcast_S1x1x1x1_S8x512x1x1_0_1_2_3
        (broadcastInDim S1x1x1x1 ![3] Facts₀.bcast_S1_S1x1x1x1_3 (constantI S1 32 31999#32))))
      (ix4 b t (0 : Fin 1) (0 : Fin 1)) = 1#1 := by
    show IntOp.andi (IntOp.cmpi .sge (Hand.wrapIdx idx (ix4 b t (0 : Fin 1) (0 : Fin 1))) 0#32)
      (IntOp.cmpi .sle (Hand.wrapIdx idx (ix4 b t (0 : Fin 1) (0 : Fin 1))) 31999#32) = 1#1
    rw [hw]
    exact range_word _ hL
  unfold Hand.takeAlong
  rw [select_apply, inRange_apply _ b t hr, select_one, gather_apply]
  refine congrArg (fun c => lp (ix3 b t c)) (Fin.ext ?_)
  show min (Hand.wrapIdx idx (ix4 b t (0 : Fin 1) (0 : Fin 1))).toInt.toNat (32000 - 1) = n
  rw [hw, StableHlo.Predicate.toInt_eq_toNat_of_lt (by omega), Int.toNat_natCast, hn]
  omega

/-- The reference's log-probability of token (b, t)'s label is the specification's. -/
theorem refTok_apply (W : FVec Ideal S32000x2048 .f32) (X : FVec Ideal S8x512x2048 .f32) (T : IVec S8x512 32) (B : FVec Ideal S32000 .f32)
    (hlab : ∀ (b : Fin 8) (t : Fin 512), (Cert.Spec.label T b t).toNat < 32000) (b : Fin 8) (t : Fin 512) :
    Hand.refTok (F := Ideal) W X T B (ix2 b t) = Cert.Spec.logpAt W X T B b t := by
  unfold Hand.refTok
  rw [shapeCast_apply _ _ _ (ix3 b t (0 : Fin 1)) (by
    rw [Shape.rowMajor_val_three, Shape.rowMajor_val_two]
    show (b.val * 512 + t.val) * 1 + 0 = b.val * 512 + t.val
    omega)]
  have hidx : (broadcastInDim S8x512x1 ![0, 1] Facts₀.bcast_S8x512_S8x512x1_0_1 (Hand.labels T) (ix3 b t (0 : Fin 1))).toNat
      = (Cert.Spec.label T b t).toNat := by
    rw [bcast_tok_apply, labels_apply]
  rw [takeAlong_apply _ _ b t _ hidx (hlab b t), logSoftmax_apply]
  simp only [logits_apply]
  unfold Cert.Spec.logpAt Cert.Spec.tokLogp Cert.Spec.pick
  rw [dif_pos (hlab b t)]

end Cert.ReferenceIdeal.RefValue

end
-- ==== Proof.TailEq.lean ====
/-
  The two programs build the loss from the per-token log-probabilities by the same operations, except that the
  kernel program counts the unmasked tokens by a float sum of the mask and the reference by an integer sum
  converted to float: the two counts are the same number, so the two results are equal.
-/
import proofs.«178825_j46720654246580_1_alg».proof.Proof.KTerm
import proofs.«178825_j46720654246580_1_alg».proof.Proof.RTerm
import Idealize.ShloMosaic.Lib.ValueIdx
import Idealize.ShloMosaic.PureOps.Ideal.Laws
import Idealize.ShloMosaic.Lib.IndicatorCount
import Idealize.ShloMosaic.Lib.StableHlo.Predicate

noncomputable section

open scoped BigOperators

namespace Cert.TailEq

open Idealize.ShloMosaic Idealize.ShloMosaic.ValueIdx

/-- One bit read unsigned as an extended real is 1 when the bit is set and 0 otherwise. -/
theorem bit_toNat_ereal (b : BitVec 1) : (((b.toNat : ℝ)) : EReal) = if b = 1#1 then (1 : EReal) else 0 := by
  rcases BitVec.eq_zero_or_eq_one b with rfl | rfl
  · simp
  · simp

/-- A count below 2³¹, as a 32-bit word read signed, is the count. -/
theorem toInt_ofNat_count (c : ℕ) (hc : c < 2 ^ 31) : (BitVec.ofNat 32 c).toInt = (c : ℤ) := by
  rw [BitVec.toInt_eq_toNat_cond, BitVec.toNat_ofNat]
  have : c % 2 ^ 32 = c := Nat.mod_eq_of_lt (by omega)
  rw [this]
  split
  · rfl
  · omega

/-- THE COUNT, TWO WAYS. Over any axes of any shape of fewer than 2³¹ elements, the float sum from zero of a
    one-bit mask read as 0/1 is the integer sum from zero of the mask widened to 32 bits, converted: both are the
    number of set bits among the elements reduced into the result index. -/
theorem floatCount_eq_intCount {s t u : Shape} {axes : List (Fin s.rank)} (m : IVec s 1) (hw : 1 < 32)
    (h : s.ReducesTo axes t) (hu : 0 < u.numel) (hs : s.numel < 2 ^ 31) :
    (Host.reduceAdd (F := Ideal) (uitofp .f32 m) (constant u .f32 0x00000000#32) h hu : FVec Ideal t .f32)
      = sitofp .f32 (Host.reduce IntOp.addi (extui 32 m hw) (constantI u 32 0#32) h hu) := by
  classical
  funext j
  show Ideal.hostReduceAdd h (uitofp (F := Ideal) .f32 m) (Ideal.ofBits .f32 0x00000000#32) j
    = ((((Host.reduce IntOp.addi (extui 32 m hw) (constantI u 32 0#32) h hu j).toInt : ℝ)) : EReal)
  rw [Host.reduce_eq_fold]
  show Ideal.hostReduceAdd h (uitofp (F := Ideal) .f32 m) (Ideal.ofBits .f32 0x00000000#32) j
    = ((((Finset.univ.filter fun i => h.drop i = j).fold IntOp.addi (0#32) (fun k => (m k).setWidth 32)).toInt : ℝ) : EReal)
  rw [IndicatorCount.fold_addi_setWidth_eq_card, Ideal.ofBits_zero_f32]
  unfold Ideal.hostReduceAdd
  have hc : ((Finset.univ.filter fun i => h.drop i = j).filter fun k => m k = 1#1).card < 2 ^ 31 :=
    lt_of_le_of_lt ((Finset.card_le_univ _).trans_eq (Shape.card_idx s)) hs
  rw [toInt_ofNat_count _ hc, zero_add]
  show ∑ i ∈ Finset.univ.filter (fun i => h.drop i = j), ((((m i).toNat : ℝ)) : EReal) = _
  simp only [bit_toNat_ereal]
  rw [Finset.sum_boole]
  norm_cast

/-- The two programs' masks are the same comparison of the targets with the ignore index. -/
theorem maskI_eq (T : IVec Cert.KernelIdeal.S8x512 32) :
    Cert.KernelIdeal.Hand.maskI T = Cert.ReferenceIdeal.Hand.maskI T := rfl

/-- The two programs build the loss from the masked log-probabilities and the counts by the same operations. -/
theorem lossOf_eq {F : FTy → Type} [FloatOps F] (pm : FVec F Cert.KernelIdeal.S8x512 .f32)
    (c8 : FVec F Cert.KernelIdeal.S8 .f32) (c0 : FVec F Cert.KernelIdeal.S_ .f32) :
    Cert.KernelIdeal.Hand.lossOf pm c8 c0 = Cert.ReferenceIdeal.Hand.lossOf pm c8 c0 := rfl

/-- From the same per-token log-probabilities and targets the two programs end at the same loss. -/
theorem tail_eq (P : FVec Ideal Cert.KernelIdeal.S8x512 .f32) (T : IVec Cert.KernelIdeal.S8x512 32) :
    Cert.KernelIdeal.Hand.tailK (F := Ideal) P T = Cert.ReferenceIdeal.Hand.tailR (F := Ideal) P T := by
  unfold Cert.KernelIdeal.Hand.tailK Cert.ReferenceIdeal.Hand.tailR
  rw [lossOf_eq, maskI_eq]
  -- the per-sequence counts: the 8 × 512 mask summed along each sequence
  have h8 := floatCount_eq_intCount (Cert.ReferenceIdeal.Hand.maskI T) Cert.ReferenceIdeal.Facts₀.natLt_1_32
    Cert.ReferenceIdeal.Facts₀.reducesTo_S8x512_S8_d1 Cert.ReferenceIdeal.Facts₀.h_S_ (by decide)
  -- the chosen half's count: the first four sequences' 4 × 512 slice of the mask summed over both axes;
  -- reading a bit as 0/1 commutes with taking the slice
  have h0 := floatCount_eq_intCount
    (extractStridedSlice Cert.ReferenceIdeal.S4x512 ![0, 0] (Cert.ReferenceIdeal.Hand.maskI T)
      Cert.ReferenceIdeal.Facts₀.slices_S8x512_S4x512_0_0)
    Cert.ReferenceIdeal.Facts₀.natLt_1_32 Cert.ReferenceIdeal.Facts₀.reducesTo_S4x512_S_d0_1
    Cert.ReferenceIdeal.Facts₀.h_S_ (by decide)
  exact congrArg₂ (Cert.ReferenceIdeal.Hand.lossOf (mulf P (uitofp .f32 (Cert.ReferenceIdeal.Hand.maskI T)))) h8 h0

end Cert.TailEq

end
-- ==== Proof.lean ====
/-
  The certificate: a fused linear layer + log-softmax + label pick + preference loss, computed by a kernel that
  streams the 32000 classes in 125 chunks with an online softmax, equals the reference that materialises the logits.

  For a token with real logits x and a label that is a class, the kernel's label maximum - (maximum + log sum), carried
  over the chunks with the sum rescaled whenever the maximum grows, and the reference's (x lab - M) - log ∑ exp (x j - M)
  are the same extended real: exp (a - b) · exp (c - a) = exp (c - b) regroups the running sum, and x - (M + L) = (x - M) - L
  on real numbers.  Both programs then build the loss from the tokens' log-probabilities by the same operations; the
  counts of unmasked tokens, a float sum of the mask in one and a converted integer sum in the other, are one number.
  The precondition supplies what the law needs: finite float inputs make every logit real, and targets that are the
  ignore index or a class make every label a class.
-/
import proofs.«178825_j46720654246580_1_alg».proof.Defs
import proofs.«178825_j46720654246580_1_alg».proof.Proof.Gen.Kernel
import proofs.«178825_j46720654246580_1_alg».proof.Proof.Gen.Kernel.Skeleton
import proofs.«178825_j46720654246580_1_alg».proof.Proof.Gen.Kernel.Launch
import proofs.«178825_j46720654246580_1_alg».proof.Proof.Gen.Kernel.Points
import proofs.«178825_j46720654246580_1_alg».proof.Proof.Gen.Kernel.Frame
import proofs.«178825_j46720654246580_1_alg».proof.Proof.Gen.KernelIdeal
import proofs.«178825_j46720654246580_1_alg».proof.Proof.Gen.KernelIdeal.Skeleton
import proofs.«178825_j46720654246580_1_alg».proof.Proof.Gen.KernelIdeal.Launch
import proofs.«178825_j46720654246580_1_alg».proof.Proof.Gen.KernelIdeal.Points
import proofs.«178825_j46720654246580_1_alg».proof.Proof.Gen.KernelIdeal.Frame
import proofs.«178825_j46720654246580_1_alg».proof.Proof.Gen.ReferenceIdeal
import proofs.«178825_j46720654246580_1_alg».proof.Proof.Gen.Pre_finite_inputs
import proofs.«178825_j46720654246580_1_alg».proof.Proof.PreFacts
import proofs.«178825_j46720654246580_1_alg».proof.Proof.KOut
import proofs.«178825_j46720654246580_1_alg».proof.Proof.RefRun
import proofs.«178825_j46720654246580_1_alg».proof.Proof.RefValue
import proofs.«178825_j46720654246580_1_alg».proof.Proof.TailEq
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Under the precondition the kernel program's arguments are real and its labels are classes. -/
theorem good_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.KValue.Good m c := by
  obtain ⟨hW, hX, hB, hT⟩ := Cert.PreFacts.decode _ _ _ _ (hpre c)
  exact ⟨hW, hX, hB, fun b t => Cert.PreFacts.label_lt _ hT b t⟩

/-- At the ideal instance both programs end at the loss of the tokens' log-probabilities. -/
theorem algebraic : Cert.algebraic_KernelIdeal_ReferenceIdeal := by
  intro m ρ m' ρ' hpre hagree
  have hg := good_of_pre m hpre
  refine ⟨_, Cert.KernelIdeal.KValue.run m ρ hg, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  unfold Cert.ReferenceIdeal.Hand.refOut
  have hP : Cert.ReferenceIdeal.Hand.refTok (F := Ideal) (Cert.KernelIdeal.KValue.Wm m c) (Cert.KernelIdeal.KValue.Xm m c)
        (Cert.KernelIdeal.KValue.Tm m c) (Cert.KernelIdeal.KValue.Bm m c)
      = Cert.Spec.logpArr (Cert.KernelIdeal.KValue.Wm m c) (Cert.KernelIdeal.KValue.Xm m c) (Cert.KernelIdeal.KValue.Tm m c)
          (Cert.KernelIdeal.KValue.Bm m c) := by
    funext i
    obtain ⟨b, t, rfl⟩ : ∃ (b : Fin 8) (t : Fin 512), i = ix2 b t := ⟨i 0, i 1, eq_ix2 i⟩
    rw [Cert.ReferenceIdeal.RefValue.refTok_apply _ _ _ _ (hg c).hL b t, Cert.Spec.logpArr_ix2]
  exact (congrArg (fun P => Cert.ReferenceIdeal.Hand.tailR (F := Ideal) P (Cert.KernelIdeal.KValue.Tm m c)) hP).trans
    (Cert.TailEq.tail_eq _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
